-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2500000 : Shape := ⟨1, ![2500000]⟩
abbrev S100000x5 : Shape := ⟨2, ![100000, 5]⟩
abbrev S50000x5 : Shape := ⟨2, ![50000, 5]⟩
abbrev S5x100000 : Shape := ⟨2, ![5, 100000]⟩
abbrev S5x50000 : Shape := ⟨2, ![5, 50000]⟩
abbrev S2x2x2500000 : Shape := ⟨3, ![2, 2, 2500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2500000 : S_.BroadcastsInDim S2500000 (![] : Fin 0 → Fin S2500000.rank)
  reducesTo_S2500000_S_d0 : S2500000.ReducesTo [0] S_
  bcast_S_S100000x5 : S_.BroadcastsInDim S100000x5 (![] : Fin 0 → Fin S100000x5.rank)
  reducesTo_S100000x5_S_d0_1 : S100000x5.ReducesTo [0, 1] S_
  bcast_S_S50000x5 : S_.BroadcastsInDim S50000x5 (![] : Fin 0 → Fin S50000x5.rank)
  reducesTo_S50000x5_S_d0_1 : S50000x5.ReducesTo [0, 1] S_
  bcast_S_S5x100000 : S_.BroadcastsInDim S5x100000 (![] : Fin 0 → Fin S5x100000.rank)
  reducesTo_S5x100000_S_d0_1 : S5x100000.ReducesTo [0, 1] S_
  bcast_S_S5x50000 : S_.BroadcastsInDim S5x50000 (![] : Fin 0 → Fin S5x50000.rank)
  reducesTo_S5x50000_S_d0_1 : S5x50000.ReducesTo [0, 1] S_
  bcast_S_S2x2x2500000 : S_.BroadcastsInDim S2x2x2500000 (![] : Fin 0 → Fin S2x2x2500000.rank)
  reducesTo_S2x2x2500000_S_d0_1_2 : S2x2x2500000.ReducesTo [0, 1, 2] S_

variable [Facts]

def fn_part3 {F : FTy → Type} [FloatOps F] (main_v45 : IVec S_ 1) (main_v50 : IVec S2500000 1) : IVec S_ 1 :=
  let main_c_19 : IVec S_ 1 := constantI S_ 1 1#1
  let main_v51 : IVec S_ 1 := (fun x v => Host.reduce IntOp.andi x v reducesTo_S2500000_S_d0 h_S_) main_v50 main_c_19
  let main_v52 : IVec S_ 1 := andi main_v45 main_v51
  main_v52

def fn_part2 {F : FTy → Type} [FloatOps F] (main_arg7 : FVec F S2x2x2500000 .f32) (main_arg8 : IVec S2500000 32) (main_arg9 : IVec S2500000 32) (main_v33 : IVec S_ 1) : IVec S_ 1 :=
  let main_v34 : FVec F S2x2x2500000 .f32 := Host.absf main_arg7
  let main_cst_12 : FVec F S_ .f32 := constant S_ .f32 0x7F800000#32
  let main_v35 : FVec F S2x2x2500000 .f32 := broadcastInDim S2x2x2500000 ![] bcast_S_S2x2x2500000 main_cst_12
  let main_v36 : IVec S2x2x2500000 1 := cmpf .olt main_v34 main_v35
  let main_c_13 : IVec S_ 1 := constantI S_ 1 1#1
  let main_v37 : IVec S_ 1 := (fun x v => Host.reduce IntOp.andi x v reducesTo_S2x2x2500000_S_d0_1_2 h_S_) main_v36 main_c_13
  let main_v38 : IVec S_ 1 := andi main_v33 main_v37
  let main_c_14 : IVec S_ 32 := constantI S_ 32 0#32
  let main_v39 : IVec S2500000 32 := broadcastInDim S2500000 ![] bcast_S_S2500000 main_c_14
  let main_v40 : IVec S2500000 1 := cmpi .sge main_arg8 main_v39
  let main_c_15 : IVec S_ 32 := constantI S_ 32 100000#32
  let main_v41 : IVec S2500000 32 := broadcastInDim S2500000 ![] bcast_S_S2500000 main_c_15
  let main_v42 : IVec S2500000 1 := cmpi .slt main_arg8 main_v41
  let main_v43 : IVec S2500000 1 := andi main_v40 main_v42
  let main_c_16 : IVec S_ 1 := constantI S_ 1 1#1
  let main_v44 : IVec S_ 1 := (fun x v => Host.reduce IntOp.andi x v reducesTo_S2500000_S_d0 h_S_) main_v43 main_c_16
  let main_v45 : IVec S_ 1 := andi main_v38 main_v44
  let main_c_17 : IVec S_ 32 := constantI S_ 32 0#32
  let main_v46 : IVec S2500000 32 := broadcastInDim S2500000 ![] bcast_S_S2500000 main_c_17
  let main_v47 : IVec S2500000 1 := cmpi .sge main_arg9 main_v46
  let main_c_18 : IVec S_ 32 := constantI S_ 32 50000#32
  let main_v48 : IVec S2500000 32 := broadcastInDim S2500000 ![] bcast_S_S2500000 main_c_18
  let main_v49 : IVec S2500000 1 := cmpi .slt main_arg9 main_v48
  let main_v50 : IVec S2500000 1 := andi main_v47 main_v49
  fn_part3 (F := F) main_v45 main_v50

def fn_part1 {F : FTy → Type} [FloatOps F] (main_arg4 : FVec F S50000x5 .f32) (main_arg5 : FVec F S5x100000 .f32) (main_arg6 : FVec F S5x50000 .f32) (main_arg7 : FVec F S2x2x2500000 .f32) (main_arg8 : IVec S2500000 32) (main_arg9 : IVec S2500000 32) (main_v13 : IVec S_ 1) (main_v16 : IVec S100000x5 1) : IVec S_ 1 :=
  let main_c_5 : IVec S_ 1 := constantI S_ 1 1#1
  let main_v17 : IVec S_ 1 := (fun x v => Host.reduce IntOp.andi x v reducesTo_S100000x5_S_d0_1 h_S_) main_v16 main_c_5
  let main_v18 : IVec S_ 1 := andi main_v13 main_v17
  let main_v19 : FVec F S50000x5 .f32 := Host.absf main_arg4
  let main_cst_6 : FVec F S_ .f32 := constant S_ .f32 0x7F800000#32
  let main_v20 : FVec F S50000x5 .f32 := broadcastInDim S50000x5 ![] bcast_S_S50000x5 main_cst_6
  let main_v21 : IVec S50000x5 1 := cmpf .olt main_v19 main_v20
  let main_c_7 : IVec S_ 1 := constantI S_ 1 1#1
  let main_v22 : IVec S_ 1 := (fun x v => Host.reduce IntOp.andi x v reducesTo_S50000x5_S_d0_1 h_S_) main_v21 main_c_7
  let main_v23 : IVec S_ 1 := andi main_v18 main_v22
  let main_v24 : FVec F S5x100000 .f32 := Host.absf main_arg5
  let main_cst_8 : FVec F S_ .f32 := constant S_ .f32 0x7F800000#32
  let main_v25 : FVec F S5x100000 .f32 := broadcastInDim S5x100000 ![] bcast_S_S5x100000 main_cst_8
  let main_v26 : IVec S5x100000 1 := cmpf .olt main_v24 main_v25
  let main_c_9 : IVec S_ 1 := constantI S_ 1 1#1
  let main_v27 : IVec S_ 1 := (fun x v => Host.reduce IntOp.andi x v reducesTo_S5x100000_S_d0_1 h_S_) main_v26 main_c_9
  let main_v28 : IVec S_ 1 := andi main_v23 main_v27
  let main_v29 : FVec F S5x50000 .f32 := Host.absf main_arg6
  let main_cst_10 : FVec F S_ .f32 := constant S_ .f32 0x7F800000#32
  let main_v30 : FVec F S5x50000 .f32 := broadcastInDim S5x50000 ![] bcast_S_S5x50000 main_cst_10
  let main_v31 : IVec S5x50000 1 := cmpf .olt main_v29 main_v30
  let main_c_11 : IVec S_ 1 := constantI S_ 1 1#1
  let main_v32 : IVec S_ 1 := (fun x v => Host.reduce IntOp.andi x v reducesTo_S5x50000_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S50000x64 .f32) (main_arg2 : FVec F S2500000 .f32) (main_arg3 : FVec F S100000x5 .f32) (main_arg4 : FVec F S50000x5 .f32) (main_arg5 : FVec F S5x100000 .f32) (main_arg6 : FVec F S5x50000 .f32) (main_arg7 : FVec F S2x2x2500000 .f32) (main_arg8 : IVec S2500000 32) (main_arg9 : IVec S2500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2500000 .f32 := Host.absf main_arg2
  let main_cst_2 : FVec F S_ .f32 := constant S_ .f32 0x7F800000#32
  let main_v10 : FVec F S2500000 .f32 := broadcastInDim S2500000 ![] bcast_S_S2500000 main_cst_2
  let main_v11 : IVec S2500000 1 := cmpf .olt main_v9 main_v10
  let main_c_3 : IVec S_ 1 := constantI S_ 1 1#1
  let main_v12 : IVec S_ 1 := (fun x v => Host.reduce IntOp.andi x v reducesTo_S2500000_S_d0 h_S_) main_v11 main_c_3
  let main_v13 : IVec S_ 1 := andi main_v8 main_v12
  let main_v14 : FVec F S100000x5 .f32 := Host.absf main_arg3
  let main_cst_4 : FVec F S_ .f32 := constant S_ .f32 0x7F800000#32
  let main_v15 : FVec F S100000x5 .f32 := broadcastInDim S100000x5 ![] bcast_S_S100000x5 main_cst_4
  let main_v16 : IVec S100000x5 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S50000x64 : Shape := ⟨2, ![50000, 64]⟩
abbrev S2500000 : Shape := ⟨1, ![2500000]⟩
abbrev S100000x5 : Shape := ⟨2, ![100000, 5]⟩
abbrev S50000x5 : Shape := ⟨2, ![50000, 5]⟩
abbrev S5x100000 : Shape := ⟨2, ![5, 100000]⟩
abbrev S5x50000 : Shape := ⟨2, ![5, 50000]⟩
abbrev S2x2x2500000 : Shape := ⟨3, ![2, 2, 2500000]⟩
abbrev S_ : Shape := ⟨0, ![]⟩
abbrev S2500608 : Shape := ⟨1, ![2500608]⟩
abbrev S19536x128 : Shape := ⟨2, ![19536, 128]⟩
abbrev S2x1x2500000 : Shape := ⟨3, ![2, 1, 2500000]⟩
abbrev S2x2500000 : Shape := ⟨2, ![2, 2500000]⟩
abbrev S2x2500608 : Shape := ⟨2, ![2, 2500608]⟩
abbrev S2x19536x128 : Shape := ⟨3, ![2, 19536, 128]⟩
abbrev S3256x128 : Shape := ⟨2, ![3256, 128]⟩
abbrev S1x3256x128 : Shape := ⟨3, ![1, 3256, 128]⟩
abbrev S1x2500000 : Shape := ⟨2, ![1, 2500000]⟩
abbrev S2500000x1 : Shape := ⟨2, ![2500000, 1]⟩
abbrev S1 : Shape := ⟨1, ![1]⟩
abbrev S1x1 : Shape := ⟨2, ![1, 1]⟩
abbrev S2500000x64 : Shape := ⟨2, ![2500000, 64]⟩
abbrev S5x51200 : Shape := ⟨2, ![5, 51200]⟩
abbrev S51200x64 : Shape := ⟨2, ![51200, 64]⟩
abbrev S5x64 : Shape := ⟨2, ![5, 64]⟩
abbrev S5x2048 : Shape := ⟨2, ![5, 2048]⟩
abbrev S2048x64 : Shape := ⟨2, ![2048, 64]⟩
abbrev S5x100352 : Shape := ⟨2, ![5, 100352]⟩
abbrev S100352x64 : Shape := ⟨2, ![100352, 64]⟩
abbrev S5000x5 : Shape := ⟨2, ![5000, 5]⟩
abbrev S5000x64 : Shape := ⟨2, ![5000, 64]⟩

abbrev nBuf : Space → Nat
  | .hbm => 200
  | .vmem => 50
  | .smem => 0
  | _ => 0

abbrev hbmTy0_0 (i : Nat) : BufTy := match i % 128 with
  | 0 => ⟨S100000x64, .f32⟩
  | 1 => ⟨S50000x64, .f32⟩
  | 2 => ⟨S2500000, .f32⟩
  | 3 => ⟨S100000x5, .f32⟩
  | 4 => ⟨S50000x5, .f32⟩
  | 5 => ⟨S5x100000, .f32⟩
  | 6 => ⟨S5x50000, .f32⟩
  | 7 => ⟨S2x2x2500000, .f32⟩
  | 8 => ⟨S2500000, .i32⟩
  | 9 => ⟨S2500000, .i32⟩
  | 10 => ⟨S_, .i32⟩
  | 11 => ⟨S_, .f32⟩
  | 12 => ⟨S2500608, .f32⟩
  | 13 => ⟨S19536x128, .f32⟩
  | 14 => ⟨S2x1x2500000, .f32⟩
  | 15 => ⟨S2x2500000, .f32⟩
  | 16 => ⟨S2x1x2500000, .f32⟩
  | 17 => ⟨S2x2500000, .f32⟩
  | 18 => ⟨S_, .i32⟩
  | 19 => ⟨S_, .f32⟩
  | 20 => ⟨S2x2500608, .f32⟩
  | 21 => ⟨S2x19536x128, .f32⟩
  | 22 => ⟨S_, .i32⟩
  | 23 => ⟨S_, .f32⟩
  | 24 => ⟨S2x2500608, .f32⟩
  | 25 => ⟨S2x19536x128, .f32⟩
  | 26 => ⟨S2x19536x128, .f32⟩
  | 27 => ⟨S2x19536x128, .f32⟩
  | 28 => ⟨S2x2500608, .f32⟩
  | 29 => ⟨S2x2500000, .f32⟩
  | 30 => ⟨S2x2500608, .f32⟩
  | 31 => ⟨S2x2500000, .f32⟩
  | 32 => ⟨S1x2500000, .f32⟩
  | 33 => ⟨S2500000, .f32⟩
  | 34 => ⟨S1x2500000, .f32⟩
  | 35 => ⟨S2500000, .f32⟩
  | 36 => ⟨S_, .i32⟩
  | 37 => ⟨S2500000, .i32⟩
  | 38 => ⟨S2500000, .i1⟩
  | 39 => ⟨S_, .i32⟩
  | 40 => ⟨S2500000, .i32⟩
  | 41 => ⟨S2500000, .i32⟩
  | 42 => ⟨S2500000, .i32⟩
  | 43 => ⟨S2500000x1, .i32⟩
  | 44 => ⟨S1, .i32⟩
  | 45 => ⟨S_, .i32⟩
  | 46 => ⟨S2500000x1, .i32⟩
  | 47 => ⟨S2500000x1, .i1⟩
  | 48 => ⟨S1x1, .i32⟩
  | 49 => ⟨S2500000x1, .i32⟩
  | 50 => ⟨S2500000x1, .i1⟩
  | 51 => ⟨S2500000x1, .i1⟩
  | 52 => ⟨S_, .i1⟩
  | 53 => ⟨S2500000, .i1⟩
  | 54 => ⟨S2500000x64, .f32⟩
  | 55 => ⟨S2500000x64, .i1⟩
  | 56 => ⟨S_, .f32⟩
  | 57 => ⟨S2500000x64, .f32⟩
  | 58 => ⟨S2500000x64, .f32⟩
  | 59 => ⟨S2500000x1, .f32⟩
  | 60 => ⟨S2500000x64, .f32⟩
  | 61 => ⟨S2500000x64, .f32⟩
  | 62 => ⟨S_, .f32⟩
  | 63 => ⟨S100000x64, .f32⟩
  | 64 => ⟨S2500000x1, .i32⟩
  | 65 => ⟨S100000x64, .f32⟩
  | 66 => ⟨S_, .i32⟩
  | 67 => ⟨S2500000, .i32⟩
  | 68 => ⟨S2500000, .i1⟩
  | 69 => ⟨S_, .i32⟩
  | 70 => ⟨S2500000, .i32⟩
  | 71 => ⟨S2500000, .i32⟩
  | 72 => ⟨S2500000, .i32⟩
  | 73 => ⟨S2500000x1, .i32⟩
  | 74 => ⟨S1, .i32⟩
  | 75 => ⟨S_, .i32⟩
  | 76 => ⟨S2500000x1, .i32⟩
  | 77 => ⟨S2500000x1, .i1⟩
  | 78 => ⟨S1x1, .i32⟩
  | 79 => ⟨S2500000x1, .i32⟩
  | 80 => ⟨S2500000x1, .i1⟩
  | 81 => ⟨S2500000x1, .i1⟩
  | 82 => ⟨S_, .i1⟩
  | 83 => ⟨S2500000, .i1⟩
  | 84 => ⟨S2500000x64, .f32⟩
  | 85 => ⟨S2500000x64, .i1⟩
  | 86 => ⟨S_, .f32⟩
  | 87 => ⟨S2500000x64, .f32⟩
  | 88 => ⟨S2500000x64, .f32⟩
  | 89 => ⟨S2500000x1, .f32⟩
  | 90 => ⟨S2500000x64, .f32⟩
  | 91 => ⟨S2500000x64, .f32⟩
  | 92 => ⟨S_, .f32⟩
  | 93 => ⟨S50000x64, .f32⟩
  | 94 => ⟨S2500000x1, .i32⟩
  | 95 => ⟨S50000x64, .f32⟩
  | 96 => ⟨S_, .i32⟩
  | 97 => ⟨S_, .f32⟩
  | 98 => ⟨S5x51200, .f32⟩
  | 99 => ⟨S_, .i32⟩
  | 100 => ⟨S_, .f32⟩
  | 101 => ⟨S51200x64, .f32⟩
  | 102 => ⟨S5x64, .f32⟩
  | 103 => ⟨S_, .i32⟩
  | 104 => ⟨S_, .f32⟩
  | 105 => ⟨S5x100352, .f32⟩
  | 106 => ⟨S_, .i32⟩
  | 107 => ⟨S_, .f32⟩
  | 108 => ⟨S100352x64, .f32⟩
  | 109 => ⟨S5x64, .f32⟩
  | 110 => ⟨S100000x64, .f32⟩
  | 111 => ⟨S50000x64, .f32⟩
  | 112 => ⟨S100000x64, .f32⟩
  | 113 => ⟨S50000x64, .f32⟩
  | 114 => ⟨S100000x64, .f32⟩
  | 115 => ⟨S50000x64, .f32⟩
  | 116 => ⟨S1x2500000, .f32⟩
  | 117 => ⟨S2500000, .f32⟩
  | 118 => ⟨S1x2500000, .f32⟩
  | 119 => ⟨S2500000, .f32⟩
  | 120 => ⟨S_, .i32⟩
  | 121 => ⟨S2500000, .i32⟩
  | 122 => ⟨S2500000, .i1⟩
  | 123 => ⟨S_, .i32⟩
  | 124 => ⟨S2500000, .i32⟩
  | 125 => ⟨S2500000, .i32⟩
  | 126 => ⟨S2500000, .i32⟩
  | 127 => ⟨S2500000x1, .i32⟩
  | _ => ⟨S100000x64, .f32⟩

abbrev hbmTy0_1 (i : Nat) : BufTy := match i % 128 with
  | 0 => ⟨S1, .i32⟩
  | 1 => ⟨S_, .i32⟩
  | 2 => ⟨S2500000x1, .i32⟩
  | 3 => ⟨S2500000x1, .i1⟩
  | 4 => ⟨S1x1, .i32⟩
  | 5 => ⟨S2500000x1, .i32⟩
  | 6 => ⟨S2500000x1, .i1⟩
  | 7 => ⟨S2500000x1, .i1⟩
  | 8 => ⟨S_, .i1⟩
  | 9 => ⟨S2500000, .i1⟩
  | 10 => ⟨S2500000x64, .f32⟩
  | 11 => ⟨S2500000x64, .i1⟩
  | 12 => ⟨S_, .f32⟩
  | 13 => ⟨S2500000x64, .f32⟩
  | 14 => ⟨S2500000x64, .f32⟩
  | 15 => ⟨S2500000x1, .f32⟩
  | 16 => ⟨S2500000x64, .f32⟩
  | 17 => ⟨S2500000x64, .f32⟩
  | 18 => ⟨S_, .f32⟩
  | 19 => ⟨S100000x64, .f32⟩
  | 20 => ⟨S2500000x1, .i32⟩
  | 21 => ⟨S100000x64, .f32⟩
  | 22 => ⟨S_, .i32⟩
  | 23 => ⟨S2500000, .i32⟩
  | 24 => ⟨S2500000, .i1⟩
  | 25 => ⟨S_, .i32⟩
  | 26 => ⟨S2500000, .i32⟩
  | 27 => ⟨S2500000, .i32⟩
  | 28 => ⟨S2500000, .i32⟩
  | 29 => ⟨S2500000x1, .i32⟩
  | 30 => ⟨S1, .i32⟩
  | 31 => ⟨S_, .i32⟩
  | 32 => ⟨S2500000x1, .i32⟩
  | 33 => ⟨S2500000x1, .i1⟩
  | 34 => ⟨S1x1, .i32⟩
  | 35 => ⟨S2500000x1, .i32⟩
  | 36 => ⟨S2500000x1, .i1⟩
  | 37 => ⟨S2500000x1, .i1⟩
  | 38 => ⟨S_, .i1⟩
  | 39 => ⟨S2500000, .i1⟩
  | 40 => ⟨S2500000x64, .f32⟩
  | 41 => ⟨S2500000x64, .i1⟩
  | 42 => ⟨S_, .f32⟩
  | 43 => ⟨S2500000x64, .f32⟩
  | 44 => ⟨S2500000x64, .f32⟩
  | 45 => ⟨S2500000x1, .f32⟩
  | 46 => ⟨S2500000x64, .f32⟩
  | 47 => ⟨S2500000x64, .f32⟩
  | 48 => ⟨S_, .f32⟩
  | 49 => ⟨S50000x64, .f32⟩
  | 50 => ⟨S2500000x1, .i32⟩
  | 51 => ⟨S50000x64, .f32⟩
  | 52 => ⟨S_, .i32⟩
  | 53 => ⟨S_, .f32⟩
  | 54 => ⟨S5x51200, .f32⟩
  | 55 => ⟨S_, .i32⟩
  | 56 => ⟨S_, .f32⟩
  | 57 => ⟨S51200x64, .f32⟩
  | 58 => ⟨S5x64, .f32⟩
  | 59 => ⟨S_, .i32⟩
  | 60 => ⟨S_, .f32⟩
  | 61 => ⟨S5x100352, .f32⟩
  | 62 => ⟨S_, .i32⟩
  | 63 => ⟨S_, .f32⟩
  | 64 => ⟨S100352x64, .f32⟩
  | 65 => ⟨S5x64, .f32⟩
  | 66 => ⟨S100000x64, .f32⟩
  | 67 => ⟨S50000x64, .f32⟩
  | 68 => ⟨S100000x64, .f32⟩
  | 69 => ⟨S50000x64, .f32⟩
  | 70 => ⟨S100000x64, .f32⟩
  | 71 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S3256x128, .f32⟩
  | .local _ .vmem, ⟨1, _⟩ => ⟨S3256x128, .f32⟩
  | .local _ .vmem, ⟨2, _⟩ => ⟨S1x3256x128, .f32⟩
  | .local _ .vmem, ⟨3, _⟩ => ⟨S1x3256x128, .f32⟩
  | .local _ .vmem, ⟨4, _⟩ => ⟨S1x3256x128, .f32⟩
  | .local _ .vmem, ⟨5, _⟩ => ⟨S1x3256x128, .f32⟩
  | .local _ .vmem, ⟨6, _⟩ => ⟨S1x3256x128, .f32⟩
  | .local _ .vmem, ⟨7, _⟩ => ⟨S1x3256x128, .f32⟩
  | .local _ .vmem, ⟨8, _⟩ => ⟨S1x3256x128, .f32⟩
  | .local _ .vmem, ⟨9, _⟩ => ⟨S1x3256x128, .f32⟩
  | .local _ .vmem, ⟨10, _⟩ => ⟨S5x2048, .f32⟩
  | .local _ .vmem, ⟨11, _⟩ => ⟨S5x2048, .f32⟩
  | .local _ .vmem, ⟨12, _⟩ => ⟨S2048x64, .f32⟩
  | .local _ .vmem, ⟨13, _⟩ => ⟨S2048x64, .f32⟩
  | .local _ .vmem, ⟨14, _⟩ => ⟨S5x64, .f32⟩
  | .local _ .vmem, ⟨15, _⟩ => ⟨S5x2048, .f32⟩
  | .local _ .vmem, ⟨16, _⟩ => ⟨S5x2048, .f32⟩
  | .local _ .vmem, ⟨17, _⟩ => ⟨S2048x64, .f32⟩
  | .local _ .vmem, ⟨18, _⟩ => ⟨S2048x64, .f32⟩
  | .local _ .vmem, ⟨19, _⟩ => ⟨S5x64, .f32⟩
  | .local _ .vmem, ⟨20, _⟩ => ⟨S5000x5, .f32⟩
  | .local _ .vmem, ⟨21, _⟩ => ⟨S5000x5, .f32⟩
  | .local _ .vmem, ⟨22, _⟩ => ⟨S5x64, .f32⟩
  | .local _ .vmem, ⟨23, _⟩ => ⟨S5000x64, .f32⟩
  | .local _ .vmem, ⟨24, _⟩ => ⟨S5000x64, .f32⟩
  | .local _ .vmem, ⟨25, _⟩ => ⟨S5000x5, .f32⟩
  | .local _ .vmem, ⟨26, _⟩ => ⟨S5000x5, .f32⟩
  | .local _ .vmem, ⟨27, _⟩ => ⟨S5x64, .f32⟩
  | .local _ .vmem, ⟨28, _⟩ => ⟨S5000x64, .f32⟩
  | .local _ .vmem, ⟨29, _⟩ => ⟨S5000x64, .f32⟩
  | .local _ .vmem, ⟨30, _⟩ => ⟨S5x2048, .f32⟩
  | .local _ .vmem, ⟨31, _⟩ => ⟨S5x2048, .f32⟩
  | .local _ .vmem, ⟨32, _⟩ => ⟨S2048x64, .f32⟩
  | .local _ .vmem, ⟨33, _⟩ => ⟨S2048x64, .f32⟩
  | .local _ .vmem, ⟨34, _⟩ => ⟨S5x64, .f32⟩
  | .local _ .vmem, ⟨35, _⟩ => ⟨S5x2048, .f32⟩
  | .local _ .vmem, ⟨36, _⟩ => ⟨S5x2048, .f32⟩
  | .local _ .vmem, ⟨37, _⟩ => ⟨S2048x64, .f32⟩
  | .local _ .vmem, ⟨38, _⟩ => ⟨S2048x64, .f32⟩
  | .local _ .vmem, ⟨39, _⟩ => ⟨S5x64, .f32⟩
  | .local _ .vmem, ⟨40, _⟩ => ⟨S5000x5, .f32⟩
  | .local _ .vmem, ⟨41, _⟩ => ⟨S5000x5, .f32⟩
  | .local _ .vmem, ⟨42, _⟩ => ⟨S5x64, .f32⟩
  | .local _ .vmem, ⟨43, _⟩ => ⟨S5000x64, .f32⟩
  | .local _ .vmem, ⟨44, _⟩ => ⟨S5000x64, .f32⟩
  | .local _ .vmem, ⟨45, _⟩ => ⟨S5000x5, .f32⟩
  | .local _ .vmem, ⟨46, _⟩ => ⟨S5000x5, .f32⟩
  | .local _ .vmem, ⟨47, _⟩ => ⟨S5x64, .f32⟩
  | .local _ .vmem, ⟨48, _⟩ => ⟨S5000x64, .f32⟩
  | .local _ .vmem, ⟨49, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_v14 : Ref sig .tc := ⟨.hbm, 55, rfl⟩
abbrev main_call3_cst : Ref sig .tc := ⟨.hbm, 56, rfl⟩
abbrev main_call3_v15 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_call4_cst : Ref sig .tc := ⟨.hbm, 86, rfl⟩
abbrev main_call4_v15 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst_2 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_c_3 : Ref sig .tc := ⟨.hbm, 96, rfl⟩
abbrev main_call5_v0 : Ref sig .tc := ⟨.hbm, 97, rfl⟩
abbrev main_v33 : Ref sig .tc := ⟨.hbm, 98, rfl⟩
abbrev main_c_4 : Ref sig .tc := ⟨.hbm, 99, rfl⟩
abbrev main_call6_v0 : Ref sig .tc := ⟨.hbm, 100, rfl⟩
abbrev main_v34 : Ref sig .tc := ⟨.hbm, 101, rfl⟩
abbrev main_v35 : Ref sig .tc := ⟨.hbm, 102, rfl⟩
abbrev main_c_5 : Ref sig .tc := ⟨.hbm, 103, rfl⟩
abbrev main_call7_v0 : Ref sig .tc := ⟨.hbm, 104, rfl⟩
abbrev main_v36 : Ref sig .tc := ⟨.hbm, 105, rfl⟩
abbrev main_c_6 : Ref sig .tc := ⟨.hbm, 106, rfl⟩
abbrev main_call8_v0 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_call9_c : Ref sig .tc := ⟨.hbm, 120, rfl⟩
abbrev main_call9_v0 : Ref sig .tc := ⟨.hbm, 121, rfl⟩
abbrev main_call9_v1 : Ref sig .tc := ⟨.hbm, 122, rfl⟩
abbrev main_call9_c_0 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_call9_v5 : Ref sig .tc := ⟨.hbm, 127, rfl⟩
abbrev main_call9_c_1 : Ref sig .tc := ⟨.hbm, 128, rfl⟩
abbrev main_call9_c_2 : Ref sig .tc := ⟨.hbm, 129, rfl⟩
abbrev main_call9_v6 : Ref sig .tc := ⟨.hbm, 130, rfl⟩
abbrev main_call9_v7 : Ref sig .tc := ⟨.hbm, 131, rfl⟩
abbrev main_call9_v8 : Ref sig .tc := ⟨.hbm, 132, rfl⟩
abbrev main_call9_v9 : Ref sig .tc := ⟨.hbm, 133, rfl⟩
abbrev main_call9_v10 : Ref sig .tc := ⟨.hbm, 134, rfl⟩
abbrev main_call9_v11 : Ref sig .tc := ⟨.hbm, 135, rfl⟩
abbrev main_call9_c_3 : Ref sig .tc := ⟨.hbm, 136, rfl⟩
abbrev main_call9_v12 : Ref sig .tc := ⟨.hbm, 137, rfl⟩
abbrev main_call9_v13 : Ref sig .tc := ⟨.hbm, 138, rfl⟩
abbrev main_call9_v14 : Ref sig .tc := ⟨.hbm, 139, rfl⟩
abbrev main_call9_cst : Ref sig .tc := ⟨.hbm, 140, rfl⟩
abbrev main_call9_v15 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_cst_7 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_call10_c : Ref sig .tc := ⟨.hbm, 150, rfl⟩
abbrev main_call10_v0 : Ref sig .tc := ⟨.hbm, 151, rfl⟩
abbrev main_call10_v1 : Ref sig .tc := ⟨.hbm, 152, rfl⟩
abbrev main_call10_c_0 : Ref sig .tc := ⟨.hbm, 153, rfl⟩
abbrev main_call10_v2 : Ref sig .tc := ⟨.hbm, 154, rfl⟩
abbrev main_call10_v3 : Ref sig .tc := ⟨.hbm, 155, rfl⟩
abbrev main_call10_v4 : Ref sig .tc := ⟨.hbm, 156, rfl⟩
abbrev main_call10_v5 : Ref sig .tc := ⟨.hbm, 157, rfl⟩
abbrev main_call10_c_1 : Ref sig .tc := ⟨.hbm, 158, rfl⟩
abbrev main_call10_c_2 : Ref sig .tc := ⟨.hbm, 159, rfl⟩
abbrev main_call10_v6 : Ref sig .tc := ⟨.hbm, 160, rfl⟩
abbrev main_call10_v7 : Ref sig .tc := ⟨.hbm, 161, rfl⟩
abbrev main_call10_v8 : Ref sig .tc := ⟨.hbm, 162, rfl⟩
abbrev main_call10_v9 : Ref sig .tc := ⟨.hbm, 163, rfl⟩
abbrev main_call10_v10 : Ref sig .tc := ⟨.hbm, 164, rfl⟩
abbrev main_call10_v11 : Ref sig .tc := ⟨.hbm, 165, rfl⟩
abbrev main_call10_c_3 : Ref sig .tc := ⟨.hbm, 166, rfl⟩
abbrev main_call10_v12 : Ref sig .tc := ⟨.hbm, 167, rfl⟩
abbrev main_call10_v13 : Ref sig .tc := ⟨.hbm, 168, rfl⟩
abbrev main_call10_v14 : Ref sig .tc := ⟨.hbm, 169, rfl⟩
abbrev main_call10_cst : Ref sig .tc := ⟨.hbm, 170, rfl⟩
abbrev main_call10_v15 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_cst_8 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_c_9 : Ref sig .tc := ⟨.hbm, 180, rfl⟩
abbrev main_call11_v0 : Ref sig .tc := ⟨.hbm, 181, rfl⟩
abbrev main_v63 : Ref sig .tc := ⟨.hbm, 182, rfl⟩
abbrev main_c_10 : Ref sig .tc := ⟨.hbm, 183, rfl⟩
abbrev main_call12_v0 : Ref sig .tc := ⟨.hbm, 184, rfl⟩
abbrev main_v64 : Ref sig .tc := ⟨.hbm, 185, rfl⟩
abbrev main_v65 : Ref sig .tc := ⟨.hbm, 186, rfl⟩
abbrev main_c_11 : Ref sig .tc := ⟨.hbm, 187, rfl⟩
abbrev main_call13_v0 : Ref sig .tc := ⟨.hbm, 188, rfl⟩
abbrev main_v66 : Ref sig .tc := ⟨.hbm, 189, rfl⟩
abbrev main_c_12 : Ref sig .tc := ⟨.hbm, 190, rfl⟩
abbrev main_call14_v0 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg2_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem2_1 : DmaSem sig := 49

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S3256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S5x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x5 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S5x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S5x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x5 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S5x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x5 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S5x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  pads_S2500000_S2500608_06080 : S2500000.Pads (![0] : Fin 1 → Nat) ![608] ![0] S2500608
  h_S_ : 0 < S_.numel
  shapeCasts_S2500608_S19536x128 : S2500608.ShapeCasts S19536x128
  slices_S2x2x2500000_S2x1x2500000_0_0_0 : S2x2x2500000.Slices ![0, 0, 0] S2x1x2500000
  shapeCasts_S2x1x2500000_S2x2500000 : S2x1x2500000.ShapeCasts S2x2500000
  slices_S2x2x2500000_S2x1x2500000_0_1_0 : S2x2x2500000.Slices ![0, 1, 0] S2x1x2500000
  pads_S2x2500000_S2x2500608_000_06080 : S2x2500000.Pads (![0, 0] : Fin 2 → Nat) ![0, 608] ![0, 0] S2x2500608
  shapeCasts_S2x2500608_S2x19536x128 : S2x2500608.ShapeCasts S2x19536x128
  inb_S3256x128_S3256x128_0_0 : ∀ a, (![0, 0] : Fin 2 → Nat) a + S3256x128.size a ≤ S3256x128.size a
  h_S3256x128 : 0 < S3256x128.numel
  shapeCasts_S3256x128_S3256x128 : S3256x128.ShapeCasts S3256x128
  inb_S1x3256x128_S1x3256x128_0_0_0 : ∀ a, (![0, 0, 0] : Fin 3 → Nat) a + S1x3256x128.size a ≤ S1x3256x128.size a
  h_S1x3256x128 : 0 < S1x3256x128.numel
  shapeCasts_S1x3256x128_S3256x128 : S1x3256x128.ShapeCasts S3256x128
  shapeCasts_S3256x128_S1x3256x128 : S3256x128.ShapeCasts S1x3256x128
  shapeCasts_S2x19536x128_S2x2500608 : S2x19536x128.ShapeCasts S2x2500608
  slices_S2x2500608_S2x2500000_0_0 : S2x2500608.Slices ![0, 0] S2x2500000
  slices_S2x2500000_S1x2500000_0_0 : S2x2500000.Slices ![0, 0] S1x2500000
  shapeCasts_S1x2500000_S2500000 : S1x2500000.ShapeCasts S2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S2500000x1 : S_.BroadcastsInDim S2500000x1 (![] : Fin 0 → Fin S2500000x1.rank)
  bcast_S1_S1x1_1 : S1.BroadcastsInDim S1x1 (![1] : Fin 1 → Fin S1x1.rank)
  bcast_S1x1_S2500000x1_0_1 : S1x1.BroadcastsInDim S2500000x1 (![0, 1] : Fin 2 → Fin S2500000x1.rank)
  reducesTo_S2500000x1_S2500000_d1 : S2500000x1.ReducesTo [1] S2500000
  bcast_S2500000_S2500000x64_0 : S2500000.BroadcastsInDim S2500000x64 (![0] : Fin 1 → Fin S2500000x64.rank)
  bcast_S_S2500000x64 : S_.BroadcastsInDim S2500000x64 (![] : Fin 0 → Fin S2500000x64.rank)
  bcast_S2500000x1_S2500000x64_0_1 : S2500000x1.BroadcastsInDim S2500000x64 (![0, 1] : Fin 2 → Fin S2500000x64.rank)
  bcast_S_S100000x64 : S_.BroadcastsInDim S100000x64 (![] : Fin 0 → Fin S100000x64.rank)
  bcast_S_S50000x64 : S_.BroadcastsInDim S50000x64 (![] : Fin 0 → Fin S50000x64.rank)
  pads_S5x50000_S5x51200_000_012000 : S5x50000.Pads (![0, 0] : Fin 2 → Nat) ![0, 1200] ![0, 0] S5x51200
  pads_S50000x64_S51200x64_012000_000 : S50000x64.Pads (![0, 0] : Fin 2 → Nat) ![1200, 0] ![0, 0] S51200x64
  inb_S5x64_S5x64_0_0 : ∀ a, (![0, 0] : Fin 2 → Nat) a + S5x64.size a ≤ S5x64.size a
  h_S5x64 : 0 < S5x64.numel
  inb_S5x2048_S5x2048_0_0 : ∀ a, (![0, 0] : Fin 2 → Nat) a + S5x2048.size a ≤ S5x2048.size a
  h_S5x2048 : 0 < S5x2048.numel
  shapeCasts_S5x2048_S5x2048 : S5x2048.ShapeCasts S5x2048
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S5x64_S5x64 : S5x64.ShapeCasts S5x64
  pads_S5x100000_S5x100352_000_03520 : S5x100000.Pads (![0, 0] : Fin 2 → Nat) ![0, 352] ![0, 0] S5x100352
  pads_S100000x64_S100352x64_03520_000 : S100000x64.Pads (![0, 0] : Fin 2 → Nat) ![352, 0] ![0, 0] S100352x64
  inb_S5000x5_S5000x5_0_0 : ∀ a, (![0, 0] : Fin 2 → Nat) a + S5000x5.size a ≤ S5000x5.size a
  h_S5000x5 : 0 < S5000x5.numel
  inb_S5000x64_S5000x64_0_0 : ∀ a, (![0, 0] : Fin 2 → Nat) a + S5000x64.size a ≤ S5000x64.size a
  h_S5000x64 : 0 < S5000x64.numel
  slices_S2x2500000_S1x2500000_1_0 : S2x2500000.Slices ![1, 0] S1x2500000
  gather_S50000x64_S2500000x1_S2500000x64_1_0_n_n_0_1_164_wf : GatherDims.WF S50000x64 S2500000x1 S2500000x64 [1] [0] [] [0] [] 1 ![1, 64]
  scatter_S100000x64_S2500000x1_S2500000x64_1_0_0_1_wf : ScatterDims.WF S100000x64 S2500000x1 S2500000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1
  dot_S5x2048_S2048x64_S5x64_1_0_0_1_n_n_wf : DotDims.WF S5x2048 S2048x64 S5x64 [1] [0] [0] [1] [] []
  dot_S5000x5_S5x64_S5000x64_1_0_0_1_n_n_wf : DotDims.WF S5000x5 S5x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3256x128.size a ≤ S19536x128.size a
  hwx0_0 : ∀ i : grid0.Coords, EltTy.bits .f32 = 32 ∨ (Rect.block (s := S19536x128) S3256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3256x128.size a ≤ S2x19536x128.size a
  hwx0_1 : ∀ i : grid0.Coords, EltTy.bits .f32 = 32 ∨ (Rect.block (s := S2x19536x128) S1x3256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3256x128.size a ≤ S2x19536x128.size a
  hwx0_2 : ∀ i : grid0.Coords, EltTy.bits .f32 = 32 ∨ (Rect.block (s := S2x19536x128) S1x3256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3256x128.size a ≤ S2x19536x128.size a
  hwx0_3 : ∀ i : grid0.Coords, EltTy.bits .f32 = 32 ∨ (Rect.block (s := S2x19536x128) S1x3256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3256x128.size a ≤ S2x19536x128.size a
  hwx0_4 : ∀ i : grid0.Coords, EltTy.bits .f32 = 32 ∨ (Rect.block (s := S2x19536x128) S1x3256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x2048.size a ≤ S5x51200.size a
  hwx1_0 : ∀ i : grid1.Coords, EltTy.bits .f32 = 32 ∨ (Rect.block (s := S5x51200) S5x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S51200x64.size a
  hwx1_1 : ∀ i : grid1.Coords, EltTy.bits .f32 = 32 ∨ (Rect.block (s := S51200x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x64.size a ≤ S5x64.size a
  hwx1_2 : ∀ i : grid1.Coords, EltTy.bits .f32 = 32 ∨ (Rect.block (s := S5x64) S5x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5x2048.size a ≤ S5x100352.size a
  hwx2_0 : ∀ i : grid2.Coords, EltTy.bits .f32 = 32 ∨ (Rect.block (s := S5x100352) S5x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S100352x64.size a
  hwx2_1 : ∀ i : grid2.Coords, EltTy.bits .f32 = 32 ∨ (Rect.block (s := S100352x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x64.size a ≤ S5x64.size a
  hwx2_2 : ∀ i : grid2.Coords, EltTy.bits .f32 = 32 ∨ (Rect.block (s := S5x64) S5x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x5.size a ≤ S100000x5.size a
  hwx3_0 : ∀ i : grid3.Coords, EltTy.bits .f32 = 32 ∨ (Rect.block (s := S100000x5) S5000x5.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S5x64.size a ≤ S5x64.size a
  hwx3_1 : ∀ i : grid3.Coords, EltTy.bits .f32 = 32 ∨ (Rect.block (s := S5x64) S5x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x5.size a ≤ S50000x5.size a
  hwx4_0 : ∀ i : grid4.Coords, EltTy.bits .f32 = 32 ∨ (Rect.block (s := S50000x5) S5000x5.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x64.size a ≤ S5x64.size a
  hwx4_1 : ∀ i : grid4.Coords, EltTy.bits .f32 = 32 ∨ (Rect.block (s := S5x64) S5x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5x2048.size a ≤ S5x51200.size a
  hwx5_0 : ∀ i : grid5.Coords, EltTy.bits .f32 = 32 ∨ (Rect.block (s := S5x51200) S5x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S51200x64.size a
  hwx5_1 : ∀ i : grid5.Coords, EltTy.bits .f32 = 32 ∨ (Rect.block (s := S51200x64) S2048x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S5x64.size a ≤ S5x64.size a
  hwx5_2 : ∀ i : grid5.Coords, EltTy.bits .f32 = 32 ∨ (Rect.block (s := S5x64) S5x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5x2048.size a ≤ S5x100352.size a
  hwx6_0 : ∀ i : grid6.Coords, EltTy.bits .f32 = 32 ∨ (Rect.block (s := S5x100352) S5x2048.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S100352x64.size a
  hwx6_1 : ∀ i : grid6.Coords, EltTy.bits .f32 = 32 ∨ (Rect.block (s := S100352x64) S2048x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S5x64.size a ≤ S5x64.size a
  hwx6_2 : ∀ i : grid6.Coords, EltTy.bits .f32 = 32 ∨ (Rect.block (s := S5x64) S5x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x5.size a ≤ S100000x5.size a
  hwx7_0 : ∀ i : grid7.Coords, EltTy.bits .f32 = 32 ∨ (Rect.block (s := S100000x5) S5000x5.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S5x64.size a ≤ S5x64.size a
  hwx7_1 : ∀ i : grid7.Coords, EltTy.bits .f32 = 32 ∨ (Rect.block (s := S5x64) S5x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x5.size a ≤ S50000x5.size a
  hwx8_0 : ∀ i : grid8.Coords, EltTy.bits .f32 = 32 ∨ (Rect.block (s := S50000x5) S5000x5.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S5x64.size a ≤ S5x64.size a
  hwx8_1 : ∀ i : grid8.Coords, EltTy.bits .f32 = 32 ∨ (Rect.block (s := S5x64) S5x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)

variable [Facts₀]

def gather_S50000x64_S2500000x1_S2500000x64_1_0_n_n_0_1_164 : GatherDims S50000x64 S2500000x1 S2500000x64 where
  offsetDims := [1]
  collapsedSliceDims := [0]
  operandBatchingDims := []
  startIndicesBatchingDims := []
  startIndexMap := [0]
  indexVectorDim := 1
  sliceSizes := ![1, 64]
  wf := gather_S50000x64_S2500000x1_S2500000x64_1_0_n_n_0_1_164_wf
def scatter_S100000x64_S2500000x1_S2500000x64_1_0_0_1 : ScatterDims S100000x64 S2500000x1 S2500000x64 where
  updateWindowDims := [1]
  insertedWindowDims := [0]
  scatterDimsToOperandDims := [0]
  indexVectorDim := 1
  wf := scatter_S100000x64_S2500000x1_S2500000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf
def dot_S5x2048_S2048x64_S5x64_1_0_0_1_n_n : DotDims S5x2048 S2048x64 S5x64 where
  lhsContracting := [1]
  rhsContracting := [0]
  lhsNonContracting := [0]
  rhsNonContracting := [1]
  lhsBatch := []
  rhsBatch := []
  wf := dot_S5x2048_S2048x64_S5x64_1_0_0_1_n_n_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf

abbrev win0_0 : Pipeline.Window sig grid0 :=
  Pipeline.Window.ofSpec (Memref.whole main_v1) S3256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x3256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x3256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S5x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S5x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S5000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg4) S5000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S5x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5x64.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S5x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v67) S2048x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68) S5x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg3) S5000x5.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v65) S5x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v69) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_arg4) S5000x5.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68) S5x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v70) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2500000 : Shape := ⟨1, ![2500000]⟩
abbrev S100000x5 : Shape := ⟨2, ![100000, 5]⟩
abbrev S50000x5 : Shape := ⟨2, ![50000, 5]⟩
abbrev S5x100000 : Shape := ⟨2, ![5, 100000]⟩
abbrev S5x50000 : Shape := ⟨2, ![5, 50000]⟩
abbrev S2x2x2500000 : Shape := ⟨3, ![2, 2, 2500000]⟩
abbrev S1x1x2500000 : Shape := ⟨3, ![1, 1, 2500000]⟩
abbrev S_ : Shape := ⟨0, ![]⟩
abbrev S2500000x1 : Shape := ⟨2, ![2500000, 1]⟩
abbrev S2500000x64 : Shape := ⟨2, ![2500000, 64]⟩
abbrev S5x64 : Shape := ⟨2, ![5, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2500000, .f32⟩
  | .hbm, ⟨3, _⟩ => ⟨S100000x5, .f32⟩
  | .hbm, ⟨4, _⟩ => ⟨S50000x5, .f32⟩
  | .hbm, ⟨5, _⟩ => ⟨S5x100000, .f32⟩
  | .hbm, ⟨6, _⟩ => ⟨S5x50000, .f32⟩
  | .hbm, ⟨7, _⟩ => ⟨S2x2x2500000, .f32⟩
  | .hbm, ⟨8, _⟩ => ⟨S2500000, .i32⟩
  | .hbm, ⟨9, _⟩ => ⟨S2500000, .i32⟩
  | .hbm, ⟨10, _⟩ => ⟨S1x1x2500000, .f32⟩
  | .hbm, ⟨11, _⟩ => ⟨S2500000, .f32⟩
  | .hbm, ⟨12, _⟩ => ⟨S_, .f32⟩
  | .hbm, ⟨13, _⟩ => ⟨S2500000, .f32⟩
  | .hbm, ⟨14, _⟩ => ⟨S2500000, .i1⟩
  | .hbm, ⟨15, _⟩ => ⟨S_, .f32⟩
  | .hbm, ⟨16, _⟩ => ⟨S2500000, .f32⟩
  | .hbm, ⟨17, _⟩ => ⟨S2500000, .f32⟩
  | .hbm, ⟨18, _⟩ => ⟨S1x1x2500000, .f32⟩
  | .hbm, ⟨19, _⟩ => ⟨S2500000, .f32⟩
  | .hbm, ⟨20, _⟩ => ⟨S_, .f32⟩
  | .hbm, ⟨21, _⟩ => ⟨S2500000, .f32⟩
  | .hbm, ⟨22, _⟩ => ⟨S2500000, .i1⟩
  | .hbm, ⟨23, _⟩ => ⟨S_, .f32⟩
  | .hbm, ⟨24, _⟩ => ⟨S2500000, .f32⟩
  | .hbm, ⟨25, _⟩ => ⟨S2500000, .f32⟩
  | .hbm, ⟨26, _⟩ => ⟨S2500000x1, .f32⟩
  | .hbm, ⟨27, _⟩ => ⟨S_, .i32⟩
  | .hbm, ⟨28, _⟩ => ⟨S2500000, .i32⟩
  | .hbm, ⟨29, _⟩ => ⟨S2500000, .i1⟩
  | .hbm, ⟨30, _⟩ => ⟨S_, .i32⟩
  | .hbm, ⟨31, _⟩ => ⟨S2500000, .i32⟩
  | .hbm, ⟨32, _⟩ => ⟨S2500000, .i32⟩
  | .hbm, ⟨33, _⟩ => ⟨S2500000, .i32⟩
  | .hbm, ⟨34, _⟩ => ⟨S2500000x1, .i32⟩
  | .hbm, ⟨35, _⟩ => ⟨S2500000x64, .f32⟩
  | .hbm, ⟨36, _⟩ => ⟨S2500000x64, .f32⟩
  | .hbm, ⟨37, _⟩ => ⟨S2500000x64, .f32⟩
  | .hbm, ⟨38, _⟩ => ⟨S_, .f32⟩
  | .hbm, ⟨39, _⟩ => ⟨S100000x64, .f32⟩
  | .hbm, ⟨40, _⟩ => ⟨S2500000x1, .i32⟩
  | .hbm, ⟨41, _⟩ => ⟨S100000x64, .f32⟩
  | .hbm, ⟨42, _⟩ => ⟨S2500000x1, .f32⟩
  | .hbm, ⟨43, _⟩ => ⟨S_, .i32⟩
  | .hbm, ⟨44, _⟩ => ⟨S2500000, .i32⟩
  | .hbm, ⟨45, _⟩ => ⟨S2500000, .i1⟩
  | .hbm, ⟨46, _⟩ => ⟨S_, .i32⟩
  | .hbm, ⟨47, _⟩ => ⟨S2500000, .i32⟩
  | .hbm, ⟨48, _⟩ => ⟨S2500000, .i32⟩
  | .hbm, ⟨49, _⟩ => ⟨S2500000, .i32⟩
  | .hbm, ⟨50, _⟩ => ⟨S2500000x1, .i32⟩
  | .hbm, ⟨51, _⟩ => ⟨S2500000x64, .f32⟩
  | .hbm, ⟨52, _⟩ => ⟨S2500000x64, .f32⟩
  | .hbm, ⟨53, _⟩ => ⟨S2500000x64, .f32⟩
  | .hbm, ⟨54, _⟩ => ⟨S_, .f32⟩
  | .hbm, ⟨55, _⟩ => ⟨S50000x64, .f32⟩
  | .hbm, ⟨56, _⟩ => ⟨S2500000x1, .i32⟩
  | .hbm, ⟨57, _⟩ => ⟨S50000x64, .f32⟩
  | .hbm, ⟨58, _⟩ => ⟨S5x64, .f32⟩
  | .hbm, ⟨59, _⟩ => ⟨S100000x64, .f32⟩
  | .hbm, ⟨60, _⟩ => ⟨S5x64, .f32⟩
  | .hbm, ⟨61, _⟩ => ⟨S50000x64, .f32⟩
  | .hbm, ⟨62, _⟩ => ⟨S100000x64, .f32⟩
  | .hbm, ⟨63, _⟩ => ⟨S50000x64, .f32⟩
  | .hbm, ⟨64, _⟩ => ⟨S100000x64, .f32⟩
  | .hbm, ⟨65, _⟩ => ⟨S50000x64, .f32⟩
  | .hbm, ⟨66, _⟩ => ⟨S1x1x2500000, .f32⟩
  | .hbm, ⟨67, _⟩ => ⟨S2500000, .f32⟩
  | .hbm, ⟨68, _⟩ => ⟨S_, .f32⟩
  | .hbm, ⟨69, _⟩ => ⟨S2500000, .f32⟩
  | .hbm, ⟨70, _⟩ => ⟨S2500000, .i1⟩
  | .hbm, ⟨71, _⟩ => ⟨S_, .f32⟩
  | .hbm, ⟨72, _⟩ => ⟨S2500000, .f32⟩
  | .hbm, ⟨73, _⟩ => ⟨S2500000, .f32⟩
  | .hbm, ⟨74, _⟩ => ⟨S1x1x2500000, .f32⟩
  | .hbm, ⟨75, _⟩ => ⟨S2500000, .f32⟩
  | .hbm, ⟨76, _⟩ => ⟨S_, .f32⟩
  | .hbm, ⟨77, _⟩ => ⟨S2500000, .f32⟩
  | .hbm, ⟨78, _⟩ => ⟨S2500000, .i1⟩
  | .hbm, ⟨79, _⟩ => ⟨S_, .f32⟩
  | .hbm, ⟨80, _⟩ => ⟨S2500000, .f32⟩
  | .hbm, ⟨81, _⟩ => ⟨S2500000, .f32⟩
  | .hbm, ⟨82, _⟩ => ⟨S2500000x1, .f32⟩
  | .hbm, ⟨83, _⟩ => ⟨S_, .i32⟩
  | .hbm, ⟨84, _⟩ => ⟨S2500000, .i32⟩
  | .hbm, ⟨85, _⟩ => ⟨S2500000, .i1⟩
  | .hbm, ⟨86, _⟩ => ⟨S_, .i32⟩
  | .hbm, ⟨87, _⟩ => ⟨S2500000, .i32⟩
  | .hbm, ⟨88, _⟩ => ⟨S2500000, .i32⟩
  | .hbm, ⟨89, _⟩ => ⟨S2500000, .i32⟩
  | .hbm, ⟨90, _⟩ => ⟨S2500000x1, .i32⟩
  | .hbm, ⟨91, _⟩ => ⟨S2500000x64, .f32⟩
  | .hbm, ⟨92, _⟩ => ⟨S2500000x64, .f32⟩
  | .hbm, ⟨93, _⟩ => ⟨S2500000x64, .f32⟩
  | .hbm, ⟨94, _⟩ => ⟨S_, .f32⟩
  | .hbm, ⟨95, _⟩ => ⟨S100000x64, .f32⟩
  | .hbm, ⟨96, _⟩ => ⟨S2500000x1, .i32⟩
  | .hbm, ⟨97, _⟩ => ⟨S100000x64, .f32⟩
  | .hbm, ⟨98, _⟩ => ⟨S2500000x1, .f32⟩
  | .hbm, ⟨99, _⟩ => ⟨S_, .i32⟩
  | .hbm, ⟨100, _⟩ => ⟨S2500000, .i32⟩
  | .hbm, ⟨101, _⟩ => ⟨S2500000, .i1⟩
  | .hbm, ⟨102, _⟩ => ⟨S_, .i32⟩
  | .hbm, ⟨103, _⟩ => ⟨S2500000, .i32⟩
  | .hbm, ⟨104, _⟩ => ⟨S2500000, .i32⟩
  | .hbm, ⟨105, _⟩ => ⟨S2500000, .i32⟩
  | .hbm, ⟨106, _⟩ => ⟨S2500000x1, .i32⟩
  | .hbm, ⟨107, _⟩ => ⟨S2500000x64, .f32⟩
  | .hbm, ⟨108, _⟩ => ⟨S2500000x64, .f32⟩
  | .hbm, ⟨109, _⟩ => ⟨S2500000x64, .f32⟩
  | .hbm, ⟨110, _⟩ => ⟨S_, .f32⟩
  | .hbm, ⟨111, _⟩ => ⟨S50000x64, .f32⟩
  | .hbm, ⟨112, _⟩ => ⟨S2500000x1, .i32⟩
  | .hbm, ⟨113, _⟩ => ⟨S50000x64, .f32⟩
  | .hbm, ⟨114, _⟩ => ⟨S5x64, .f32⟩
  | .hbm, ⟨115, _⟩ => ⟨S100000x64, .f32⟩
  | .hbm, ⟨116, _⟩ => ⟨S5x64, .f32⟩
  | .hbm, ⟨117, _⟩ => ⟨S50000x64, .f32⟩
  | .hbm, ⟨118, _⟩ => ⟨S100000x64, .f32⟩
  | .hbm, ⟨119, _⟩ => ⟨S50000x64, .f32⟩
  | .hbm, ⟨120, _⟩ => ⟨S100000x64, .f32⟩
  | .hbm, ⟨121, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_call3_v0 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x2x2500000_S1x1x2500000_0_0_0 : S2x2x2500000.Slices ![0, 0, 0] S1x1x2500000
  shapeCasts_S1x1x2500000_S2500000 : S1x1x2500000.ShapeCasts S2500000
  bcast_S_S2500000 : S_.BroadcastsInDim S2500000 (![] : Fin 0 → Fin S2500000.rank)
  slices_S2x2x2500000_S1x1x2500000_0_1_0 : S2x2x2500000.Slices ![0, 1, 0] S1x1x2500000
  bcast_S2500000_S2500000x1_0 : S2500000.BroadcastsInDim S2500000x1 (![0] : Fin 1 → Fin S2500000x1.rank)
  bcast_S2500000x1_S2500000x64_0_1 : S2500000x1.BroadcastsInDim S2500000x64 (![0, 1] : Fin 2 → Fin S2500000x64.rank)
  bcast_S_S100000x64 : S_.BroadcastsInDim S100000x64 (![] : Fin 0 → Fin S100000x64.rank)
  bcast_S_S50000x64 : S_.BroadcastsInDim S50000x64 (![] : Fin 0 → Fin S50000x64.rank)
  slices_S2x2x2500000_S1x1x2500000_1_0_0 : S2x2x2500000.Slices ![1, 0, 0] S1x1x2500000
  slices_S2x2x2500000_S1x1x2500000_1_1_0 : S2x2x2500000.Slices ![1, 1, 0] S1x1x2500000
  gather_S50000x64_S2500000x1_S2500000x64_1_0_n_n_0_1_164_wf : GatherDims.WF S50000x64 S2500000x1 S2500000x64 [1] [0] [] [0] [] 1 ![1, 64]
  scatter_S100000x64_S2500000x1_S2500000x64_1_0_0_1_wf : ScatterDims.WF S100000x64 S2500000x1 S2500000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1
  dot_S5x50000_S50000x64_S5x64_1_0_0_1_n_n_wf : DotDims.WF S5x50000 S50000x64 S5x64 [1] [0] [0] [1] [] []
  dot_S100000x5_S5x64_S100000x64_1_0_0_1_n_n_wf : DotDims.WF S100000x5 S5x64 S100000x64 [1] [0] [0] [1] [] []
  dot_S5x100000_S100000x64_S5x64_1_0_0_1_n_n_wf : DotDims.WF S5x100000 S100000x64 S5x64 [1] [0] [0] [1] [] []
  dot_S50000x5_S5x64_S50000x64_1_0_0_1_n_n_wf : DotDims.WF S50000x5 S5x64 S50000x64 [1] [0] [0] [1] [] []

variable [Facts₀]

def gather_S50000x64_S2500000x1_S2500000x64_1_0_n_n_0_1_164 : GatherDims S50000x64 S2500000x1 S2500000x64 where
  offsetDims := [1]
  collapsedSliceDims := [0]
  operandBatchingDims := []
  startIndicesBatchingDims := []
  startIndexMap := [0]
  indexVectorDim := 1
  sliceSizes := ![1, 64]
  wf := gather_S50000x64_S2500000x1_S2500000x64_1_0_n_n_0_1_164_wf
def scatter_S100000x64_S2500000x1_S2500000x64_1_0_0_1 : ScatterDims S100000x64 S2500000x1 S2500000x64 where
  updateWindowDims := [1]
  insertedWindowDims := [0]
  scatterDimsToOperandDims := [0]
  indexVectorDim := 1
  wf := scatter_S100000x64_S2500000x1_S2500000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf
def dot_S5x50000_S50000x64_S5x64_1_0_0_1_n_n : DotDims S5x50000 S50000x64 S5x64 where
  lhsContracting := [1]
  rhsContracting := [0]
  lhsNonContracting := [0]
  rhsNonContracting := [1]
  lhsBatch := []
  rhsBatch := []
  wf := dot_S5x50000_S50000x64_S5x64_1_0_0_1_n_n_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def dot_S5x100000_S100000x64_S5x64_1_0_0_1_n_n : DotDims S5x100000 S100000x64 S5x64 where
  lhsContracting := [1]
  rhsContracting := [0]
  lhsNonContracting := [0]
  rhsNonContracting := [1]
  lhsBatch := []
  rhsBatch := []
  wf := dot_S5x100000_S100000x64_S5x64_1_0_0_1_n_n_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf

class Facts : Prop extends Facts₀ where

variable [Facts]
-- ==== Proof.Spec.lean ====
import proofs.«422239_j35003983462563_2_alg».proof.KernelIdeal
import proofs.«422239_j35003983462563_2_alg».proof.Proof.Gen.KernelIdeal
import Idealize.ShloMosaic.Lib.ValueIdx

/-! The host operations of the kernel's program between its pipeline regions, grouped into the functions they
    compose: zero-padding and tiling of the edge values and of the two mask planes, the inverse layout after the mask
    region, one row of the mask per layer, the gather with out-of-range rows replaced, the sparse product
    (scale the gathered rows by the edge values, add them up by segment), and the zero-padding of the contraction
    axis in front of the low-rank products. Each definition is the composition of the printed operations, nothing
    more. -/

noncomputable section

namespace Cert.KernelIdeal.Spec

open Cert.KernelIdeal Cert.KernelIdeal.Facts₀ Cert.KernelIdeal.Facts Idealize.ShloMosaic

variable {F : FTy → Type} [FloatOps F]

/-- The pad value of every zero-padding: the integer zero converted. -/
def pz : FVec F S_ .f32 := sitofp .f32 (constantI S_ 32 0#32)

/-- The edge values, zero-padded to a multiple of 1024 and laid out in rows of 128. -/
def valsP (vals : FVec F S2500000 .f32) : FVec F S19536x128 .f32 :=
  shapeCast S19536x128 (pad S2500608 ![0] ![608] ![0] vals pz pads_S2500000_S2500608_06080 h_S_) shapeCasts_S2500608_S19536x128

/-- Side 0 of the mask words over both layers, zero-padded and laid out in rows of 128. -/
def dmP0 (dm : FVec F S2x2x2500000 .f32) : FVec F S2x19536x128 .f32 :=
  shapeCast S2x19536x128 (pad S2x2500608 ![0, 0] ![0, 608] ![0, 0]
    (shapeCast S2x2500000 (extractStridedSlice S2x1x2500000 ![0, 0, 0] dm slices_S2x2x2500000_S2x1x2500000_0_0_0) shapeCasts_S2x1x2500000_S2x2500000)
    pz pads_S2x2500000_S2x2500608_000_06080 h_S_) shapeCasts_S2x2500608_S2x19536x128

/-- Side 1 of the mask words over both layers, zero-padded and laid out in rows of 128. -/
def dmP1 (dm : FVec F S2x2x2500000 .f32) : FVec F S2x19536x128 .f32 :=
  shapeCast S2x19536x128 (pad S2x2500608 ![0, 0] ![0, 608] ![0, 0]
    (shapeCast S2x2500000 (extractStridedSlice S2x1x2500000 ![0, 1, 0] dm slices_S2x2x2500000_S2x1x2500000_0_1_0) shapeCasts_S2x1x2500000_S2x2500000)
    pz pads_S2x2500000_S2x2500608_000_06080 h_S_) shapeCasts_S2x2500608_S2x19536x128

/-- The masked edge values of both layers back as two rows of 2500000: the tiling undone, the padding cut off. -/
def unpad (k : FVec F S2x19536x128 .f32) : FVec F S2x2500000 .f32 :=
  extractStridedSlice S2x2500000 ![0, 0] (shapeCast S2x2500608 k shapeCasts_S2x19536x128_S2x2500608) slices_S2x2500608_S2x2500000_0_0

/-- Layer 0's row. -/
def row0 (k : FVec F S2x2500000 .f32) : FVec F S2500000 .f32 :=
  shapeCast S2500000 (extractStridedSlice S1x2500000 ![0, 0] k slices_S2x2500000_S1x2500000_0_0) shapeCasts_S1x2500000_S2500000

/-- Layer 1's row. -/
def row1 (k : FVec F S2x2500000 .f32) : FVec F S2500000 .f32 :=
  shapeCast S2500000 (extractStridedSlice S1x2500000 ![1, 0] k slices_S2x2500000_S1x2500000_1_0) shapeCasts_S1x2500000_S2500000

/-- A negative index counted from the end of an axis of extent `n`. -/
def wrap (n : BitVec 32) (idx : IVec S2500000 32) : IVec S2500000 32 :=
  select (cmpi .slt idx (broadcastInDim S2500000 ![] bcast_S_S2500000 (constantI S_ 32 0#32)))
    (addi idx (broadcastInDim S2500000 ![] bcast_S_S2500000 (constantI S_ 32 n))) idx

/-- An index vector as one column of start indices. -/
def col (w : IVec S2500000 32) : IVec S2500000x1 32 := broadcastInDim S2500000x1 ![0] bcast_S2500000_S2500000x1_0 w

/-- Per edge: is the start index inside `[0, hi]`? -/
def inb (hi : BitVec 32) (w5 : IVec S2500000x1 32) : IVec S2500000 1 :=
  Host.reduce IntOp.andi
    (andi (cmpi .sge w5 (broadcastInDim S2500000x1 ![] bcast_S_S2500000x1 (constantI S_ 32 0#32)))
      (cmpi .sle w5 (broadcastInDim S2500000x1 ![0, 1] bcast_S1x1_S2500000x1_0_1 (broadcastInDim S1x1 ![1] bcast_S1_S1x1_1 (constantI S1 32 hi)))))
    (constantI S_ 1 1#1) reducesTo_S2500000x1_S2500000_d1 h_S_

/-- Rows of a 50000-row table gathered per edge, a row whose index is out of range replaced by the fill word. -/
def take50000 (x : FVec F S50000x64 .f32) (idx : IVec S2500000 32) : FVec F S2500000x64 .f32 :=
  select (broadcastInDim S2500000x64 ![0] bcast_S2500000_S2500000x64_0 (inb 49999#32 (col (wrap 50000#32 idx))))
    (Host.gather gather_S50000x64_S2500000x1_S2500000x64_1_0_n_n_0_1_164 x (col (wrap 50000#32 idx)))
    (broadcastInDim S2500000x64 ![] bcast_S_S2500000x64 (constant S_ .f32 0x7FC00000#32))

/-- The same for a 100000-row table. -/
def take100000 (x : FVec F S100000x64 .f32) (idx : IVec S2500000 32) : FVec F S2500000x64 .f32 :=
  select (broadcastInDim S2500000x64 ![0] bcast_S2500000_S2500000x64_0 (inb 99999#32 (col (wrap 100000#32 idx))))
    (Host.gather gather_S100000x64_S2500000x1_S2500000x64_1_0_n_n_0_1_164 x (col (wrap 100000#32 idx)))
    (broadcastInDim S2500000x64 ![] bcast_S_S2500000x64 (constant S_ .f32 0x7FC00000#32))

/-- The sparse product into 100000 segments: each gathered row scaled by its edge value, added into its segment. -/
def spmm100000 (keep : FVec F S2500000 .f32) (g : FVec F S2500000x64 .f32) (seg : IVec S2500000 32) : FVec F S100000x64 .f32 :=
  Host.scatterAdd scatter_S100000x64_S2500000x1_S2500000x64_1_0_0_1
    (broadcastInDim S100000x64 ![] bcast_S_S100000x64 (constant S_ .f32 0x00000000#32))
    (broadcastInDim S2500000x1 ![0] bcast_S2500000_S2500000x1_0 seg)
    (mulf (broadcastInDim S2500000x64 ![0, 1] bcast_S2500000x1_S2500000x64_0_1 (broadcastInDim S2500000x1 ![0] bcast_S2500000_S2500000x1_0 keep)) g)

/-- The sparse product into 50000 segments. -/
def spmm50000 (keep : FVec F S2500000 .f32) (g : FVec F S2500000x64 .f32) (seg : IVec S2500000 32) : FVec F S50000x64 .f32 :=
  Host.scatterAdd scatter_S50000x64_S2500000x1_S2500000x64_1_0_0_1
    (broadcastInDim S50000x64 ![] bcast_S_S50000x64 (constant S_ .f32 0x00000000#32))
    (broadcastInDim S2500000x1 ![0] bcast_S2500000_S2500000x1_0 seg)
    (mulf (broadcastInDim S2500000x64 ![0, 1] bcast_S2500000x1_S2500000x64_0_1 (broadcastInDim S2500000x1 ![0] bcast_S2500000_S2500000x1_0 keep)) g)

/-- The contraction axis zero-padded to a multiple of 2048: the four operands of the low-rank products. -/
def padA50000 (a : FVec F S5x50000 .f32) : FVec F S5x51200 .f32 := pad S5x51200 ![0, 0] ![0, 1200] ![0, 0] a pz pads_S5x50000_S5x51200_000_012000 h_S_
def padB50000 (b : FVec F S50000x64 .f32) : FVec F S51200x64 .f32 := pad S51200x64 ![0, 0] ![1200, 0] ![0, 0] b pz pads_S50000x64_S51200x64_012000_000 h_S_
def padA100000 (a : FVec F S5x100000 .f32) : FVec F S5x100352 .f32 := pad S5x100352 ![0, 0] ![0, 352] ![0, 0] a pz pads_S5x100000_S5x100352_000_03520 h_S_
def padB100000 (b : FVec F S100000x64 .f32) : FVec F S100352x64 .f32 := pad S100352x64 ![0, 0] ![352, 0] ![0, 0] b pz pads_S100000x64_S100352x64_03520_000 h_S_

end Cert.KernelIdeal.Spec

end
-- ==== Proof.ChainDefs.lean ====
import proofs.«422239_j35003983462563_2_alg».proof.Proof.Gen.KernelIdeal.Frame
import proofs.«422239_j35003983462563_2_alg».proof.Proof.Spec
import Idealize.ShloMosaic.Lib.StableHlo.Run

/-! The contents of the kernel program's buffers, named: the ten argument arrays as launched, the array each pipeline
    region leaves (one atom per region output, at that region's own entry contents), and the host stretches' results
    over them: the masked edge values and the two sparse products of each layer. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
/-- Argument 0 as launched. -/
abbrev a0 : FVec Ideal S100000x64 .f32 := m ((c.tc : Thread nD τ).loc main_arg0)
/-- Argument 1 as launched. -/
abbrev a1 : FVec Ideal S50000x64 .f32 := m ((c.tc : Thread nD τ).loc main_arg1)
/-- Argument 2 as launched. -/
abbrev a2 : FVec Ideal S2500000 .f32 := m ((c.tc : Thread nD τ).loc main_arg2)
/-- Argument 3 as launched. -/
abbrev a3 : FVec Ideal S100000x5 .f32 := m ((c.tc : Thread nD τ).loc main_arg3)
/-- Argument 4 as launched. -/
abbrev a4 : FVec Ideal S50000x5 .f32 := m ((c.tc : Thread nD τ).loc main_arg4)
/-- Argument 5 as launched. -/
abbrev a5 : FVec Ideal S5x100000 .f32 := m ((c.tc : Thread nD τ).loc main_arg5)
/-- Argument 6 as launched. -/
abbrev a6 : FVec Ideal S5x50000 .f32 := m ((c.tc : Thread nD τ).loc main_arg6)
/-- Argument 7 as launched. -/
abbrev a7 : FVec Ideal S2x2x2500000 .f32 := m ((c.tc : Thread nD τ).loc main_arg7)
/-- The user-side segment ids (argument 8) as launched. -/
abbrev a8 : IVec S2500000 32 := m ((c.tc : Thread nD τ).loc main_arg8)
/-- The item-side segment ids (argument 9) as launched. -/
abbrev a9 : IVec S2500000 32 := m ((c.tc : Thread nD τ).loc main_arg9)

/-- What region 0 leaves in its output window 3's array, from the contents it is entered with. -/
def X0u : FVec Ideal S2x19536x128 .f32 := (dat0 (F := Ideal) (V7 m ρ) c).arrAt 3 cfg0.N
/-- What region 0 leaves in its output window 4's array, from the contents it is entered with. -/
def X0i : FVec Ideal S2x19536x128 .f32 := (dat0 (F := Ideal) (V7 m ρ) c).arrAt 4 cfg0.N
/-- What region 1 leaves in its output window 2's array, from the contents it is entered with. -/
def X1 : FVec Ideal S5x64 .f32 := (dat1 (F := Ideal) (V16 m ρ) c).arrAt 2 cfg1.N
/-- What region 2 leaves in its output window 2's array, from the contents it is entered with. -/
def X2 : FVec Ideal S5x64 .f32 := (dat2 (F := Ideal) (V21 m ρ) c).arrAt 2 cfg2.N
/-- What region 3 leaves in its output window 2's array, from the contents it is entered with. -/
def X3 : FVec Ideal S100000x64 .f32 := (dat3 (F := Ideal) (V22 m ρ) c).arrAt 2 cfg3.N
/-- What region 4 leaves in its output window 2's array, from the contents it is entered with. -/
def X4 : FVec Ideal S50000x64 .f32 := (dat4 (F := Ideal) (V23 m ρ) c).arrAt 2 cfg4.N
/-- What region 5 leaves in its output window 2's array, from the contents it is entered with. -/
def X5 : FVec Ideal S5x64 .f32 := (dat5 (F := Ideal) (V32 m ρ) c).arrAt 2 cfg5.N
/-- What region 6 leaves in its output window 2's array, from the contents it is entered with. -/
def X6 : FVec Ideal S5x64 .f32 := (dat6 (F := Ideal) (V37 m ρ) c).arrAt 2 cfg6.N
/-- What region 7 leaves in its output window 2's array, from the contents it is entered with. -/
def X7 : FVec Ideal S100000x64 .f32 := (dat7 (F := Ideal) (V38 m ρ) c).arrAt 2 cfg7.N
/-- What region 8 leaves in its output window 2's array, from the contents it is entered with. -/
def X8 : FVec Ideal S50000x64 .f32 := (dat8 (F := Ideal) (V39 m ρ) c).arrAt 2 cfg8.N

/-- The masked edge values of both layers, user side and item side. -/
def keepU : FVec Ideal S2x2500000 .f32 := Spec.unpad (X0u m ρ c)
def keepI : FVec Ideal S2x2500000 .f32 := Spec.unpad (X0i m ρ c)
/-- Layer 0's sparse products: item rows into users, user rows into items. -/
def Zu0 : FVec Ideal S100000x64 .f32 := Spec.spmm100000 (Spec.row0 (keepU m ρ c)) (Spec.take50000 (a1 m c) (a9 m c)) (a8 m c)
def Zi0 : FVec Ideal S50000x64 .f32 := Spec.spmm50000 (Spec.row0 (keepI m ρ c)) (Spec.take100000 (a0 m c) (a8 m c)) (a9 m c)
/-- Layer 1's, over layer 0's results. -/
def Zu1 : FVec Ideal S100000x64 .f32 := Spec.spmm100000 (Spec.row1 (keepU m ρ c)) (Spec.take50000 (Zi0 m ρ c) (a9 m c)) (a8 m c)
def Zi1 : FVec Ideal S50000x64 .f32 := Spec.spmm50000 (Spec.row1 (keepI m ρ c)) (Spec.take100000 (Zu0 m ρ c) (a8 m c)) (a9 m c)

end Cert.KernelIdeal.Chain

end
-- ==== Proof.ChainA.lean ====
import proofs.«422239_j35003983462563_2_alg».proof.Proof.ChainDefs
import Idealize.ShloMosaic.Lib.StableHlo.Run

/-! The contents of the kernel program's buffers at the segment boundaries 0, 7, 8 of @main: one line per buffer still read later, either carried over a segment that does not write it or computed by the segment from the contents before it. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
theorem w0_main_arg0 : W0 m ρ c (Proc.devRef .tc main_arg0) = (a0 m c) := rfl
theorem w0_main_arg1 : W0 m ρ c (Proc.devRef .tc main_arg1) = (a1 m c) := rfl
theorem w0_main_arg2 : W0 m ρ c (Proc.devRef .tc main_arg2) = (a2 m c) := rfl
theorem w0_main_arg3 : W0 m ρ c (Proc.devRef .tc main_arg3) = (a3 m c) := rfl
theorem w0_main_arg4 : W0 m ρ c (Proc.devRef .tc main_arg4) = (a4 m c) := rfl
theorem w0_main_arg5 : W0 m ρ c (Proc.devRef .tc main_arg5) = (a5 m c) := rfl
theorem w0_main_arg6 : W0 m ρ c (Proc.devRef .tc main_arg6) = (a6 m c) := rfl
theorem w0_main_arg7 : W0 m ρ c (Proc.devRef .tc main_arg7) = (a7 m c) := rfl
theorem w0_main_arg8 : W0 m ρ c (Proc.devRef .tc main_arg8) = (a8 m c) := rfl
theorem w0_main_arg9 : W0 m ρ c (Proc.devRef .tc main_arg9) = (a9 m c) := rfl
theorem w7_main_arg0 : W7 m ρ c (Proc.devRef .tc main_arg0) = (a0 m c) :=
  (show W7 m ρ c (Proc.devRef .tc main_arg0) = W0 m ρ c (Proc.devRef .tc main_arg0) from by simp only [W7, W6, W5, W4, W3, W2, W1, hostOps0, hostOps0_1, hostOps0_2, hostOps0_3, hostOps0_4, hostOps0_5, hostOps0_6]; after_results_simp <;> rfl).trans (w0_main_arg0 m ρ c)
theorem w7_main_arg1 : W7 m ρ c (Proc.devRef .tc main_arg1) = (a1 m c) :=
  (show W7 m ρ c (Proc.devRef .tc main_arg1) = W0 m ρ c (Proc.devRef .tc main_arg1) from by simp only [W7, W6, W5, W4, W3, W2, W1, hostOps0, hostOps0_1, hostOps0_2, hostOps0_3, hostOps0_4, hostOps0_5, hostOps0_6]; after_results_simp <;> rfl).trans (w0_main_arg1 m ρ c)
theorem w7_main_arg3 : W7 m ρ c (Proc.devRef .tc main_arg3) = (a3 m c) :=
  (show W7 m ρ c (Proc.devRef .tc main_arg3) = W0 m ρ c (Proc.devRef .tc main_arg3) from by simp only [W7, W6, W5, W4, W3, W2, W1, hostOps0, hostOps0_1, hostOps0_2, hostOps0_3, hostOps0_4, hostOps0_5, hostOps0_6]; after_results_simp <;> rfl).trans (w0_main_arg3 m ρ c)
theorem w7_main_arg4 : W7 m ρ c (Proc.devRef .tc main_arg4) = (a4 m c) :=
  (show W7 m ρ c (Proc.devRef .tc main_arg4) = W0 m ρ c (Proc.devRef .tc main_arg4) from by simp only [W7, W6, W5, W4, W3, W2, W1, hostOps0, hostOps0_1, hostOps0_2, hostOps0_3, hostOps0_4, hostOps0_5, hostOps0_6]; after_results_simp <;> rfl).trans (w0_main_arg4 m ρ c)
theorem w7_main_arg5 : W7 m ρ c (Proc.devRef .tc main_arg5) = (a5 m c) :=
  (show W7 m ρ c (Proc.devRef .tc main_arg5) = W0 m ρ c (Proc.devRef .tc main_arg5) from by simp only [W7, W6, W5, W4, W3, W2, W1, hostOps0, hostOps0_1, hostOps0_2, hostOps0_3, hostOps0_4, hostOps0_5, hostOps0_6]; after_results_simp <;> rfl).trans (w0_main_arg5 m ρ c)
theorem w7_main_arg6 : W7 m ρ c (Proc.devRef .tc main_arg6) = (a6 m c) :=
  (show W7 m ρ c (Proc.devRef .tc main_arg6) = W0 m ρ c (Proc.devRef .tc main_arg6) from by simp only [W7, W6, W5, W4, W3, W2, W1, hostOps0, hostOps0_1, hostOps0_2, hostOps0_3, hostOps0_4, hostOps0_5, hostOps0_6]; after_results_simp <;> rfl).trans (w0_main_arg6 m ρ c)
theorem w7_main_arg8 : W7 m ρ c (Proc.devRef .tc main_arg8) = (a8 m c) :=
  (show W7 m ρ c (Proc.devRef .tc main_arg8) = W0 m ρ c (Proc.devRef .tc main_arg8) from by simp only [W7, W6, W5, W4, W3, W2, W1, hostOps0, hostOps0_1, hostOps0_2, hostOps0_3, hostOps0_4, hostOps0_5, hostOps0_6]; after_results_simp <;> rfl).trans (w0_main_arg8 m ρ c)
theorem w7_main_arg9 : W7 m ρ c (Proc.devRef .tc main_arg9) = (a9 m c) :=
  (show W7 m ρ c (Proc.devRef .tc main_arg9) = W0 m ρ c (Proc.devRef .tc main_arg9) from by simp only [W7, W6, W5, W4, W3, W2, W1, hostOps0, hostOps0_1, hostOps0_2, hostOps0_3, hostOps0_4, hostOps0_5, hostOps0_6]; after_results_simp <;> rfl).trans (w0_main_arg9 m ρ c)
set_option maxHeartbeats 4000000 in
theorem w7_main_v1 : W7 m ρ c (Proc.devRef .tc main_v1) = Spec.valsP (a2 m c) := by
  simp only [W7, W6, W5, W4, W3, W2, W1, hostOps0, hostOps0_1, hostOps0_2, hostOps0_3, hostOps0_4, hostOps0_5, hostOps0_6]; after_results_simp
  simp only [cast_eq, w0_main_arg2 m ρ c]
  all_goals rfl
set_option maxHeartbeats 4000000 in
theorem w7_main_v7 : W7 m ρ c (Proc.devRef .tc main_v7) = Spec.dmP0 (a7 m c) := by
  simp only [W7, W6, W5, W4, W3, W2, W1, hostOps0, hostOps0_1, hostOps0_2, hostOps0_3, hostOps0_4, hostOps0_5, hostOps0_6]; after_results_simp
  simp only [cast_eq, w0_main_arg7 m ρ c]
  all_goals rfl
set_option maxHeartbeats 4000000 in
theorem w7_main_v9 : W7 m ρ c (Proc.devRef .tc main_v9) = Spec.dmP1 (a7 m c) := by
  simp only [W7, W6, W5, W4, W3, W2, W1, hostOps0, hostOps0_1, hostOps0_2, hostOps0_3, hostOps0_4, hostOps0_5, hostOps0_6]; after_results_simp
  simp only [cast_eq, w0_main_arg7 m ρ c]
  all_goals rfl
theorem w8_main_arg0 : W8 m ρ c (Proc.devRef .tc main_arg0) = (a0 m c) :=
  (W8_of_ne m ρ c main_arg0 (by decide)).trans (w7_main_arg0 m ρ c)
theorem w8_main_arg1 : W8 m ρ c (Proc.devRef .tc main_arg1) = (a1 m c) :=
  (W8_of_ne m ρ c main_arg1 (by decide)).trans (w7_main_arg1 m ρ c)
theorem w8_main_arg3 : W8 m ρ c (Proc.devRef .tc main_arg3) = (a3 m c) :=
  (W8_of_ne m ρ c main_arg3 (by decide)).trans (w7_main_arg3 m ρ c)
theorem w8_main_arg4 : W8 m ρ c (Proc.devRef .tc main_arg4) = (a4 m c) :=
  (W8_of_ne m ρ c main_arg4 (by decide)).trans (w7_main_arg4 m ρ c)
theorem w8_main_arg5 : W8 m ρ c (Proc.devRef .tc main_arg5) = (a5 m c) :=
  (W8_of_ne m ρ c main_arg5 (by decide)).trans (w7_main_arg5 m ρ c)
theorem w8_main_arg6 : W8 m ρ c (Proc.devRef .tc main_arg6) = (a6 m c) :=
  (W8_of_ne m ρ c main_arg6 (by decide)).trans (w7_main_arg6 m ρ c)
theorem w8_main_arg8 : W8 m ρ c (Proc.devRef .tc main_arg8) = (a8 m c) :=
  (W8_of_ne m ρ c main_arg8 (by decide)).trans (w7_main_arg8 m ρ c)
theorem w8_main_arg9 : W8 m ρ c (Proc.devRef .tc main_arg9) = (a9 m c) :=
  (W8_of_ne m ρ c main_arg9 (by decide)).trans (w7_main_arg9 m ρ c)
theorem w8_main_v10_0 : W8 m ρ c (Proc.devRef .tc main_v10_0) = (X0u m ρ c) := W8_arr m ρ c 3
theorem w8_main_v10_1 : W8 m ρ c (Proc.devRef .tc main_v10_1) = (X0i m ρ c) := W8_arr m ρ c 4

end Cert.KernelIdeal.Chain

end
-- ==== Proof.ChainB.lean ====
import proofs.«422239_j35003983462563_2_alg».proof.Proof.ChainA
import Idealize.ShloMosaic.Lib.StableHlo.Run

/-! The contents of the kernel program's buffers at the segment boundaries 16, 17 of @main: one line per buffer still read later, either carried over a segment that does not write it or computed by the segment from the contents before it. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
theorem w16_main_arg0 : W16 m ρ c (Proc.devRef .tc main_arg0) = (a0 m c) :=
  (show W16 m ρ c (Proc.devRef .tc main_arg0) = W8 m ρ c (Proc.devRef .tc main_arg0) from by simp only [W16, W15, W14, W13, W12, W11, W10, W9, hostOps1, hostOps1_1, hostOps1_2, hostOps1_3, hostOps1_4, hostOps1_5, hostOps1_6, hostOps1_7]; after_results_simp <;> rfl).trans (w8_main_arg0 m ρ c)
theorem w16_main_arg1 : W16 m ρ c (Proc.devRef .tc main_arg1) = (a1 m c) :=
  (show W16 m ρ c (Proc.devRef .tc main_arg1) = W8 m ρ c (Proc.devRef .tc main_arg1) from by simp only [W16, W15, W14, W13, W12, W11, W10, W9, hostOps1, hostOps1_1, hostOps1_2, hostOps1_3, hostOps1_4, hostOps1_5, hostOps1_6, hostOps1_7]; after_results_simp <;> rfl).trans (w8_main_arg1 m ρ c)
theorem w16_main_arg3 : W16 m ρ c (Proc.devRef .tc main_arg3) = (a3 m c) :=
  (show W16 m ρ c (Proc.devRef .tc main_arg3) = W8 m ρ c (Proc.devRef .tc main_arg3) from by simp only [W16, W15, W14, W13, W12, W11, W10, W9, hostOps1, hostOps1_1, hostOps1_2, hostOps1_3, hostOps1_4, hostOps1_5, hostOps1_6, hostOps1_7]; after_results_simp <;> rfl).trans (w8_main_arg3 m ρ c)
theorem w16_main_arg4 : W16 m ρ c (Proc.devRef .tc main_arg4) = (a4 m c) :=
  (show W16 m ρ c (Proc.devRef .tc main_arg4) = W8 m ρ c (Proc.devRef .tc main_arg4) from by simp only [W16, W15, W14, W13, W12, W11, W10, W9, hostOps1, hostOps1_1, hostOps1_2, hostOps1_3, hostOps1_4, hostOps1_5, hostOps1_6, hostOps1_7]; after_results_simp <;> rfl).trans (w8_main_arg4 m ρ c)
theorem w16_main_arg5 : W16 m ρ c (Proc.devRef .tc main_arg5) = (a5 m c) :=
  (show W16 m ρ c (Proc.devRef .tc main_arg5) = W8 m ρ c (Proc.devRef .tc main_arg5) from by simp only [W16, W15, W14, W13, W12, W11, W10, W9, hostOps1, hostOps1_1, hostOps1_2, hostOps1_3, hostOps1_4, hostOps1_5, hostOps1_6, hostOps1_7]; after_results_simp <;> rfl).trans (w8_main_arg5 m ρ c)
theorem w16_main_arg6 : W16 m ρ c (Proc.devRef .tc main_arg6) = (a6 m c) :=
  (show W16 m ρ c (Proc.devRef .tc main_arg6) = W8 m ρ c (Proc.devRef .tc main_arg6) from by simp only [W16, W15, W14, W13, W12, W11, W10, W9, hostOps1, hostOps1_1, hostOps1_2, hostOps1_3, hostOps1_4, hostOps1_5, hostOps1_6, hostOps1_7]; after_results_simp <;> rfl).trans (w8_main_arg6 m ρ c)
theorem w16_main_arg8 : W16 m ρ c (Proc.devRef .tc main_arg8) = (a8 m c) :=
  (show W16 m ρ c (Proc.devRef .tc main_arg8) = W8 m ρ c (Proc.devRef .tc main_arg8) from by simp only [W16, W15, W14, W13, W12, W11, W10, W9, hostOps1, hostOps1_1, hostOps1_2, hostOps1_3, hostOps1_4, hostOps1_5, hostOps1_6, hostOps1_7]; after_results_simp <;> rfl).trans (w8_main_arg8 m ρ c)
theorem w16_main_arg9 : W16 m ρ c (Proc.devRef .tc main_arg9) = (a9 m c) :=
  (show W16 m ρ c (Proc.devRef .tc main_arg9) = W8 m ρ c (Proc.devRef .tc main_arg9) from by simp only [W16, W15, W14, W13, W12, W11, W10, W9, hostOps1, hostOps1_1, hostOps1_2, hostOps1_3, hostOps1_4, hostOps1_5, hostOps1_6, hostOps1_7]; after_results_simp <;> rfl).trans (w8_main_arg9 m ρ c)
set_option maxHeartbeats 4000000 in
theorem w16_main_v12 : W16 m ρ c (Proc.devRef .tc main_v12) = (keepU m ρ c) := by
  simp only [W16, W15, W14, W13, W12, W11, W10, W9, hostOps1, hostOps1_1, hostOps1_2, hostOps1_3, hostOps1_4, hostOps1_5, hostOps1_6, hostOps1_7]; after_results_simp
  simp only [cast_eq, w8_main_v10_0 m ρ c]
  all_goals rfl
set_option maxHeartbeats 4000000 in
theorem w16_main_v14 : W16 m ρ c (Proc.devRef .tc main_v14) = (keepI m ρ c) := by
  simp only [W16, W15, W14, W13, W12, W11, W10, W9, hostOps1, hostOps1_1, hostOps1_2, hostOps1_3, hostOps1_4, hostOps1_5, hostOps1_6, hostOps1_7]; after_results_simp
  simp only [cast_eq, w8_main_v10_1 m ρ c]
  all_goals rfl
set_option maxHeartbeats 4000000 in
theorem w16_main_v25 : W16 m ρ c (Proc.devRef .tc main_v25) = (Zu0 m ρ c) := by
  simp only [W16, W15, W14, W13, W12, W11, W10, W9, hostOps1, hostOps1_1, hostOps1_2, hostOps1_3, hostOps1_4, hostOps1_5, hostOps1_6, hostOps1_7]; after_results_simp
  simp only [cast_eq, w8_main_v10_0 m ρ c, w8_main_arg1 m ρ c, w8_main_arg9 m ρ c, w8_main_arg8 m ρ c]
  all_goals rfl
set_option maxHeartbeats 4000000 in
theorem w16_main_v32 : W16 m ρ c (Proc.devRef .tc main_v32) = (Zi0 m ρ c) := by
  simp only [W16, W15, W14, W13, W12, W11, W10, W9, hostOps1, hostOps1_1, hostOps1_2, hostOps1_3, hostOps1_4, hostOps1_5, hostOps1_6, hostOps1_7]; after_results_simp
  simp only [cast_eq, w8_main_v10_1 m ρ c, w8_main_arg0 m ρ c, w8_main_arg8 m ρ c, w8_main_arg9 m ρ c]
  all_goals rfl
set_option maxHeartbeats 4000000 in
theorem w16_main_v33 : W16 m ρ c (Proc.devRef .tc main_v33) = Spec.padA50000 (a6 m c) := by
  simp only [W16, W15, W14, W13, W12, W11, W10, W9, hostOps1, hostOps1_1, hostOps1_2, hostOps1_3, hostOps1_4, hostOps1_5, hostOps1_6, hostOps1_7]; after_results_simp
  simp only [cast_eq, w8_main_arg6 m ρ c]
  all_goals rfl
set_option maxHeartbeats 4000000 in
theorem w16_main_v34 : W16 m ρ c (Proc.devRef .tc main_v34) = Spec.padB50000 (a1 m c) := by
  simp only [W16, W15, W14, W13, W12, W11, W10, W9, hostOps1, hostOps1_1, hostOps1_2, hostOps1_3, hostOps1_4, hostOps1_5, hostOps1_6, hostOps1_7]; after_results_simp
  simp only [cast_eq, w8_main_arg1 m ρ c]
  all_goals rfl
theorem w17_main_arg0 : W17 m ρ c (Proc.devRef .tc main_arg0) = (a0 m c) :=
  (W17_of_ne m ρ c main_arg0 (by decide)).trans (w16_main_arg0 m ρ c)
theorem w17_main_arg1 : W17 m ρ c (Proc.devRef .tc main_arg1) = (a1 m c) :=
  (W17_of_ne m ρ c main_arg1 (by decide)).trans (w16_main_arg1 m ρ c)
theorem w17_main_arg3 : W17 m ρ c (Proc.devRef .tc main_arg3) = (a3 m c) :=
  (W17_of_ne m ρ c main_arg3 (by decide)).trans (w16_main_arg3 m ρ c)
theorem w17_main_arg4 : W17 m ρ c (Proc.devRef .tc main_arg4) = (a4 m c) :=
  (W17_of_ne m ρ c main_arg4 (by decide)).trans (w16_main_arg4 m ρ c)
theorem w17_main_arg5 : W17 m ρ c (Proc.devRef .tc main_arg5) = (a5 m c) :=
  (W17_of_ne m ρ c main_arg5 (by decide)).trans (w16_main_arg5 m ρ c)
theorem w17_main_arg6 : W17 m ρ c (Proc.devRef .tc main_arg6) = (a6 m c) :=
  (W17_of_ne m ρ c main_arg6 (by decide)).trans (w16_main_arg6 m ρ c)
theorem w17_main_arg8 : W17 m ρ c (Proc.devRef .tc main_arg8) = (a8 m c) :=
  (W17_of_ne m ρ c main_arg8 (by decide)).trans (w16_main_arg8 m ρ c)
theorem w17_main_arg9 : W17 m ρ c (Proc.devRef .tc main_arg9) = (a9 m c) :=
  (W17_of_ne m ρ c main_arg9 (by decide)).trans (w16_main_arg9 m ρ c)
theorem w17_main_v12 : W17 m ρ c (Proc.devRef .tc main_v12) = (keepU m ρ c) :=
  (W17_of_ne m ρ c main_v12 (by decide)).trans (w16_main_v12 m ρ c)
theorem w17_main_v14 : W17 m ρ c (Proc.devRef .tc main_v14) = (keepI m ρ c) :=
  (W17_of_ne m ρ c main_v14 (by decide)).trans (w16_main_v14 m ρ c)
theorem w17_main_v25 : W17 m ρ c (Proc.devRef .tc main_v25) = (Zu0 m ρ c) :=
  (W17_of_ne m ρ c main_v25 (by decide)).trans (w16_main_v25 m ρ c)
theorem w17_main_v32 : W17 m ρ c (Proc.devRef .tc main_v32) = (Zi0 m ρ c) :=
  (W17_of_ne m ρ c main_v32 (by decide)).trans (w16_main_v32 m ρ c)
theorem w17_main_v35 : W17 m ρ c (Proc.devRef .tc main_v35) = (X1 m ρ c) := W17_arr m ρ c 2

end Cert.KernelIdeal.Chain

end
-- ==== Proof.ChainC.lean ====
import proofs.«422239_j35003983462563_2_alg».proof.Proof.ChainB
import Idealize.ShloMosaic.Lib.StableHlo.Run

/-! The contents of the kernel program's buffers at the segment boundaries 21, 22, 23, 24 of @main: one line per buffer still read later, either carried over a segment that does not write it or computed by the segment from the contents before it. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
theorem w21_main_arg0 : W21 m ρ c (Proc.devRef .tc main_arg0) = (a0 m c) :=
  (show W21 m ρ c (Proc.devRef .tc main_arg0) = W17 m ρ c (Proc.devRef .tc main_arg0) from by simp only [W21, W20, W19, W18, hostOps2, hostOps2_1, hostOps2_2, hostOps2_3]; after_results_simp <;> rfl).trans (w17_main_arg0 m ρ c)
theorem w21_main_arg1 : W21 m ρ c (Proc.devRef .tc main_arg1) = (a1 m c) :=
  (show W21 m ρ c (Proc.devRef .tc main_arg1) = W17 m ρ c (Proc.devRef .tc main_arg1) from by simp only [W21, W20, W19, W18, hostOps2, hostOps2_1, hostOps2_2, hostOps2_3]; after_results_simp <;> rfl).trans (w17_main_arg1 m ρ c)
theorem w21_main_arg3 : W21 m ρ c (Proc.devRef .tc main_arg3) = (a3 m c) :=
  (show W21 m ρ c (Proc.devRef .tc main_arg3) = W17 m ρ c (Proc.devRef .tc main_arg3) from by simp only [W21, W20, W19, W18, hostOps2, hostOps2_1, hostOps2_2, hostOps2_3]; after_results_simp <;> rfl).trans (w17_main_arg3 m ρ c)
theorem w21_main_arg4 : W21 m ρ c (Proc.devRef .tc main_arg4) = (a4 m c) :=
  (show W21 m ρ c (Proc.devRef .tc main_arg4) = W17 m ρ c (Proc.devRef .tc main_arg4) from by simp only [W21, W20, W19, W18, hostOps2, hostOps2_1, hostOps2_2, hostOps2_3]; after_results_simp <;> rfl).trans (w17_main_arg4 m ρ c)
theorem w21_main_arg5 : W21 m ρ c (Proc.devRef .tc main_arg5) = (a5 m c) :=
  (show W21 m ρ c (Proc.devRef .tc main_arg5) = W17 m ρ c (Proc.devRef .tc main_arg5) from by simp only [W21, W20, W19, W18, hostOps2, hostOps2_1, hostOps2_2, hostOps2_3]; after_results_simp <;> rfl).trans (w17_main_arg5 m ρ c)
theorem w21_main_arg6 : W21 m ρ c (Proc.devRef .tc main_arg6) = (a6 m c) :=
  (show W21 m ρ c (Proc.devRef .tc main_arg6) = W17 m ρ c (Proc.devRef .tc main_arg6) from by simp only [W21, W20, W19, W18, hostOps2, hostOps2_1, hostOps2_2, hostOps2_3]; after_results_simp <;> rfl).trans (w17_main_arg6 m ρ c)
theorem w21_main_arg8 : W21 m ρ c (Proc.devRef .tc main_arg8) = (a8 m c) :=
  (show W21 m ρ c (Proc.devRef .tc main_arg8) = W17 m ρ c (Proc.devRef .tc main_arg8) from by simp only [W21, W20, W19, W18, hostOps2, hostOps2_1, hostOps2_2, hostOps2_3]; after_results_simp <;> rfl).trans (w17_main_arg8 m ρ c)
theorem w21_main_arg9 : W21 m ρ c (Proc.devRef .tc main_arg9) = (a9 m c) :=
  (show W21 m ρ c (Proc.devRef .tc main_arg9) = W17 m ρ c (Proc.devRef .tc main_arg9) from by simp only [W21, W20, W19, W18, hostOps2, hostOps2_1, hostOps2_2, hostOps2_3]; after_results_simp <;> rfl).trans (w17_main_arg9 m ρ c)
theorem w21_main_v12 : W21 m ρ c (Proc.devRef .tc main_v12) = (keepU m ρ c) :=
  (show W21 m ρ c (Proc.devRef .tc main_v12) = W17 m ρ c (Proc.devRef .tc main_v12) from by simp only [W21, W20, W19, W18, hostOps2, hostOps2_1, hostOps2_2, hostOps2_3]; after_results_simp <;> rfl).trans (w17_main_v12 m ρ c)
theorem w21_main_v14 : W21 m ρ c (Proc.devRef .tc main_v14) = (keepI m ρ c) :=
  (show W21 m ρ c (Proc.devRef .tc main_v14) = W17 m ρ c (Proc.devRef .tc main_v14) from by simp only [W21, W20, W19, W18, hostOps2, hostOps2_1, hostOps2_2, hostOps2_3]; after_results_simp <;> rfl).trans (w17_main_v14 m ρ c)
theorem w21_main_v25 : W21 m ρ c (Proc.devRef .tc main_v25) = (Zu0 m ρ c) :=
  (show W21 m ρ c (Proc.devRef .tc main_v25) = W17 m ρ c (Proc.devRef .tc main_v25) from by simp only [W21, W20, W19, W18, hostOps2, hostOps2_1, hostOps2_2, hostOps2_3]; after_results_simp <;> rfl).trans (w17_main_v25 m ρ c)
theorem w21_main_v32 : W21 m ρ c (Proc.devRef .tc main_v32) = (Zi0 m ρ c) :=
  (show W21 m ρ c (Proc.devRef .tc main_v32) = W17 m ρ c (Proc.devRef .tc main_v32) from by simp only [W21, W20, W19, W18, hostOps2, hostOps2_1, hostOps2_2, hostOps2_3]; after_results_simp <;> rfl).trans (w17_main_v32 m ρ c)
theorem w21_main_v35 : W21 m ρ c (Proc.devRef .tc main_v35) = (X1 m ρ c) :=
  (show W21 m ρ c (Proc.devRef .tc main_v35) = W17 m ρ c (Proc.devRef .tc main_v35) from by simp only [W21, W20, W19, W18, hostOps2, hostOps2_1, hostOps2_2, hostOps2_3]; after_results_simp <;> rfl).trans (w17_main_v35 m ρ c)
set_option maxHeartbeats 4000000 in
theorem w21_main_v36 : W21 m ρ c (Proc.devRef .tc main_v36) = Spec.padA100000 (a5 m c) := by
  simp only [W21, W20, W19, W18, hostOps2, hostOps2_1, hostOps2_2, hostOps2_3]; after_results_simp
  simp only [cast_eq, w17_main_arg5 m ρ c]
  all_goals rfl
set_option maxHeartbeats 4000000 in
theorem w21_main_v37 : W21 m ρ c (Proc.devRef .tc main_v37) = Spec.padB100000 (a0 m c) := by
  simp only [W21, W20, W19, W18, hostOps2, hostOps2_1, hostOps2_2, hostOps2_3]; after_results_simp
  simp only [cast_eq, w17_main_arg0 m ρ c]
  all_goals rfl
theorem w22_main_arg0 : W22 m ρ c (Proc.devRef .tc main_arg0) = (a0 m c) :=
  (W22_of_ne m ρ c main_arg0 (by decide)).trans (w21_main_arg0 m ρ c)
theorem w22_main_arg1 : W22 m ρ c (Proc.devRef .tc main_arg1) = (a1 m c) :=
  (W22_of_ne m ρ c main_arg1 (by decide)).trans (w21_main_arg1 m ρ c)
theorem w22_main_arg3 : W22 m ρ c (Proc.devRef .tc main_arg3) = (a3 m c) :=
  (W22_of_ne m ρ c main_arg3 (by decide)).trans (w21_main_arg3 m ρ c)
theorem w22_main_arg4 : W22 m ρ c (Proc.devRef .tc main_arg4) = (a4 m c) :=
  (W22_of_ne m ρ c main_arg4 (by decide)).trans (w21_main_arg4 m ρ c)
theorem w22_main_arg5 : W22 m ρ c (Proc.devRef .tc main_arg5) = (a5 m c) :=
  (W22_of_ne m ρ c main_arg5 (by decide)).trans (w21_main_arg5 m ρ c)
theorem w22_main_arg6 : W22 m ρ c (Proc.devRef .tc main_arg6) = (a6 m c) :=
  (W22_of_ne m ρ c main_arg6 (by decide)).trans (w21_main_arg6 m ρ c)
theorem w22_main_arg8 : W22 m ρ c (Proc.devRef .tc main_arg8) = (a8 m c) :=
  (W22_of_ne m ρ c main_arg8 (by decide)).trans (w21_main_arg8 m ρ c)
theorem w22_main_arg9 : W22 m ρ c (Proc.devRef .tc main_arg9) = (a9 m c) :=
  (W22_of_ne m ρ c main_arg9 (by decide)).trans (w21_main_arg9 m ρ c)
theorem w22_main_v12 : W22 m ρ c (Proc.devRef .tc main_v12) = (keepU m ρ c) :=
  (W22_of_ne m ρ c main_v12 (by decide)).trans (w21_main_v12 m ρ c)
theorem w22_main_v14 : W22 m ρ c (Proc.devRef .tc main_v14) = (keepI m ρ c) :=
  (W22_of_ne m ρ c main_v14 (by decide)).trans (w21_main_v14 m ρ c)
theorem w22_main_v25 : W22 m ρ c (Proc.devRef .tc main_v25) = (Zu0 m ρ c) :=
  (W22_of_ne m ρ c main_v25 (by decide)).trans (w21_main_v25 m ρ c)
theorem w22_main_v32 : W22 m ρ c (Proc.devRef .tc main_v32) = (Zi0 m ρ c) :=
  (W22_of_ne m ρ c main_v32 (by decide)).trans (w21_main_v32 m ρ c)
theorem w22_main_v35 : W22 m ρ c (Proc.devRef .tc main_v35) = (X1 m ρ c) :=
  (W22_of_ne m ρ c main_v35 (by decide)).trans (w21_main_v35 m ρ c)
theorem w22_main_v38 : W22 m ρ c (Proc.devRef .tc main_v38) = (X2 m ρ c) := W22_arr m ρ c 2
theorem w23_main_arg0 : W23 m ρ c (Proc.devRef .tc main_arg0) = (a0 m c) :=
  (W23_of_ne m ρ c main_arg0 (by decide)).trans (w22_main_arg0 m ρ c)
theorem w23_main_arg1 : W23 m ρ c (Proc.devRef .tc main_arg1) = (a1 m c) :=
  (W23_of_ne m ρ c main_arg1 (by decide)).trans (w22_main_arg1 m ρ c)
theorem w23_main_arg3 : W23 m ρ c (Proc.devRef .tc main_arg3) = (a3 m c) :=
  ((W23_arr m ρ c 0).trans (((dat3 (V22 m ρ) c).arrAt_in 0 rfl _).trans (A_eq3 (V22 m ρ) c 0))).trans (w22_main_arg3 m ρ c)
theorem w23_main_arg4 : W23 m ρ c (Proc.devRef .tc main_arg4) = (a4 m c) :=
  (W23_of_ne m ρ c main_arg4 (by decide)).trans (w22_main_arg4 m ρ c)
theorem w23_main_arg5 : W23 m ρ c (Proc.devRef .tc main_arg5) = (a5 m c) :=
  (W23_of_ne m ρ c main_arg5 (by decide)).trans (w22_main_arg5 m ρ c)
theorem w23_main_arg6 : W23 m ρ c (Proc.devRef .tc main_arg6) = (a6 m c) :=
  (W23_of_ne m ρ c main_arg6 (by decide)).trans (w22_main_arg6 m ρ c)
theorem w23_main_arg8 : W23 m ρ c (Proc.devRef .tc main_arg8) = (a8 m c) :=
  (W23_of_ne m ρ c main_arg8 (by decide)).trans (w22_main_arg8 m ρ c)
theorem w23_main_arg9 : W23 m ρ c (Proc.devRef .tc main_arg9) = (a9 m c) :=
  (W23_of_ne m ρ c main_arg9 (by decide)).trans (w22_main_arg9 m ρ c)
theorem w23_main_v12 : W23 m ρ c (Proc.devRef .tc main_v12) = (keepU m ρ c) :=
  (W23_of_ne m ρ c main_v12 (by decide)).trans (w22_main_v12 m ρ c)
theorem w23_main_v14 : W23 m ρ c (Proc.devRef .tc main_v14) = (keepI m ρ c) :=
  (W23_of_ne m ρ c main_v14 (by decide)).trans (w22_main_v14 m ρ c)
theorem w23_main_v25 : W23 m ρ c (Proc.devRef .tc main_v25) = (Zu0 m ρ c) :=
  (W23_of_ne m ρ c main_v25 (by decide)).trans (w22_main_v25 m ρ c)
theorem w23_main_v32 : W23 m ρ c (Proc.devRef .tc main_v32) = (Zi0 m ρ c) :=
  (W23_of_ne m ρ c main_v32 (by decide)).trans (w22_main_v32 m ρ c)
theorem w23_main_v38 : W23 m ρ c (Proc.devRef .tc main_v38) = (X2 m ρ c) :=
  (W23_of_ne m ρ c main_v38 (by decide)).trans (w22_main_v38 m ρ c)
theorem w23_main_v39 : W23 m ρ c (Proc.devRef .tc main_v39) = (X3 m ρ c) := W23_arr m ρ c 2
theorem w24_main_arg0 : W24 m ρ c (Proc.devRef .tc main_arg0) = (a0 m c) :=
  (W24_of_ne m ρ c main_arg0 (by decide)).trans (w23_main_arg0 m ρ c)
theorem w24_main_arg1 : W24 m ρ c (Proc.devRef .tc main_arg1) = (a1 m c) :=
  (W24_of_ne m ρ c main_arg1 (by decide)).trans (w23_main_arg1 m ρ c)
theorem w24_main_arg3 : W24 m ρ c (Proc.devRef .tc main_arg3) = (a3 m c) :=
  (W24_of_ne m ρ c main_arg3 (by decide)).trans (w23_main_arg3 m ρ c)
theorem w24_main_arg4 : W24 m ρ c (Proc.devRef .tc main_arg4) = (a4 m c) :=
  ((W24_arr m ρ c 0).trans (((dat4 (V23 m ρ) c).arrAt_in 0 rfl _).trans (A_eq4 (V23 m ρ) c 0))).trans (w23_main_arg4 m ρ c)
theorem w24_main_arg5 : W24 m ρ c (Proc.devRef .tc main_arg5) = (a5 m c) :=
  (W24_of_ne m ρ c main_arg5 (by decide)).trans (w23_main_arg5 m ρ c)
theorem w24_main_arg6 : W24 m ρ c (Proc.devRef .tc main_arg6) = (a6 m c) :=
  (W24_of_ne m ρ c main_arg6 (by decide)).trans (w23_main_arg6 m ρ c)
theorem w24_main_arg8 : W24 m ρ c (Proc.devRef .tc main_arg8) = (a8 m c) :=
  (W24_of_ne m ρ c main_arg8 (by decide)).trans (w23_main_arg8 m ρ c)
theorem w24_main_arg9 : W24 m ρ c (Proc.devRef .tc main_arg9) = (a9 m c) :=
  (W24_of_ne m ρ c main_arg9 (by decide)).trans (w23_main_arg9 m ρ c)
theorem w24_main_v12 : W24 m ρ c (Proc.devRef .tc main_v12) = (keepU m ρ c) :=
  (W24_of_ne m ρ c main_v12 (by decide)).trans (w23_main_v12 m ρ c)
theorem w24_main_v14 : W24 m ρ c (Proc.devRef .tc main_v14) = (keepI m ρ c) :=
  (W24_of_ne m ρ c main_v14 (by decide)).trans (w23_main_v14 m ρ c)
theorem w24_main_v25 : W24 m ρ c (Proc.devRef .tc main_v25) = (Zu0 m ρ c) :=
  (W24_of_ne m ρ c main_v25 (by decide)).trans (w23_main_v25 m ρ c)
theorem w24_main_v32 : W24 m ρ c (Proc.devRef .tc main_v32) = (Zi0 m ρ c) :=
  (W24_of_ne m ρ c main_v32 (by decide)).trans (w23_main_v32 m ρ c)
theorem w24_main_v39 : W24 m ρ c (Proc.devRef .tc main_v39) = (X3 m ρ c) :=
  (W24_of_ne m ρ c main_v39 (by decide)).trans (w23_main_v39 m ρ c)
theorem w24_main_v40 : W24 m ρ c (Proc.devRef .tc main_v40) = (X4 m ρ c) := W24_arr m ρ c 2

end Cert.KernelIdeal.Chain

end
-- ==== Proof.ChainD.lean ====
import proofs.«422239_j35003983462563_2_alg».proof.Proof.ChainC
import Idealize.ShloMosaic.Lib.StableHlo.Run

/-! The contents of the kernel program's buffers at the segment boundaries 32, 33 of @main: one line per buffer still read later, either carried over a segment that does not write it or computed by the segment from the contents before it. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
theorem w32_main_arg3 : W32 m ρ c (Proc.devRef .tc main_arg3) = (a3 m c) :=
  (show W32 m ρ c (Proc.devRef .tc main_arg3) = W24 m ρ c (Proc.devRef .tc main_arg3) from by simp only [W32, W31, W30, W29, W28, W27, W26, W25, hostOps5, hostOps5_1, hostOps5_2, hostOps5_3, hostOps5_4, hostOps5_5, hostOps5_6, hostOps5_7]; after_results_simp <;> rfl).trans (w24_main_arg3 m ρ c)
theorem w32_main_arg4 : W32 m ρ c (Proc.devRef .tc main_arg4) = (a4 m c) :=
  (show W32 m ρ c (Proc.devRef .tc main_arg4) = W24 m ρ c (Proc.devRef .tc main_arg4) from by simp only [W32, W31, W30, W29, W28, W27, W26, W25, hostOps5, hostOps5_1, hostOps5_2, hostOps5_3, hostOps5_4, hostOps5_5, hostOps5_6, hostOps5_7]; after_results_simp <;> rfl).trans (w24_main_arg4 m ρ c)
theorem w32_main_arg5 : W32 m ρ c (Proc.devRef .tc main_arg5) = (a5 m c) :=
  (show W32 m ρ c (Proc.devRef .tc main_arg5) = W24 m ρ c (Proc.devRef .tc main_arg5) from by simp only [W32, W31, W30, W29, W28, W27, W26, W25, hostOps5, hostOps5_1, hostOps5_2, hostOps5_3, hostOps5_4, hostOps5_5, hostOps5_6, hostOps5_7]; after_results_simp <;> rfl).trans (w24_main_arg5 m ρ c)
theorem w32_main_v25 : W32 m ρ c (Proc.devRef .tc main_v25) = (Zu0 m ρ c) :=
  (show W32 m ρ c (Proc.devRef .tc main_v25) = W24 m ρ c (Proc.devRef .tc main_v25) from by simp only [W32, W31, W30, W29, W28, W27, W26, W25, hostOps5, hostOps5_1, hostOps5_2, hostOps5_3, hostOps5_4, hostOps5_5, hostOps5_6, hostOps5_7]; after_results_simp <;> rfl).trans (w24_main_v25 m ρ c)
set_option maxHeartbeats 4000000 in
theorem w32_main_v41 : W32 m ρ c (Proc.devRef .tc main_v41) = addf (a0 m c) (Zu0 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_arg0 m ρ c, w24_main_v25 m ρ c]
  all_goals rfl
set_option maxHeartbeats 4000000 in
theorem w32_main_v42 : W32 m ρ c (Proc.devRef .tc main_v42) = addf (a1 m c) (Zi0 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_arg1 m ρ c, w24_main_v32 m ρ c]
  all_goals rfl
set_option maxHeartbeats 4000000 in
theorem w32_main_v43 : W32 m ρ c (Proc.devRef .tc main_v43) = addf (a0 m c) (X3 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_arg0 m ρ c, w24_main_v39 m ρ c]
  all_goals rfl
set_option maxHeartbeats 4000000 in
theorem w32_main_v44 : W32 m ρ c (Proc.devRef .tc main_v44) = addf (a1 m c) (X4 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_arg1 m ρ c, w24_main_v40 m ρ c]
  all_goals rfl
set_option maxHeartbeats 4000000 in
theorem w32_main_v55 : W32 m ρ c (Proc.devRef .tc main_v55) = (Zu1 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_v12 m ρ c, w24_main_v32 m ρ c, w24_main_arg9 m ρ c, w24_main_arg8 m ρ c]
  all_goals rfl
set_option maxHeartbeats 4000000 in
theorem w32_main_v62 : W32 m ρ c (Proc.devRef .tc main_v62) = (Zi1 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_v14 m ρ c, w24_main_v25 m ρ c, w24_main_arg8 m ρ c, w24_main_arg9 m ρ c]
  all_goals rfl
set_option maxHeartbeats 4000000 in
theorem w32_main_v63 : W32 m ρ c (Proc.devRef .tc main_v63) = Spec.padA50000 (a6 m c) := by
  simp only [W32, W31, W30, W29, W28, W27, W26, W25, hostOps5, hostOps5_1, hostOps5_2, hostOps5_3, hostOps5_4, hostOps5_5, hostOps5_6, hostOps5_7]; after_results_simp
  simp only [cast_eq, w24_main_arg6 m ρ c]
  all_goals rfl
set_option maxHeartbeats 4000000 in
theorem w32_main_v64 : W32 m ρ c (Proc.devRef .tc main_v64) = Spec.padB50000 (Zi0 m ρ c) := by
  simp only [W32, W31, W30, W29, W28, W27, W26, W25, hostOps5, hostOps5_1, hostOps5_2, hostOps5_3, hostOps5_4, hostOps5_5, hostOps5_6, hostOps5_7]; after_results_simp
  simp only [cast_eq, w24_main_v32 m ρ c]
  all_goals rfl
theorem w33_main_arg3 : W33 m ρ c (Proc.devRef .tc main_arg3) = (a3 m c) :=
  (W33_of_ne m ρ c main_arg3 (by decide)).trans (w32_main_arg3 m ρ c)
theorem w33_main_arg4 : W33 m ρ c (Proc.devRef .tc main_arg4) = (a4 m c) :=
  (W33_of_ne m ρ c main_arg4 (by decide)).trans (w32_main_arg4 m ρ c)
theorem w33_main_arg5 : W33 m ρ c (Proc.devRef .tc main_arg5) = (a5 m c) :=
  (W33_of_ne m ρ c main_arg5 (by decide)).trans (w32_main_arg5 m ρ c)
theorem w33_main_v25 : W33 m ρ c (Proc.devRef .tc main_v25) = (Zu0 m ρ c) :=
  (W33_of_ne m ρ c main_v25 (by decide)).trans (w32_main_v25 m ρ c)
theorem w33_main_v41 : W33 m ρ c (Proc.devRef .tc main_v41) = addf (a0 m c) (Zu0 m ρ c) :=
  (W33_of_ne m ρ c main_v41 (by decide)).trans (w32_main_v41 m ρ c)
theorem w33_main_v42 : W33 m ρ c (Proc.devRef .tc main_v42) = addf (a1 m c) (Zi0 m ρ c) :=
  (W33_of_ne m ρ c main_v42 (by decide)).trans (w32_main_v42 m ρ c)
theorem w33_main_v43 : W33 m ρ c (Proc.devRef .tc main_v43) = addf (a0 m c) (X3 m ρ c) :=
  (W33_of_ne m ρ c main_v43 (by decide)).trans (w32_main_v43 m ρ c)
theorem w33_main_v44 : W33 m ρ c (Proc.devRef .tc main_v44) = addf (a1 m c) (X4 m ρ c) :=
  (W33_of_ne m ρ c main_v44 (by decide)).trans (w32_main_v44 m ρ c)
theorem w33_main_v55 : W33 m ρ c (Proc.devRef .tc main_v55) = (Zu1 m ρ c) :=
  (W33_of_ne m ρ c main_v55 (by decide)).trans (w32_main_v55 m ρ c)
theorem w33_main_v62 : W33 m ρ c (Proc.devRef .tc main_v62) = (Zi1 m ρ c) :=
  (W33_of_ne m ρ c main_v62 (by decide)).trans (w32_main_v62 m ρ c)
theorem w33_main_v65 : W33 m ρ c (Proc.devRef .tc main_v65) = (X5 m ρ c) := W33_arr m ρ c 2

end Cert.KernelIdeal.Chain

end
-- ==== Proof.ChainE.lean ====
import proofs.«422239_j35003983462563_2_alg».proof.Proof.ChainD
import Idealize.ShloMosaic.Lib.StableHlo.Run

/-! The contents of the kernel program's buffers at the segment boundaries 37, 38, 39, 40, 41 of @main: one line per buffer still read later, either carried over a segment that does not write it or computed by the segment from the contents before it. -/
set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
theorem w37_main_arg3 : W37 m ρ c (Proc.devRef .tc main_arg3) = (a3 m c) :=
  (show W37 m ρ c (Proc.devRef .tc main_arg3) = W33 m ρ c (Proc.devRef .tc main_arg3) from by simp only [W37, W36, W35, W34, hostOps6, hostOps6_1, hostOps6_2, hostOps6_3]; after_results_simp <;> rfl).trans (w33_main_arg3 m ρ c)
theorem w37_main_arg4 : W37 m ρ c (Proc.devRef .tc main_arg4) = (a4 m c) :=
  (show W37 m ρ c (Proc.devRef .tc main_arg4) = W33 m ρ c (Proc.devRef .tc main_arg4) from by simp only [W37, W36, W35, W34, hostOps6, hostOps6_1, hostOps6_2, hostOps6_3]; after_results_simp <;> rfl).trans (w33_main_arg4 m ρ c)
theorem w37_main_v41 : W37 m ρ c (Proc.devRef .tc main_v41) = addf (a0 m c) (Zu0 m ρ c) :=
  (show W37 m ρ c (Proc.devRef .tc main_v41) = W33 m ρ c (Proc.devRef .tc main_v41) from by simp only [W37, W36, W35, W34, hostOps6, hostOps6_1, hostOps6_2, hostOps6_3]; after_results_simp <;> rfl).trans (w33_main_v41 m ρ c)
theorem w37_main_v42 : W37 m ρ c (Proc.devRef .tc main_v42) = addf (a1 m c) (Zi0 m ρ c) :=
  (show W37 m ρ c (Proc.devRef .tc main_v42) = W33 m ρ c (Proc.devRef .tc main_v42) from by simp only [W37, W36, W35, W34, hostOps6, hostOps6_1, hostOps6_2, hostOps6_3]; after_results_simp <;> rfl).trans (w33_main_v42 m ρ c)
theorem w37_main_v43 : W37 m ρ c (Proc.devRef .tc main_v43) = addf (a0 m c) (X3 m ρ c) :=
  (show W37 m ρ c (Proc.devRef .tc main_v43) = W33 m ρ c (Proc.devRef .tc main_v43) from by simp only [W37, W36, W35, W34, hostOps6, hostOps6_1, hostOps6_2, hostOps6_3]; after_results_simp <;> rfl).trans (w33_main_v43 m ρ c)
theorem w37_main_v44 : W37 m ρ c (Proc.devRef .tc main_v44) = addf (a1 m c) (X4 m ρ c) :=
  (show W37 m ρ c (Proc.devRef .tc main_v44) = W33 m ρ c (Proc.devRef .tc main_v44) from by simp only [W37, W36, W35, W34, hostOps6, hostOps6_1, hostOps6_2, hostOps6_3]; after_results_simp <;> rfl).trans (w33_main_v44 m ρ c)
theorem w37_main_v55 : W37 m ρ c (Proc.devRef .tc main_v55) = (Zu1 m ρ c) :=
  (show W37 m ρ c (Proc.devRef .tc main_v55) = W33 m ρ c (Proc.devRef .tc main_v55) from by simp only [W37, W36, W35, W34, hostOps6, hostOps6_1, hostOps6_2, hostOps6_3]; after_results_simp <;> rfl).trans (w33_main_v55 m ρ c)
theorem w37_main_v62 : W37 m ρ c (Proc.devRef .tc main_v62) = (Zi1 m ρ c) :=
  (show W37 m ρ c (Proc.devRef .tc main_v62) = W33 m ρ c (Proc.devRef .tc main_v62) from by simp only [W37, W36, W35, W34, hostOps6, hostOps6_1, hostOps6_2, hostOps6_3]; after_results_simp <;> rfl).trans (w33_main_v62 m ρ c)
theorem w37_main_v65 : W37 m ρ c (Proc.devRef .tc main_v65) = (X5 m ρ c) :=
  (show W37 m ρ c (Proc.devRef .tc main_v65) = W33 m ρ c (Proc.devRef .tc main_v65) from by simp only [W37, W36, W35, W34, hostOps6, hostOps6_1, hostOps6_2, hostOps6_3]; after_results_simp <;> rfl).trans (w33_main_v65 m ρ c)
set_option maxHeartbeats 4000000 in
theorem w37_main_v66 : W37 m ρ c (Proc.devRef .tc main_v66) = Spec.padA100000 (a5 m c) := by
  simp only [W37, W36, W35, W34, hostOps6, hostOps6_1, hostOps6_2, hostOps6_3]; after_results_simp
  simp only [cast_eq, w33_main_arg5 m ρ c]
  all_goals rfl
set_option maxHeartbeats 4000000 in
theorem w37_main_v67 : W37 m ρ c (Proc.devRef .tc main_v67) = Spec.padB100000 (Zu0 m ρ c) := by
  simp only [W37, W36, W35, W34, hostOps6, hostOps6_1, hostOps6_2, hostOps6_3]; after_results_simp
  simp only [cast_eq, w33_main_v25 m ρ c]
  all_goals rfl
theorem w38_main_arg3 : W38 m ρ c (Proc.devRef .tc main_arg3) = (a3 m c) :=
  (W38_of_ne m ρ c main_arg3 (by decide)).trans (w37_main_arg3 m ρ c)
theorem w38_main_arg4 : W38 m ρ c (Proc.devRef .tc main_arg4) = (a4 m c) :=
  (W38_of_ne m ρ c main_arg4 (by decide)).trans (w37_main_arg4 m ρ c)
theorem w38_main_v41 : W38 m ρ c (Proc.devRef .tc main_v41) = addf (a0 m c) (Zu0 m ρ c) :=
  (W38_of_ne m ρ c main_v41 (by decide)).trans (w37_main_v41 m ρ c)
theorem w38_main_v42 : W38 m ρ c (Proc.devRef .tc main_v42) = addf (a1 m c) (Zi0 m ρ c) :=
  (W38_of_ne m ρ c main_v42 (by decide)).trans (w37_main_v42 m ρ c)
theorem w38_main_v43 : W38 m ρ c (Proc.devRef .tc main_v43) = addf (a0 m c) (X3 m ρ c) :=
  (W38_of_ne m ρ c main_v43 (by decide)).trans (w37_main_v43 m ρ c)
theorem w38_main_v44 : W38 m ρ c (Proc.devRef .tc main_v44) = addf (a1 m c) (X4 m ρ c) :=
  (W38_of_ne m ρ c main_v44 (by decide)).trans (w37_main_v44 m ρ c)
theorem w38_main_v55 : W38 m ρ c (Proc.devRef .tc main_v55) = (Zu1 m ρ c) :=
  (W38_of_ne m ρ c main_v55 (by decide)).trans (w37_main_v55 m ρ c)
theorem w38_main_v62 : W38 m ρ c (Proc.devRef .tc main_v62) = (Zi1 m ρ c) :=
  (W38_of_ne m ρ c main_v62 (by decide)).trans (w37_main_v62 m ρ c)
theorem w38_main_v65 : W38 m ρ c (Proc.devRef .tc main_v65) = (X5 m ρ c) :=
  (W38_of_ne m ρ c main_v65 (by decide)).trans (w37_main_v65 m ρ c)
theorem w38_main_v68 : W38 m ρ c (Proc.devRef .tc main_v68) = (X6 m ρ c) := W38_arr m ρ c 2
theorem w39_main_arg4 : W39 m ρ c (Proc.devRef .tc main_arg4) = (a4 m c) :=
  (W39_of_ne m ρ c main_arg4 (by decide)).trans (w38_main_arg4 m ρ c)
theorem w39_main_v41 : W39 m ρ c (Proc.devRef .tc main_v41) = addf (a0 m c) (Zu0 m ρ c) :=
  (W39_of_ne m ρ c main_v41 (by decide)).trans (w38_main_v41 m ρ c)
theorem w39_main_v42 : W39 m ρ c (Proc.devRef .tc main_v42) = addf (a1 m c) (Zi0 m ρ c) :=
  (W39_of_ne m ρ c main_v42 (by decide)).trans (w38_main_v42 m ρ c)
theorem w39_main_v43 : W39 m ρ c (Proc.devRef .tc main_v43) = addf (a0 m c) (X3 m ρ c) :=
  (W39_of_ne m ρ c main_v43 (by decide)).trans (w38_main_v43 m ρ c)
theorem w39_main_v44 : W39 m ρ c (Proc.devRef .tc main_v44) = addf (a1 m c) (X4 m ρ c) :=
  (W39_of_ne m ρ c main_v44 (by decide)).trans (w38_main_v44 m ρ c)
theorem w39_main_v55 : W39 m ρ c (Proc.devRef .tc main_v55) = (Zu1 m ρ c) :=
  (W39_of_ne m ρ c main_v55 (by decide)).trans (w38_main_v55 m ρ c)
theorem w39_main_v62 : W39 m ρ c (Proc.devRef .tc main_v62) = (Zi1 m ρ c) :=
  (W39_of_ne m ρ c main_v62 (by decide)).trans (w38_main_v62 m ρ c)
theorem w39_main_v68 : W39 m ρ c (Proc.devRef .tc main_v68) = (X6 m ρ c) :=
  (W39_of_ne m ρ c main_v68 (by decide)).trans (w38_main_v68 m ρ c)
theorem w39_main_v69 : W39 m ρ c (Proc.devRef .tc main_v69) = (X7 m ρ c) := W39_arr m ρ c 2
theorem w40_main_v41 : W40 m ρ c (Proc.devRef .tc main_v41) = addf (a0 m c) (Zu0 m ρ c) :=
  (W40_of_ne m ρ c main_v41 (by decide)).trans (w39_main_v41 m ρ c)
theorem w40_main_v42 : W40 m ρ c (Proc.devRef .tc main_v42) = addf (a1 m c) (Zi0 m ρ c) :=
  (W40_of_ne m ρ c main_v42 (by decide)).trans (w39_main_v42 m ρ c)
theorem w40_main_v43 : W40 m ρ c (Proc.devRef .tc main_v43) = addf (a0 m c) (X3 m ρ c) :=
  (W40_of_ne m ρ c main_v43 (by decide)).trans (w39_main_v43 m ρ c)
theorem w40_main_v44 : W40 m ρ c (Proc.devRef .tc main_v44) = addf (a1 m c) (X4 m ρ c) :=
  (W40_of_ne m ρ c main_v44 (by decide)).trans (w39_main_v44 m ρ c)
theorem w40_main_v55 : W40 m ρ c (Proc.devRef .tc main_v55) = (Zu1 m ρ c) :=
  (W40_of_ne m ρ c main_v55 (by decide)).trans (w39_main_v55 m ρ c)
theorem w40_main_v62 : W40 m ρ c (Proc.devRef .tc main_v62) = (Zi1 m ρ c) :=
  (W40_of_ne m ρ c main_v62 (by decide)).trans (w39_main_v62 m ρ c)
theorem w40_main_v69 : W40 m ρ c (Proc.devRef .tc main_v69) = (X7 m ρ c) :=
  (W40_of_ne m ρ c main_v69 (by decide)).trans (w39_main_v69 m ρ c)
theorem w40_main_v70 : W40 m ρ c (Proc.devRef .tc main_v70) = (X8 m ρ c) := W40_arr m ρ c 2
set_option maxHeartbeats 4000000 in
theorem w41_main_v71 : W41 m ρ c (Proc.devRef .tc main_v71) = addf (addf (a0 m c) (Zu0 m ρ c)) (Zu1 m ρ c) := by
  simp only [W41, hostOps9]; after_results_simp
  simp only [cast_eq, w40_main_v41 m ρ c, w40_main_v55 m ρ c]
  all_goals rfl
set_option maxHeartbeats 4000000 in
theorem w41_main_v72 : W41 m ρ c (Proc.devRef .tc main_v72) = addf (addf (a1 m c) (Zi0 m ρ c)) (Zi1 m ρ c) := by
  simp only [W41, hostOps9]; after_results_simp
  simp only [cast_eq, w40_main_v42 m ρ c, w40_main_v62 m ρ c]
  all_goals rfl
set_option maxHeartbeats 4000000 in
theorem w41_main_v73 : W41 m ρ c (Proc.devRef .tc main_v73) = addf (addf (a0 m c) (X3 m ρ c)) (X7 m ρ c) := by
  simp only [W41, hostOps9]; after_results_simp
  simp only [cast_eq, w40_main_v43 m ρ c, w40_main_v69 m ρ c]
  all_goals rfl
set_option maxHeartbeats 4000000 in
theorem w41_main_v74 : W41 m ρ c (Proc.devRef .tc main_v74) = addf (addf (a1 m c) (X4 m ρ c)) (X8 m ρ c) := by
  simp only [W41, hostOps9]; after_results_simp
  simp only [cast_eq, w40_main_v44 m ρ c, w40_main_v70 m ρ c]
  all_goals rfl

end Cert.KernelIdeal.Chain

end
-- ==== Proof.Proj3.lean ====
import proofs.«422239_j35003983462563_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj3

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! # The row projection `A · S`: every entry of the [100000, 64] output is a five-term sum

The region multiplies a tall matrix `A` ([100000, 5]) by a small one `S` ([5, 64]), 5000 rows of `A` at a grid point.
Nothing is carried from one point to the next: the block of 5000 output rows written at point `t` is the product of rows
`5000·t … 5000·t + 4999` of `A` with the whole of `S`, so the array after the last point is the product itself. -/

/-- The product, entry by entry: row `i 0` of `A` against column `i 1` of `S`. -/
def mm (A : Vec Ideal S100000x5 .f32) (S : Vec Ideal S5x64 .f32) : Vec Ideal S100000x64 .f32 :=
  fun i => ∑ k : Fin 5, A (ix2 (i 0) k) * S (ix2 k (i 1))

/-! ## The contraction's operand indices

The body's dot contracts axis 1 of its left operand with axis 0 of its right one: at output entry `(r, c)` and
contraction position `k` the left operand is read at `(r, k)`, the right one at `(k, c)`. -/

theorem lhs_row (j : S5000x64.Idx) (q : dot_S5000x5_S5x64_S5000x64_1_0_0_1_n_n.contr.Idx) :
    (dot_S5000x5_S5x64_S5000x64_1_0_0_1_n_n.lhsIdx j q 0).val = (j 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem lhs_col (j : S5000x64.Idx) (q : dot_S5000x5_S5x64_S5000x64_1_0_0_1_n_n.contr.Idx) :
    (dot_S5000x5_S5x64_S5000x64_1_0_0_1_n_n.lhsIdx j q 1).val = (q ⟨0, by decide⟩).val :=
  dot_S5000x5_S5x64_S5000x64_1_0_0_1_n_n.lhsIdx_val_of_single rfl j q
theorem rhs_row (j : S5000x64.Idx) (q : dot_S5000x5_S5x64_S5000x64_1_0_0_1_n_n.contr.Idx) :
    (dot_S5000x5_S5x64_S5000x64_1_0_0_1_n_n.rhsIdx j q 0).val = (q ⟨0, by decide⟩).val :=
  dot_S5000x5_S5x64_S5000x64_1_0_0_1_n_n.rhsIdx_val_of_single rfl j q
theorem rhs_col (j : S5000x64.Idx) (q : dot_S5000x5_S5x64_S5000x64_1_0_0_1_n_n.contr.Idx) :
    (dot_S5000x5_S5x64_S5000x64_1_0_0_1_n_n.rhsIdx j q 1).val = (j 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-! ## One block of the product

At the ideal values the two format changes are the identity and the accumulator is the zero splat, so the body's
payload at entry `(r, c)` of its block is the five-term sum over the contraction position, re-indexed from the dot's
own contraction index to `Fin 5`. -/

theorem pay_apply (x0 : Vec Ideal S5000x5 .f32) (x1 : Vec Ideal S5x64 .f32) (r : Fin 5000) (q : Fin 64) :
    k3_pay1 (F := Ideal) x0 x1 (ix2 r q) = ∑ k : Fin 5, x0 (ix2 r k) * x1 (ix2 k q) := by
  unfold k3_pay1
  refine (Ideal.matmul_constant_zero_apply dot_S5000x5_S5x64_S5000x64_1_0_0_1_n_n none _ _ (ix2 r q)).trans ?_
  rw [← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 r q) ((contrEquiv1 dot_S5000x5_S5x64_S5000x64_1_0_0_1_n_n 5 rfl rfl).symm k) = ix2 r k := funext fun a => Fin.ext (by
    match a with
    | ⟨0, _⟩ => exact lhs_row _ _
    | ⟨1, _⟩ => exact (lhs_col _ _).trans hk)
  have er : dot_S5000x5_S5x64_S5000x64_1_0_0_1_n_n.rhsIdx (ix2 r q) ((contrEquiv1 dot_S5000x5_S5x64_S5000x64_1_0_0_1_n_n 5 rfl rfl).symm k) = ix2 k q := funext fun a => Fin.ext (by
    match a with
    | ⟨0, _⟩ => exact (rhs_row _ _).trans hk
    | ⟨1, _⟩ => exact rhs_col _ _)
  rw [el, er]
  simp only [truncf_apply, shapeCast_self]

/-- The zero offsets of a whole-buffer rectangle, as the constant function. -/
theorem hz : (![0, 0] : Fin 2 → Nat) = fun _ => 0 := funext fun a => by fin_cases a <;> rfl

/-- What the body leaves in the output's staging buffer, entry by entry: it loads both input buffers whole and stores
    the payload over the whole output buffer. -/
theorem out_apply (x0 : Vec Ideal S5000x5 .f32) (x1 : Vec Ideal S5x64 .f32) (r : Fin 5000) (q : Fin 64) :
    out3_2 (F := Ideal) x0 x1 (ix2 r q) = ∑ k : Fin 5, x0 (ix2 r k) * x1 (ix2 k q) := by
  unfold out3_2
  rw [View.canon_unit_zero hz]
  simp only [View.ld_unit_zero (S := S5000x5) hz, View.ld_unit_zero (S := S5x64) hz]
  exact pay_apply x0 x1 r q

/-- So a block whose row `r` of the left buffer is row `i 0` of `A`, and whose right buffer's column `q` is column `i 1`
    of `S`, leaves entry `i` of the product at `(r, q)`. -/
theorem out_eq_mm (A : Vec Ideal S100000x5 .f32) (S : Vec Ideal S5x64 .f32) (x0 : Vec Ideal S5000x5 .f32) (x1 : Vec Ideal S5x64 .f32)
    (i : S100000x64.Idx) (r : Fin 5000) (q : Fin 64)
    (h0 : ∀ k : Fin 5, x0 (ix2 r k) = A (ix2 (i 0) k)) (h1 : ∀ k : Fin 5, x1 (ix2 k q) = S (ix2 k (i 1))) :
    out3_2 (F := Ideal) x0 x1 (ix2 r q) = mm A S i := by
  refine (out_apply x0 x1 r q).trans ?_
  show _ = ∑ k : Fin 5, A (ix2 (i 0) k) * S (ix2 k (i 1))
  exact Finset.sum_congr rfl fun k _ => by rw [h0 k, h1 k]

/-! ## From the blocks to the array -/

/-- The index maps over the 20 grid points: `A`'s block and the output's block are the point's own block of rows,
    `S`'s block is always the whole of `S`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of the product of the arrays as the region finds them: a row of the block is
    row `5000·t + r` of `A`, and `S` is read whole. -/
theorem flushed_eq (c : Dev nD) (t : Fin cfg3.N) :
    (dat3 (F := Ideal) V c).flushed 2 t = ((cfg3.win 2).blk t).view.read (Elt Ideal) (mm (V c main_arg3) (V c main_v35)) := by
  show (cfg3.win 2).cut (grid3.coords t) ((dat3 V c).after 2 t) = _
  rw [after3_2]
  obtain ⟨a0, a1, s0, s1, o0, o1⟩ := idx_facts t
  funext j
  have hj0 : (j 0).val < 5000 := (j 0).isLt
  have hj1 : (j 1).val < 64 := (j 1).isLt
  -- the block's entry by its two coordinates
  have ej : (cfg3.win 2).xinj (grid3.coords t) j = ix2 (⟨(j 0).val, hj0⟩ : Fin 5000) (⟨(j 1).val, hj1⟩ : Fin 64) :=
    funext fun a => by match a with | ⟨0, _⟩ => rfl | ⟨1, _⟩ => rfl
  refine (congrArg (out3_2 (F := Ideal) (iblk3 V c 0 t) (iblk3 V c 1 t)) ej).trans ?_
  refine out_eq_mm (V c main_arg3) (V c main_v35) (iblk3 V c 0 t) (iblk3 V c 1 t) (((cfg3.win 2).blk t).view.emb j)
    ⟨(j 0).val, hj0⟩ ⟨(j 1).val, hj1⟩ (fun k => ?_) (fun k => ?_)
  · -- row `r` of `A`'s block at point `t` is row `5000·t + r` of `A`, as is row `r` of the output's block
    refine congrArg (V c main_arg3) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 5 + 1 * k.val = k.val; omega
  · -- `S`'s block is `S`, and the output's block spans all 64 columns
    refine congrArg (V c main_v35) ?_
    funext a; apply Fin.ext
    match a with
    | ⟨0, _⟩ => show win3_1.index t (0 : Fin 2) * 5 + 1 * k.val = k.val; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v39).slice (win3_2.rect t)).set ↔ _
  rw [View.set_slice_whole, Rect.mem_set_unit]
  exact Iff.rfl

/-- Every row is some point's: row `r` lies in the block of point `r / 5000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  refine ⟨⟨(i 0).val / 5000, by show (i 0).val / 5000 < 20; omega⟩, flush3_2 _, ?_⟩
  rw [mem_blk]
  obtain ⟨a0, a1, s0, s1, o0, o1⟩ := idx_facts ⟨(i 0).val / 5000, by show (i 0).val / 5000 < 20; omega⟩
  have o0' : win3_2.index ⟨(i 0).val / 5000, by show (i 0).val / 5000 < 20; omega⟩ (0 : Fin 2) = (i 0).val / 5000 := o0
  intro a
  match a with
  | ⟨0, _⟩ => show win3_2.index _ (0 : Fin 2) * 5000 ≤ (i 0).val ∧ (i 0).val < win3_2.index _ (0 : Fin 2) * 5000 + 5000; omega
  | ⟨1, _⟩ => show win3_2.index _ (1 : Fin 2) * 64 ≤ (i 1).val ∧ (i 1).val < win3_2.index _ (1 : Fin 2) * 64 + 64; omega

/-- THE ARRAY after the region: the product of `A` and `S` as the region finds them. -/
theorem value (c : Dev nD) : (dat3 (F := Ideal) V c).arrAt 2 cfg3.N = mm (V c main_arg3) (V c main_v35) :=
  (dat3 (F := Ideal) V c).arrAt_eq_of_cover 2 (mm (V c main_arg3) (V c main_v35)) (fun t _ => flushed_eq V c t) cover

end Cert.KernelIdeal.Proj3

end
-- ==== Proof.Proj4.lean ====
import proofs.«422239_j35003983462563_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj4

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! # The row projection `A · S`: every entry of the [50000, 64] output is a five-term sum

The region multiplies a tall matrix `A` ([50000, 5]) by a small one `S` ([5, 64]), 5000 rows of `A` at a grid point.
Nothing is carried from one point to the next: the block of 5000 output rows written at point `t` is the product of rows
`5000·t … 5000·t + 4999` of `A` with the whole of `S`, so the array after the last point is the product itself. -/

/-- The product, entry by entry: row `i 0` of `A` against column `i 1` of `S`. -/
def mm (A : Vec Ideal S50000x5 .f32) (S : Vec Ideal S5x64 .f32) : Vec Ideal S50000x64 .f32 :=
  fun i => ∑ k : Fin 5, A (ix2 (i 0) k) * S (ix2 k (i 1))

/-! ## The contraction's operand indices

The body's dot contracts axis 1 of its left operand with axis 0 of its right one: at output entry `(r, c)` and
contraction position `k` the left operand is read at `(r, k)`, the right one at `(k, c)`. -/

theorem lhs_row (j : S5000x64.Idx) (q : dot_S5000x5_S5x64_S5000x64_1_0_0_1_n_n.contr.Idx) :
    (dot_S5000x5_S5x64_S5000x64_1_0_0_1_n_n.lhsIdx j q 0).val = (j 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem lhs_col (j : S5000x64.Idx) (q : dot_S5000x5_S5x64_S5000x64_1_0_0_1_n_n.contr.Idx) :
    (dot_S5000x5_S5x64_S5000x64_1_0_0_1_n_n.lhsIdx j q 1).val = (q ⟨0, by decide⟩).val :=
  dot_S5000x5_S5x64_S5000x64_1_0_0_1_n_n.lhsIdx_val_of_single rfl j q
theorem rhs_row (j : S5000x64.Idx) (q : dot_S5000x5_S5x64_S5000x64_1_0_0_1_n_n.contr.Idx) :
    (dot_S5000x5_S5x64_S5000x64_1_0_0_1_n_n.rhsIdx j q 0).val = (q ⟨0, by decide⟩).val :=
  dot_S5000x5_S5x64_S5000x64_1_0_0_1_n_n.rhsIdx_val_of_single rfl j q
theorem rhs_col (j : S5000x64.Idx) (q : dot_S5000x5_S5x64_S5000x64_1_0_0_1_n_n.contr.Idx) :
    (dot_S5000x5_S5x64_S5000x64_1_0_0_1_n_n.rhsIdx j q 1).val = (j 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-! ## One block of the product

At the ideal values the two format changes are the identity and the accumulator is the zero splat, so the body's
payload at entry `(r, c)` of its block is the five-term sum over the contraction position, re-indexed from the dot's
own contraction index to `Fin 5`. -/

theorem pay_apply (x0 : Vec Ideal S5000x5 .f32) (x1 : Vec Ideal S5x64 .f32) (r : Fin 5000) (q : Fin 64) :
    k4_pay1 (F := Ideal) x0 x1 (ix2 r q) = ∑ k : Fin 5, x0 (ix2 r k) * x1 (ix2 k q) := by
  unfold k4_pay1
  refine (Ideal.matmul_constant_zero_apply dot_S5000x5_S5x64_S5000x64_1_0_0_1_n_n none _ _ (ix2 r q)).trans ?_
  rw [← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 r q) ((contrEquiv1 dot_S5000x5_S5x64_S5000x64_1_0_0_1_n_n 5 rfl rfl).symm k) = ix2 r k := funext fun a => Fin.ext (by
    match a with
    | ⟨0, _⟩ => exact lhs_row _ _
    | ⟨1, _⟩ => exact (lhs_col _ _).trans hk)
  have er : dot_S5000x5_S5x64_S5000x64_1_0_0_1_n_n.rhsIdx (ix2 r q) ((contrEquiv1 dot_S5000x5_S5x64_S5000x64_1_0_0_1_n_n 5 rfl rfl).symm k) = ix2 k q := funext fun a => Fin.ext (by
    match a with
    | ⟨0, _⟩ => exact (rhs_row _ _).trans hk
    | ⟨1, _⟩ => exact rhs_col _ _)
  rw [el, er]
  simp only [truncf_apply, shapeCast_self]

/-- The zero offsets of a whole-buffer rectangle, as the constant function. -/
theorem hz : (![0, 0] : Fin 2 → Nat) = fun _ => 0 := funext fun a => by fin_cases a <;> rfl

/-- What the body leaves in the output's staging buffer, entry by entry: it loads both input buffers whole and stores
    the payload over the whole output buffer. -/
theorem out_apply (x0 : Vec Ideal S5000x5 .f32) (x1 : Vec Ideal S5x64 .f32) (r : Fin 5000) (q : Fin 64) :
    out4_2 (F := Ideal) x0 x1 (ix2 r q) = ∑ k : Fin 5, x0 (ix2 r k) * x1 (ix2 k q) := by
  unfold out4_2
  rw [View.canon_unit_zero hz]
  simp only [View.ld_unit_zero (S := S5000x5) hz, View.ld_unit_zero (S := S5x64) hz]
  exact pay_apply x0 x1 r q

/-- So a block whose row `r` of the left buffer is row `i 0` of `A`, and whose right buffer's column `q` is column `i 1`
    of `S`, leaves entry `i` of the product at `(r, q)`. -/
theorem out_eq_mm (A : Vec Ideal S50000x5 .f32) (S : Vec Ideal S5x64 .f32) (x0 : Vec Ideal S5000x5 .f32) (x1 : Vec Ideal S5x64 .f32)
    (i : S50000x64.Idx) (r : Fin 5000) (q : Fin 64)
    (h0 : ∀ k : Fin 5, x0 (ix2 r k) = A (ix2 (i 0) k)) (h1 : ∀ k : Fin 5, x1 (ix2 k q) = S (ix2 k (i 1))) :
    out4_2 (F := Ideal) x0 x1 (ix2 r q) = mm A S i := by
  refine (out_apply x0 x1 r q).trans ?_
  show _ = ∑ k : Fin 5, A (ix2 (i 0) k) * S (ix2 k (i 1))
  exact Finset.sum_congr rfl fun k _ => by rw [h0 k, h1 k]

/-! ## From the blocks to the array -/

/-- The index maps over the 10 grid points: `A`'s block and the output's block are the point's own block of rows,
    `S`'s block is always the whole of `S`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- WHAT POINT `t` WRITES BACK is block `t` of the product of the arrays as the region finds them: a row of the block is
    row `5000·t + r` of `A`, and `S` is read whole. -/
theorem flushed_eq (c : Dev nD) (t : Fin cfg4.N) :
    (dat4 (F := Ideal) V c).flushed 2 t = ((cfg4.win 2).blk t).view.read (Elt Ideal) (mm (V c main_arg4) (V c main_v38)) := by
  show (cfg4.win 2).cut (grid4.coords t) ((dat4 V c).after 2 t) = _
  rw [after4_2]
  obtain ⟨a0, a1, s0, s1, o0, o1⟩ := idx_facts t
  funext j
  have hj0 : (j 0).val < 5000 := (j 0).isLt
  have hj1 : (j 1).val < 64 := (j 1).isLt
  -- the block's entry by its two coordinates
  have ej : (cfg4.win 2).xinj (grid4.coords t) j = ix2 (⟨(j 0).val, hj0⟩ : Fin 5000) (⟨(j 1).val, hj1⟩ : Fin 64) :=
    funext fun a => by match a with | ⟨0, _⟩ => rfl | ⟨1, _⟩ => rfl
  refine (congrArg (out4_2 (F := Ideal) (iblk4 V c 0 t) (iblk4 V c 1 t)) ej).trans ?_
  refine out_eq_mm (V c main_arg4) (V c main_v38) (iblk4 V c 0 t) (iblk4 V c 1 t) (((cfg4.win 2).blk t).view.emb j)
    ⟨(j 0).val, hj0⟩ ⟨(j 1).val, hj1⟩ (fun k => ?_) (fun k => ?_)
  · -- row `r` of `A`'s block at point `t` is row `5000·t + r` of `A`, as is row `r` of the output's block
    refine congrArg (V c main_arg4) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 5 + 1 * k.val = k.val; omega
  · -- `S`'s block is `S`, and the output's block spans all 64 columns
    refine congrArg (V c main_v38) ?_
    funext a; apply Fin.ext
    match a with
    | ⟨0, _⟩ => show win4_1.index t (0 : Fin 2) * 5 + 1 * k.val = k.val; omega
    | ⟨1, _⟩ => show win4_1.index t (1 : Fin 2) * 64 + 1 * (j 1).val = win4_2.index t (1 : Fin 2) * 64 + 1 * (j 1).val; omega

/-- An index of the output array is in point `t`'s block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v40).slice (win4_2.rect t)).set ↔ _
  rw [View.set_slice_whole, Rect.mem_set_unit]
  exact Iff.rfl

/-- Every row is some point's: row `r` lies in the block of point `r / 5000`. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  refine ⟨⟨(i 0).val / 5000, by show (i 0).val / 5000 < 10; omega⟩, flush4_2 _, ?_⟩
  rw [mem_blk]
  obtain ⟨a0, a1, s0, s1, o0, o1⟩ := idx_facts ⟨(i 0).val / 5000, by show (i 0).val / 5000 < 10; omega⟩
  have o0' : win4_2.index ⟨(i 0).val / 5000, by show (i 0).val / 5000 < 10; omega⟩ (0 : Fin 2) = (i 0).val / 5000 := o0
  intro a
  match a with
  | ⟨0, _⟩ => show win4_2.index _ (0 : Fin 2) * 5000 ≤ (i 0).val ∧ (i 0).val < win4_2.index _ (0 : Fin 2) * 5000 + 5000; omega
  | ⟨1, _⟩ => show win4_2.index _ (1 : Fin 2) * 64 ≤ (i 1).val ∧ (i 1).val < win4_2.index _ (1 : Fin 2) * 64 + 64; omega

/-- THE ARRAY after the region: the product of `A` and `S` as the region finds them. -/
theorem value (c : Dev nD) : (dat4 (F := Ideal) V c).arrAt 2 cfg4.N = mm (V c main_arg4) (V c main_v38) :=
  (dat4 (F := Ideal) V c).arrAt_eq_of_cover 2 (mm (V c main_arg4) (V c main_v38)) (fun t _ => flushed_eq V c t) cover

end Cert.KernelIdeal.Proj4

end
-- ==== Proof.Proj7.lean ====
import proofs.«422239_j35003983462563_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj7

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! # The row projection `A · S`: every entry of the [100000, 64] output is a five-term sum

The region multiplies a tall matrix `A` ([100000, 5]) by a small one `S` ([5, 64]), 5000 rows of `A` at a grid point.
Nothing is carried from one point to the next: the block of 5000 output rows written at point `t` is the product of rows
`5000·t … 5000·t + 4999` of `A` with the whole of `S`, so the array after the last point is the product itself. -/

/-- The product, entry by entry: row `i 0` of `A` against column `i 1` of `S`. -/
def mm (A : Vec Ideal S100000x5 .f32) (S : Vec Ideal S5x64 .f32) : Vec Ideal S100000x64 .f32 :=
  fun i => ∑ k : Fin 5, A (ix2 (i 0) k) * S (ix2 k (i 1))

/-! ## The contraction's operand indices

The body's dot contracts axis 1 of its left operand with axis 0 of its right one: at output entry `(r, c)` and
contraction position `k` the left operand is read at `(r, k)`, the right one at `(k, c)`. -/

theorem lhs_row (j : S5000x64.Idx) (q : dot_S5000x5_S5x64_S5000x64_1_0_0_1_n_n.contr.Idx) :
    (dot_S5000x5_S5x64_S5000x64_1_0_0_1_n_n.lhsIdx j q 0).val = (j 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem lhs_col (j : S5000x64.Idx) (q : dot_S5000x5_S5x64_S5000x64_1_0_0_1_n_n.contr.Idx) :
    (dot_S5000x5_S5x64_S5000x64_1_0_0_1_n_n.lhsIdx j q 1).val = (q ⟨0, by decide⟩).val :=
  dot_S5000x5_S5x64_S5000x64_1_0_0_1_n_n.lhsIdx_val_of_single rfl j q
theorem rhs_row (j : S5000x64.Idx) (q : dot_S5000x5_S5x64_S5000x64_1_0_0_1_n_n.contr.Idx) :
    (dot_S5000x5_S5x64_S5000x64_1_0_0_1_n_n.rhsIdx j q 0).val = (q ⟨0, by decide⟩).val :=
  dot_S5000x5_S5x64_S5000x64_1_0_0_1_n_n.rhsIdx_val_of_single rfl j q
theorem rhs_col (j : S5000x64.Idx) (q : dot_S5000x5_S5x64_S5000x64_1_0_0_1_n_n.contr.Idx) :
    (dot_S5000x5_S5x64_S5000x64_1_0_0_1_n_n.rhsIdx j q 1).val = (j 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-! ## One block of the product

At the ideal values the two format changes are the identity and the accumulator is the zero splat, so the body's
payload at entry `(r, c)` of its block is the five-term sum over the contraction position, re-indexed from the dot's
own contraction index to `Fin 5`. -/

theorem pay_apply (x0 : Vec Ideal S5000x5 .f32) (x1 : Vec Ideal S5x64 .f32) (r : Fin 5000) (q : Fin 64) :
    k7_pay1 (F := Ideal) x0 x1 (ix2 r q) = ∑ k : Fin 5, x0 (ix2 r k) * x1 (ix2 k q) := by
  unfold k7_pay1
  refine (Ideal.matmul_constant_zero_apply dot_S5000x5_S5x64_S5000x64_1_0_0_1_n_n none _ _ (ix2 r q)).trans ?_
  rw [← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 r q) ((contrEquiv1 dot_S5000x5_S5x64_S5000x64_1_0_0_1_n_n 5 rfl rfl).symm k) = ix2 r k := funext fun a => Fin.ext (by
    match a with
    | ⟨0, _⟩ => exact lhs_row _ _
    | ⟨1, _⟩ => exact (lhs_col _ _).trans hk)
  have er : dot_S5000x5_S5x64_S5000x64_1_0_0_1_n_n.rhsIdx (ix2 r q) ((contrEquiv1 dot_S5000x5_S5x64_S5000x64_1_0_0_1_n_n 5 rfl rfl).symm k) = ix2 k q := funext fun a => Fin.ext (by
    match a with
    | ⟨0, _⟩ => exact (rhs_row _ _).trans hk
    | ⟨1, _⟩ => exact rhs_col _ _)
  rw [el, er]
  simp only [truncf_apply, shapeCast_self]

/-- The zero offsets of a whole-buffer rectangle, as the constant function. -/
theorem hz : (![0, 0] : Fin 2 → Nat) = fun _ => 0 := funext fun a => by fin_cases a <;> rfl

/-- What the body leaves in the output's staging buffer, entry by entry: it loads both input buffers whole and stores
    the payload over the whole output buffer. -/
theorem out_apply (x0 : Vec Ideal S5000x5 .f32) (x1 : Vec Ideal S5x64 .f32) (r : Fin 5000) (q : Fin 64) :
    out7_2 (F := Ideal) x0 x1 (ix2 r q) = ∑ k : Fin 5, x0 (ix2 r k) * x1 (ix2 k q) := by
  unfold out7_2
  rw [View.canon_unit_zero hz]
  simp only [View.ld_unit_zero (S := S5000x5) hz, View.ld_unit_zero (S := S5x64) hz]
  exact pay_apply x0 x1 r q

/-- So a block whose row `r` of the left buffer is row `i 0` of `A`, and whose right buffer's column `q` is column `i 1`
    of `S`, leaves entry `i` of the product at `(r, q)`. -/
theorem out_eq_mm (A : Vec Ideal S100000x5 .f32) (S : Vec Ideal S5x64 .f32) (x0 : Vec Ideal S5000x5 .f32) (x1 : Vec Ideal S5x64 .f32)
    (i : S100000x64.Idx) (r : Fin 5000) (q : Fin 64)
    (h0 : ∀ k : Fin 5, x0 (ix2 r k) = A (ix2 (i 0) k)) (h1 : ∀ k : Fin 5, x1 (ix2 k q) = S (ix2 k (i 1))) :
    out7_2 (F := Ideal) x0 x1 (ix2 r q) = mm A S i := by
  refine (out_apply x0 x1 r q).trans ?_
  show _ = ∑ k : Fin 5, A (ix2 (i 0) k) * S (ix2 k (i 1))
  exact Finset.sum_congr rfl fun k _ => by rw [h0 k, h1 k]

/-! ## From the blocks to the array -/

/-- The index maps over the 20 grid points: `A`'s block and the output's block are the point's own block of rows,
    `S`'s block is always the whole of `S`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- WHAT POINT `t` WRITES BACK is block `t` of the product of the arrays as the region finds them: a row of the block is
    row `5000·t + r` of `A`, and `S` is read whole. -/
theorem flushed_eq (c : Dev nD) (t : Fin cfg7.N) :
    (dat7 (F := Ideal) V c).flushed 2 t = ((cfg7.win 2).blk t).view.read (Elt Ideal) (mm (V c main_arg3) (V c main_v65)) := by
  show (cfg7.win 2).cut (grid7.coords t) ((dat7 V c).after 2 t) = _
  rw [after7_2]
  obtain ⟨a0, a1, s0, s1, o0, o1⟩ := idx_facts t
  funext j
  have hj0 : (j 0).val < 5000 := (j 0).isLt
  have hj1 : (j 1).val < 64 := (j 1).isLt
  -- the block's entry by its two coordinates
  have ej : (cfg7.win 2).xinj (grid7.coords t) j = ix2 (⟨(j 0).val, hj0⟩ : Fin 5000) (⟨(j 1).val, hj1⟩ : Fin 64) :=
    funext fun a => by match a with | ⟨0, _⟩ => rfl | ⟨1, _⟩ => rfl
  refine (congrArg (out7_2 (F := Ideal) (iblk7 V c 0 t) (iblk7 V c 1 t)) ej).trans ?_
  refine out_eq_mm (V c main_arg3) (V c main_v65) (iblk7 V c 0 t) (iblk7 V c 1 t) (((cfg7.win 2).blk t).view.emb j)
    ⟨(j 0).val, hj0⟩ ⟨(j 1).val, hj1⟩ (fun k => ?_) (fun k => ?_)
  · -- row `r` of `A`'s block at point `t` is row `5000·t + r` of `A`, as is row `r` of the output's block
    refine congrArg (V c main_arg3) ?_
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 5 + 1 * k.val = k.val; omega
  · -- `S`'s block is `S`, and the output's block spans all 64 columns
    refine congrArg (V c main_v65) ?_
    funext a; apply Fin.ext
    match a with
    | ⟨0, _⟩ => show win7_1.index t (0 : Fin 2) * 5 + 1 * k.val = k.val; omega
    | ⟨1, _⟩ => show win7_1.index t (1 : Fin 2) * 64 + 1 * (j 1).val = win7_2.index t (1 : Fin 2) * 64 + 1 * (j 1).val; omega

/-- An index of the output array is in point `t`'s block iff each coordinate is in the block's range on its axis. -/
theorem mem_blk (t : Fin cfg7.N) (i : S100000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v69).slice (win7_2.rect t)).set ↔ _
  rw [View.set_slice_whole, Rect.mem_set_unit]
  exact Iff.rfl

/-- Every row is some point's: row `r` lies in the block of point `r / 5000`. -/
theorem cover (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  refine ⟨⟨(i 0).val / 5000, by show (i 0).val / 5000 < 20; omega⟩, flush7_2 _, ?_⟩
  rw [mem_blk]
  obtain ⟨a0, a1, s0, s1, o0, o1⟩ := idx_facts ⟨(i 0).val / 5000, by show (i 0).val / 5000 < 20; omega⟩
  have o0' : win7_2.index ⟨(i 0).val / 5000, by show (i 0).val / 5000 < 20; omega⟩ (0 : Fin 2) = (i 0).val / 5000 := o0
  intro a
  match a with
  | ⟨0, _⟩ => show win7_2.index _ (0 : Fin 2) * 5000 ≤ (i 0).val ∧ (i 0).val < win7_2.index _ (0 : Fin 2) * 5000 + 5000; omega
  | ⟨1, _⟩ => show win7_2.index _ (1 : Fin 2) * 64 ≤ (i 1).val ∧ (i 1).val < win7_2.index _ (1 : Fin 2) * 64 + 64; omega

/-- THE ARRAY after the region: the product of `A` and `S` as the region finds them. -/
theorem value (c : Dev nD) : (dat7 (F := Ideal) V c).arrAt 2 cfg7.N = mm (V c main_arg3) (V c main_v65) :=
  (dat7 (F := Ideal) V c).arrAt_eq_of_cover 2 (mm (V c main_arg3) (V c main_v65)) (fun t _ => flushed_eq V c t) cover

end Cert.KernelIdeal.Proj7

end
-- ==== Proof.Proj8.lean ====
import proofs.«422239_j35003983462563_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj8

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! # The row projection `A · S`: every entry of the [50000, 64] output is a five-term sum

The region multiplies a tall matrix `A` ([50000, 5]) by a small one `S` ([5, 64]), 5000 rows of `A` at a grid point.
Nothing is carried from one point to the next: the block of 5000 output rows written at point `t` is the product of rows
`5000·t … 5000·t + 4999` of `A` with the whole of `S`, so the array after the last point is the product itself. -/

/-- The product, entry by entry: row `i 0` of `A` against column `i 1` of `S`. -/
def mm (A : Vec Ideal S50000x5 .f32) (S : Vec Ideal S5x64 .f32) : Vec Ideal S50000x64 .f32 :=
  fun i => ∑ k : Fin 5, A (ix2 (i 0) k) * S (ix2 k (i 1))

/-! ## The contraction's operand indices

The body's dot contracts axis 1 of its left operand with axis 0 of its right one: at output entry `(r, c)` and
contraction position `k` the left operand is read at `(r, k)`, the right one at `(k, c)`. -/

theorem lhs_row (j : S5000x64.Idx) (q : dot_S5000x5_S5x64_S5000x64_1_0_0_1_n_n.contr.Idx) :
    (dot_S5000x5_S5x64_S5000x64_1_0_0_1_n_n.lhsIdx j q 0).val = (j 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem lhs_col (j : S5000x64.Idx) (q : dot_S5000x5_S5x64_S5000x64_1_0_0_1_n_n.contr.Idx) :
    (dot_S5000x5_S5x64_S5000x64_1_0_0_1_n_n.lhsIdx j q 1).val = (q ⟨0, by decide⟩).val :=
  dot_S5000x5_S5x64_S5000x64_1_0_0_1_n_n.lhsIdx_val_of_single rfl j q
theorem rhs_row (j : S5000x64.Idx) (q : dot_S5000x5_S5x64_S5000x64_1_0_0_1_n_n.contr.Idx) :
    (dot_S5000x5_S5x64_S5000x64_1_0_0_1_n_n.rhsIdx j q 0).val = (q ⟨0, by decide⟩).val :=
  dot_S5000x5_S5x64_S5000x64_1_0_0_1_n_n.rhsIdx_val_of_single rfl j q
theorem rhs_col (j : S5000x64.Idx) (q : dot_S5000x5_S5x64_S5000x64_1_0_0_1_n_n.contr.Idx) :
    (dot_S5000x5_S5x64_S5000x64_1_0_0_1_n_n.rhsIdx j q 1).val = (j 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-! ## One block of the product

At the ideal values the two format changes are the identity and the accumulator is the zero splat, so the body's
payload at entry `(r, c)` of its block is the five-term sum over the contraction position, re-indexed from the dot's
own contraction index to `Fin 5`. -/

theorem pay_apply (x0 : Vec Ideal S5000x5 .f32) (x1 : Vec Ideal S5x64 .f32) (r : Fin 5000) (q : Fin 64) :
    k8_pay1 (F := Ideal) x0 x1 (ix2 r q) = ∑ k : Fin 5, x0 (ix2 r k) * x1 (ix2 k q) := by
  unfold k8_pay1
  refine (Ideal.matmul_constant_zero_apply dot_S5000x5_S5x64_S5000x64_1_0_0_1_n_n none _ _ (ix2 r q)).trans ?_
  rw [← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 r q) ((contrEquiv1 dot_S5000x5_S5x64_S5000x64_1_0_0_1_n_n 5 rfl rfl).symm k) = ix2 r k := funext fun a => Fin.ext (by
    match a with
    | ⟨0, _⟩ => exact lhs_row _ _
    | ⟨1, _⟩ => exact (lhs_col _ _).trans hk)
  have er : dot_S5000x5_S5x64_S5000x64_1_0_0_1_n_n.rhsIdx (ix2 r q) ((contrEquiv1 dot_S5000x5_S5x64_S5000x64_1_0_0_1_n_n 5 rfl rfl).symm k) = ix2 k q := funext fun a => Fin.ext (by
    match a with
    | ⟨0, _⟩ => exact (rhs_row _ _).trans hk
    | ⟨1, _⟩ => exact rhs_col _ _)
  rw [el, er]
  simp only [truncf_apply, shapeCast_self]

/-- The zero offsets of a whole-buffer rectangle, as the constant function. -/
theorem hz : (![0, 0] : Fin 2 → Nat) = fun _ => 0 := funext fun a => by fin_cases a <;> rfl

/-- What the body leaves in the output's staging buffer, entry by entry: it loads both input buffers whole and stores
    the payload over the whole output buffer. -/
theorem out_apply (x0 : Vec Ideal S5000x5 .f32) (x1 : Vec Ideal S5x64 .f32) (r : Fin 5000) (q : Fin 64) :
    out8_2 (F := Ideal) x0 x1 (ix2 r q) = ∑ k : Fin 5, x0 (ix2 r k) * x1 (ix2 k q) := by
  unfold out8_2
  rw [View.canon_unit_zero hz]
  simp only [View.ld_unit_zero (S := S5000x5) hz, View.ld_unit_zero (S := S5x64) hz]
  exact pay_apply x0 x1 r q

/-- So a block whose row `r` of the left buffer is row `i 0` of `A`, and whose right buffer's column `q` is column `i 1`
    of `S`, leaves entry `i` of the product at `(r, q)`. -/
theorem out_eq_mm (A : Vec Ideal S50000x5 .f32) (S : Vec Ideal S5x64 .f32) (x0 : Vec Ideal S5000x5 .f32) (x1 : Vec Ideal S5x64 .f32)
    (i : S50000x64.Idx) (r : Fin 5000) (q : Fin 64)
    (h0 : ∀ k : Fin 5, x0 (ix2 r k) = A (ix2 (i 0) k)) (h1 : ∀ k : Fin 5, x1 (ix2 k q) = S (ix2 k (i 1))) :
    out8_2 (F := Ideal) x0 x1 (ix2 r q) = mm A S i := by
  refine (out_apply x0 x1 r q).trans ?_
  show _ = ∑ k : Fin 5, A (ix2 (i 0) k) * S (ix2 k (i 1))
  exact Finset.sum_congr rfl fun k _ => by rw [h0 k, h1 k]

/-! ## From the blocks to the array -/

/-- The index maps over the 10 grid points: `A`'s block and the output's block are the point's own block of rows,
    `S`'s block is always the whole of `S`. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

variable (V : (c : Dev nD) → (b : Ref sig .tc) → Buf (Elt Ideal) ((c : Thread nD τ).loc b))

/-- WHAT POINT `t` WRITES BACK is block `t` of the product of the arrays as the region finds them: a row of the block is
    row `5000·t + r` of `A`, and `S` is read whole. -/
theorem flushed_eq (c : Dev nD) (t : Fin cfg8.N) :
    (dat8 (F := Ideal) V c).flushed 2 t = ((cfg8.win 2).blk t).view.read (Elt Ideal) (mm (V c main_arg4) (V c main_v68)) := by
  show (cfg8.win 2).cut (grid8.coords t) ((dat8 V c).after 2 t) = _
  rw [after8_2]
  obtain ⟨a0, a1, s0, s1, o0, o1⟩ := idx_facts t
  funext j
  have hj0 : (j 0).val < 5000 := (j 0).isLt
  have hj1 : (j 1).val < 64 := (j 1).isLt
  -- the block's entry by its two coordinates
  have ej : (cfg8.win 2).xinj (grid8.coords t) j = ix2 (⟨(j 0).val, hj0⟩ : Fin 5000) (⟨(j 1).val, hj1⟩ : Fin 64) :=
    funext fun a => by match a with | ⟨0, _⟩ => rfl | ⟨1, _⟩ => rfl
  refine (congrArg (out8_2 (F := Ideal) (iblk8 V c 0 t) (iblk8 V c 1 t)) ej).trans ?_
  refine out_eq_mm (V c main_arg4) (V c main_v68) (iblk8 V c 0 t) (iblk8 V c 1 t) (((cfg8.win 2).blk t).view.emb j)
    ⟨(j 0).val, hj0⟩ ⟨(j 1).val, hj1⟩ (fun k => ?_) (fun k => ?_)
  · -- row `r` of `A`'s block at point `t` is row `5000·t + r` of `A`, as is row `r` of the output's block
    refine congrArg (V c main_arg4) ?_
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 5 + 1 * k.val = k.val; omega
  · -- `S`'s block is `S`, and the output's block spans all 64 columns
    refine congrArg (V c main_v68) ?_
    funext a; apply Fin.ext
    match a with
    | ⟨0, _⟩ => show win8_1.index t (0 : Fin 2) * 5 + 1 * k.val = k.val; omega
    | ⟨1, _⟩ => show win8_1.index t (1 : Fin 2) * 64 + 1 * (j 1).val = win8_2.index t (1 : Fin 2) * 64 + 1 * (j 1).val; omega

/-- An index of the output array is in point `t`'s block iff each coordinate is in the block's range on its axis. -/
theorem mem_blk (t : Fin cfg8.N) (i : S50000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v70).slice (win8_2.rect t)).set ↔ _
  rw [View.set_slice_whole, Rect.mem_set_unit]
  exact Iff.rfl

/-- Every row is some point's: row `r` lies in the block of point `r / 5000`. -/
theorem cover (i : S50000x64.Idx) : ∃ t : Fin cfg8.N, (cfg8.win 2).flush t = true ∧ i ∈ ((cfg8.win 2).blk t).view.set := by
  have hi0 : (i 0).val < 50000 := (i 0).isLt
  have hi1 : (i 1).val < 64 := (i 1).isLt
  refine ⟨⟨(i 0).val / 5000, by show (i 0).val / 5000 < 10; omega⟩, flush8_2 _, ?_⟩
  rw [mem_blk]
  obtain ⟨a0, a1, s0, s1, o0, o1⟩ := idx_facts ⟨(i 0).val / 5000, by show (i 0).val / 5000 < 10; omega⟩
  have o0' : win8_2.index ⟨(i 0).val / 5000, by show (i 0).val / 5000 < 10; omega⟩ (0 : Fin 2) = (i 0).val / 5000 := o0
  intro a
  match a with
  | ⟨0, _⟩ => show win8_2.index _ (0 : Fin 2) * 5000 ≤ (i 0).val ∧ (i 0).val < win8_2.index _ (0 : Fin 2) * 5000 + 5000; omega
  | ⟨1, _⟩ => show win8_2.index _ (1 : Fin 2) * 64 ≤ (i 1).val ∧ (i 1).val < win8_2.index _ (1 : Fin 2) * 64 + 64; omega

/-- THE ARRAY after the region: the product of `A` and `S` as the region finds them. -/
theorem value (c : Dev nD) : (dat8 (F := Ideal) V c).arrAt 2 cfg8.N = mm (V c main_arg4) (V c main_v68) :=
  (dat8 (F := Ideal) V c).arrAt_eq_of_cover 2 (mm (V c main_arg4) (V c main_v68)) (fun t _ => flushed_eq V c t) cover

end Cert.KernelIdeal.Proj8

end
-- ==== Proof.Red1.lean ====
/-
  The value of the K-tiled product [5,51200] @ [51200,64]: a grid of 25 points, point `t` holding columns
  `2048·t …` of the first operand and the same rows of the second, all accumulating into ONE resident [5,64]
  block — zeroed at the first point, `o := o + a_t · b_t` at every point — which is written back once, after the
  last point. Over the extended reals the 25 block sums, added in point order onto zero, are the one 51200-term
  sum at every entry: only `0 + x = x` and the splitting of a sum over an initial segment of ℕ are used.
-/
import proofs.«422239_j35003983462563_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Red1

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## What one grid point leaves in the resident output block

The body's last store covers the whole [5,64] block, so the block after a point is that store's payload:
the block's previous contents (the zero block, at the first point, which stores it first) plus the product of
the point's two operand blocks. -/

section Pieces
variable {F : FTy → Type} [FloatOps F]

theorem hz : (![0, 0] : Fin 2 → Nat) = fun _ => 0 := funext fun a => by fin_cases a <;> rfl

/-- A point other than the first: previous contents `xo` plus the product of the blocks `x0`, `x1`. -/
theorem out_B (c : Dev nD) (i : grid1.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : ¬cond1_0 i) (x0 : Vec F S5x2048 .f32) (x1 : Vec F S2048x64 .f32) (xo : Vec F S5x64 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S5x2048) hz,
    View.ld_unit_zero (S := S2048x64) hz, View.ld_unit_zero (S := S5x64) hz]

/-- The first point: the zero block is stored, read back, and the product of the blocks added to it. -/
theorem out_A (c : Dev nD) (i : grid1.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : cond1_0 i) (x0 : Vec F S5x2048 .f32) (x1 : Vec F S2048x64 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S5x64) hz, View.readCov_unit_zero (S := S5x64) _ hz]
  simp only [View.readAt_eq_ld, h1.read_unread, h2.read_unread, View.ld_unit_zero (S := S5x2048) hz,
    View.ld_unit_zero (S := S2048x64) hz, View.ld_unit_zero (S := S5x64) hz]

end Pieces

/-! ## The payload at an index

At the ideal values the change of float format is the identity and the matrix unit's product into a zero
accumulator is the plain sum over the block's 2048 contraction positions. -/

section Payload

abbrev D2048 := dot_S5x2048_S2048x64_S5x64_1_0_0_1_n_n

theorem lhs_D_0 (i : S5x64.Idx) (q : dot_S5x2048_S2048x64_S5x64_1_0_0_1_n_n.contr.Idx) :
    (dot_S5x2048_S2048x64_S5x64_1_0_0_1_n_n.lhsIdx i q 0).val = (i 0).val := by
  unfold DotDims.lhsIdx
  rw [dif_neg (show ¬(0 : Fin S5x2048.rank) ∈ dot_S5x2048_S2048x64_S5x64_1_0_0_1_n_n.lhsBatch by decide), dif_pos (show (0 : Fin S5x2048.rank) ∈ dot_S5x2048_S2048x64_S5x64_1_0_0_1_n_n.lhsNonContracting by decide)]
  rfl
theorem lhs_D_1 (i : S5x64.Idx) (q : dot_S5x2048_S2048x64_S5x64_1_0_0_1_n_n.contr.Idx) :
    (dot_S5x2048_S2048x64_S5x64_1_0_0_1_n_n.lhsIdx i q 1).val = (q ⟨0, by decide⟩).val :=
  dot_S5x2048_S2048x64_S5x64_1_0_0_1_n_n.lhsIdx_val_of_single rfl i q
theorem rhs_D_0 (i : S5x64.Idx) (q : dot_S5x2048_S2048x64_S5x64_1_0_0_1_n_n.contr.Idx) :
    (dot_S5x2048_S2048x64_S5x64_1_0_0_1_n_n.rhsIdx i q 0).val = (q ⟨0, by decide⟩).val :=
  dot_S5x2048_S2048x64_S5x64_1_0_0_1_n_n.rhsIdx_val_of_single rfl i q
theorem rhs_D_1 (i : S5x64.Idx) (q : dot_S5x2048_S2048x64_S5x64_1_0_0_1_n_n.contr.Idx) :
    (dot_S5x2048_S2048x64_S5x64_1_0_0_1_n_n.rhsIdx i q 1).val = (i 1).val := by
  unfold DotDims.rhsIdx
  rw [dif_neg (show ¬(1 : Fin S2048x64.rank) ∈ dot_S5x2048_S2048x64_S5x64_1_0_0_1_n_n.rhsBatch by decide), dif_pos (show (1 : Fin S2048x64.rank) ∈ dot_S5x2048_S2048x64_S5x64_1_0_0_1_n_n.rhsNonContracting by decide)]
  rfl

/-- The block product at row `q`, column `d`: the sum over the block's 2048 contraction positions. -/
theorem mm_blk_apply (x0 : Vec Ideal S5x2048 .f32) (x1 : Vec Ideal S2048x64 .f32) (q : Fin 5) (d : Fin 64) :
    FloatOps.matmul (F := Ideal) dot_S5x2048_S2048x64_S5x64_1_0_0_1_n_n none
        (truncf .bf16 x0 bitsLt_bf16_f32) (truncf .bf16 x1 bitsLt_bf16_f32) (constant S5x64 .f32 0x00000000#32) (ix2 q d)
      = ∑ k : Fin 2048, x0 (ix2 q k) * x1 (ix2 k d) := by
  rw [Ideal.matmul_constant_zero_apply, ← Equiv.sum_comp (contrEquiv1 dot_S5x2048_S2048x64_S5x64_1_0_0_1_n_n 2048 rfl rfl).symm]
  refine Finset.sum_congr rfl fun k _ => ?_
  have hk := contrEquiv1_symm_val dot_S5x2048_S2048x64_S5x64_1_0_0_1_n_n 2048 rfl rfl k
  have el : dot_S5x2048_S2048x64_S5x64_1_0_0_1_n_n.lhsIdx (ix2 q d) ((contrEquiv1 dot_S5x2048_S2048x64_S5x64_1_0_0_1_n_n 2048 rfl rfl).symm k) = ix2 q k := funext fun a => Fin.ext (by
    match a with
    | ⟨0, _⟩ => exact lhs_D_0 _ _
    | ⟨1, _⟩ => exact (lhs_D_1 _ _).trans hk)
  have er : dot_S5x2048_S2048x64_S5x64_1_0_0_1_n_n.rhsIdx (ix2 q d) ((contrEquiv1 dot_S5x2048_S2048x64_S5x64_1_0_0_1_n_n 2048 rfl rfl).symm k) = ix2 k d := funext fun a => Fin.ext (by
    match a with
    | ⟨0, _⟩ => exact (rhs_D_0 _ _).trans hk
    | ⟨1, _⟩ => exact rhs_D_1 _ _)
  rw [truncf_apply, truncf_apply, el, er]

/-- The running payload at an index: previous contents plus the block product. -/
theorem pay2_apply (x0 : Vec Ideal S5x2048 .f32) (x1 : Vec Ideal S2048x64 .f32) (xo : Vec Ideal S5x64 .f32) (q : Fin 5) (d : Fin 64) :
    k1_pay2 (F := Ideal) x0 x1 xo (ix2 q d) = xo (ix2 q d) + ∑ k : Fin 2048, x0 (ix2 q k) * x1 (ix2 k d) := by
  unfold k1_pay2
  simp only [shapeCast_self]
  refine (addf_apply _ _ _).trans ?_
  exact congrArg (xo (ix2 q d) + ·) (mm_blk_apply x0 x1 q d)

/-- The zero block at an index. -/
theorem pay1_apply (j : S5x64.Idx) : k1_pay1 (F := Ideal) j = 0 := by
  unfold k1_pay1
  exact Ideal.ofBits_zero_f32

end Payload

/-! ## The blocks of the two operands

At point `t` the first operand's window holds columns `2048·t … 2048·t + 2047` of the [5,51200] array, the
second's the same rows of the [51200,64] array. -/

section Run
variable (V : (c : Dev nD) → (b : Ref sig .tc) → Buf (Elt Ideal) ((c : Thread nD τ).loc b))

abbrev Aarr (c : Dev nD) : Vec Ideal S5x51200 .f32 := V c main_v33
abbrev Barr (c : Dev nD) : Vec Ideal S51200x64 .f32 := V c main_v34
abbrev Ablk (c : Dev nD) (t : Fin cfg1.N) : Vec Ideal S5x2048 .f32 := iblk1 V c 0 t
abbrev Bblk (c : Dev nD) (t : Fin cfg1.N) : Vec Ideal S2048x64 .f32 := iblk1 V c 1 t

theorem idx_facts : ∀ t : Fin cfg1.N, win1_0.index t 0 = 0 ∧ win1_0.index t 1 = t.val ∧ win1_1.index t 0 = t.val ∧ win1_1.index t 1 = 0 :=
  (by decide +kernel : ∀ t : Fin grid1.N, win1_0.index t 0 = 0 ∧ win1_0.index t 1 = t.val ∧ win1_1.index t 0 = t.val ∧ win1_1.index t 1 = 0)

theorem lt_N (t : Fin cfg1.N) : t.val < 25 := lt_of_lt_of_eq t.isLt (show cfg1.N = 25 from N_1)

theorem Ablk_apply (c : Dev nD) (t : Fin cfg1.N) (q : Fin 5) (k : Fin 2048) :
    Ablk V c t (ix2 q k) = Aarr V c (ix2 q ⟨2048 * t.val + k.val, by have := lt_N t; omega⟩) := by
  unfold Ablk iblk1
  rw [View.read_apply]
  show V c main_v33 _ = V c main_v33 _
  congr 1
  funext a
  apply Fin.ext
  match a with
  | ⟨0, _⟩ => show win1_0.index t 0 * 5 + 1 * q.val = q.val; rw [(idx_facts t).1]; omega
  | ⟨1, _⟩ => show win1_0.index t 1 * 2048 + 1 * k.val = 2048 * t.val + k.val; rw [(idx_facts t).2.1]; omega

theorem Bblk_apply (c : Dev nD) (t : Fin cfg1.N) (k : Fin 2048) (d : Fin 64) :
    Bblk V c t (ix2 k d) = Barr V c (ix2 ⟨2048 * t.val + k.val, by have := lt_N t; omega⟩ d) := by
  unfold Bblk iblk1
  rw [View.read_apply]
  show V c main_v34 _ = V c main_v34 _
  congr 1
  funext a
  apply Fin.ext
  match a with
  | ⟨0, _⟩ => show win1_1.index t 0 * 2048 + 1 * k.val = 2048 * t.val + k.val; rw [(idx_facts t).2.2.1]; omega
  | ⟨1, _⟩ => show win1_1.index t 1 * 64 + 1 * d.val = d.val; rw [(idx_facts t).2.2.2]; omega

/-! ## The running sum

The product term at contraction position `k`, as a function of a natural number (zero past the arrays' end),
so that the partial sums are sums over initial segments of ℕ. -/

def term (A : Vec Ideal S5x51200 .f32) (B : Vec Ideal S51200x64 .f32) (q : Fin 5) (d : Fin 64) (k : ℕ) : EReal :=
  if h : k < 51200 then A (ix2 q ⟨k, h⟩) * B (ix2 ⟨k, h⟩ d) else 0

/-- The block product of point `t` is the sum of the terms at positions `2048·t + k`, `k < 2048`. -/
theorem blk_sum (c : Dev nD) (t : Fin cfg1.N) (q : Fin 5) (d : Fin 64) :
    ∑ k : Fin 2048, Ablk V c t (ix2 q k) * Bblk V c t (ix2 k d)
      = ∑ k ∈ Finset.range 2048, term (Aarr V c) (Barr V c) q d (2048 * t.val + k) := by
  rw [← Fin.sum_univ_eq_sum_range (fun k => term (Aarr V c) (Barr V c) q d (2048 * t.val + k)) 2048]
  refine Finset.sum_congr rfl fun k _ => ?_
  have hk : 2048 * t.val + k.val < 51200 := by have := lt_N t; omega
  rw [Ablk_apply, Bblk_apply]
  unfold term
  rw [dif_pos hk]

/-- THE INVARIANT: after point `n` the resident block holds, at row `q` and column `d`, the sum of the terms at the
    first `2048·(n+1)` contraction positions. By induction on the point: the first point starts from the zero block,
    every later one adds its block's 2048 terms to what the point before left. -/
theorem outsAt_apply (c : Dev nD) (q : Fin 5) (d : Fin 64) : ∀ (n : ℕ) (h : n < cfg1.N),
    outsAt1 V c n h (ix2 q d) = ∑ k ∈ Finset.range (2048 * (n + 1)), term (Aarr V c) (Barr V c) q d k
  | 0, h => by
    rw [outsAt1_A V c ⟨0, h⟩ rfl]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (Ablk V c ⟨0, h⟩) (Bblk V c ⟨0, h⟩)) (ix2 q d)).trans ?_
    rw [pay2_apply, pay1_apply, zero_add, blk_sum]
    simp only [Nat.mul_zero, Nat.zero_add, Nat.mul_one]
  | n + 1, h => by
    have hN : n + 1 < 25 := lt_N ⟨n + 1, h⟩
    have hB : ¬(⟨n + 1, h⟩ : Fin cfg1.N).val % 25 = 0 := by dsimp only; omega
    rw [outsAt1_B V c ⟨n + 1, h⟩ hB]
    dsimp only
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun h' => hB ((hcond1_0 ⟨n + 1, h⟩).mp h')) (Ablk V c ⟨n + 1, h⟩) (Bblk V c ⟨n + 1, h⟩)
      (outsAt1 V c n (Nat.lt_of_succ_lt h))) (ix2 q d)).trans ?_
    rw [pay2_apply, outsAt_apply c q d n (Nat.lt_of_succ_lt h), blk_sum]
    rw [show 2048 * (n + 1 + 1) = 2048 * (n + 1) + 2048 by ring, Finset.sum_range_add]

end Run

/-! ## The array after the run

The output window's one block is the whole [5,64] array and is written back once, after the last point, when the
running sum has taken in all 25 blocks: every entry is the full 51200-term sum. -/

section Final
variable (V : (c : Dev nD) → (b : Ref sig .tc) → Buf (Elt Ideal) ((c : Thread nD τ).loc b))

/-- The whole product of a [5,51200] by a [51200,64] array. -/
def mm (A : Vec Ideal S5x51200 .f32) (B : Vec Ideal S51200x64 .f32) : Vec Ideal S5x64 .f32 :=
  fun i => ∑ k : Fin 51200, A (ix2 (i 0) k) * B (ix2 k (i 1))

/-- All 51200 terms, summed over ℕ's initial segment or over the contraction's index type. -/
theorem sum_term (A : Vec Ideal S5x51200 .f32) (B : Vec Ideal S51200x64 .f32) (q : Fin 5) (d : Fin 64) :
    ∑ k ∈ Finset.range 51200, term A B q d k = ∑ k : Fin 51200, A (ix2 q k) * B (ix2 k d) := by
  rw [← Fin.sum_univ_eq_sum_range (fun k => term A B q d k) 51200]
  refine Finset.sum_congr rfl fun k _ => ?_
  unfold term
  rw [dif_pos k.isLt]

/-- The last point. -/
abbrev tlast : Fin cfg1.N := ⟨24, by rw [show cfg1.N = 25 from N_1]; decide⟩

/-- After the last point the resident block holds the whole product. -/
theorem last_eq (c : Dev nD) : outsAt1 V c tlast.val tlast.isLt = mm (Aarr V c) (Barr V c) := by
  funext j
  obtain ⟨q, d, rfl⟩ : ∃ (q : Fin 5) (d : Fin 64), j = ix2 q d := ⟨j 0, j 1, eq_ix2 j⟩
  rw [outsAt_apply V c q d tlast.val tlast.isLt]
  exact sum_term _ _ q d

/-- The product as contents of the result array. -/
abbrev result (c : Dev nD) : Buf (Elt Ideal) ((c : Thread nD τ).loc main_v35) := mm (Aarr V c) (Barr V c)

/-- The one write-back, after the last point, writes it: block (0, 0) of the [5,64] array is the array. -/
theorem flushed_eq (c : Dev nD) (t : Fin cfg1.N) (hf : (cfg1.win 2).flush t = true) :
    (dat1 V c).flushed 2 t = ((cfg1.win 2).blk t).view.read (Elt Ideal) (result V c) := by
  have hlast : t.val = 24 := by have := (flush1_2 t).mp hf; have := lt_N t; omega
  obtain rfl : t = tlast := Fin.ext hlast
  show (cfg1.win 2).cut (grid1.coords tlast) ((dat1 V c).after 2 tlast) = _
  rw [after1_2, last_eq]
  have hz' : (fun a => win1_2.index tlast a * main_v35.ty.shape.size a) = fun _ => 0 := funext fun a => by fin_cases a <;> decide
  exact (Memref.read_access_unit_zero (Elt Ideal) main_v35 hz' (fun a => by rw [congrFun hz' a]; simp) (result V c)).symm

/-- THE VALUE of the region: the result array ends holding the whole product of the two operand arrays as the
    region finds them. -/
theorem value (c : Dev nD) : (dat1 (F := Ideal) V c).arrAt 2 cfg1.N = mm (V c main_v33) (V c main_v34) :=
  (dat1 V c).arrAt_eq_of_cover 2 (result V c) (flushed_eq V c) fun i =>
    ⟨tlast, (flush1_2 tlast).mpr rfl, by
      show i ∈ ((View.whole main_v35).slice (win1_2.rect tlast)).set
      rw [View.set_slice_whole, Rect.mem_set_unit]
      intro a
      have h0 : (i 0 : Nat) < 5 := (i 0).isLt
      have h1 : (i 1 : Nat) < 64 := (i 1).isLt
      match a with
      | ⟨0, _⟩ => show win1_2.index tlast 0 * win1_2.size 0 ≤ (i 0 : Nat) ∧ (i 0 : Nat) < win1_2.index tlast 0 * win1_2.size 0 + win1_2.xsize (grid1.coords tlast) 0
                  rw [show win1_2.index tlast 0 * win1_2.size 0 = 0 from by decide +kernel, show win1_2.xsize (grid1.coords tlast) 0 = 5 from by decide +kernel]; omega
      | ⟨1, _⟩ => show win1_2.index tlast 1 * win1_2.size 1 ≤ (i 1 : Nat) ∧ (i 1 : Nat) < win1_2.index tlast 1 * win1_2.size 1 + win1_2.xsize (grid1.coords tlast) 1
                  rw [show win1_2.index tlast 1 * win1_2.size 1 = 0 from by decide +kernel, show win1_2.xsize (grid1.coords tlast) 1 = 64 from by decide +kernel]; omega⟩

end Final

end Cert.KernelIdeal.Red1
end
-- ==== Proof.Red2.lean ====
/-
  The value of the K-tiled product [5,100352] @ [100352,64]: a grid of 49 points, point `t` holding columns
  `2048·t …` of the first operand and the same rows of the second, all accumulating into ONE resident [5,64]
  block — zeroed at the first point, `o := o + a_t · b_t` at every point — which is written back once, after the
  last point. Over the extended reals the 49 block sums, added in point order onto zero, are the one 100352-term
  sum at every entry: only `0 + x = x` and the splitting of a sum over an initial segment of ℕ are used.
-/
import proofs.«422239_j35003983462563_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Red2

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## What one grid point leaves in the resident output block

The body's last store covers the whole [5,64] block, so the block after a point is that store's payload:
the block's previous contents (the zero block, at the first point, which stores it first) plus the product of
the point's two operand blocks. -/

section Pieces
variable {F : FTy → Type} [FloatOps F]

theorem hz : (![0, 0] : Fin 2 → Nat) = fun _ => 0 := funext fun a => by fin_cases a <;> rfl

/-- A point other than the first: previous contents `xo` plus the product of the blocks `x0`, `x1`. -/
theorem out_B (c : Dev nD) (i : grid2.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : ¬cond2_0 i) (x0 : Vec F S5x2048 .f32) (x1 : Vec F S2048x64 .f32) (xo : Vec F S5x64 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S5x2048) hz,
    View.ld_unit_zero (S := S2048x64) hz, View.ld_unit_zero (S := S5x64) hz]

/-- The first point: the zero block is stored, read back, and the product of the blocks added to it. -/
theorem out_A (c : Dev nD) (i : grid2.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : cond2_0 i) (x0 : Vec F S5x2048 .f32) (x1 : Vec F S2048x64 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S5x64) hz, View.readCov_unit_zero (S := S5x64) _ hz]
  simp only [View.readAt_eq_ld, h1.read_unread, h2.read_unread, View.ld_unit_zero (S := S5x2048) hz,
    View.ld_unit_zero (S := S2048x64) hz, View.ld_unit_zero (S := S5x64) hz]

end Pieces

/-! ## The payload at an index

At the ideal values the change of float format is the identity and the matrix unit's product into a zero
accumulator is the plain sum over the block's 2048 contraction positions. -/

section Payload

abbrev D2048 := dot_S5x2048_S2048x64_S5x64_1_0_0_1_n_n

theorem lhs_D_0 (i : S5x64.Idx) (q : dot_S5x2048_S2048x64_S5x64_1_0_0_1_n_n.contr.Idx) :
    (dot_S5x2048_S2048x64_S5x64_1_0_0_1_n_n.lhsIdx i q 0).val = (i 0).val := by
  unfold DotDims.lhsIdx
  rw [dif_neg (show ¬(0 : Fin S5x2048.rank) ∈ dot_S5x2048_S2048x64_S5x64_1_0_0_1_n_n.lhsBatch by decide), dif_pos (show (0 : Fin S5x2048.rank) ∈ dot_S5x2048_S2048x64_S5x64_1_0_0_1_n_n.lhsNonContracting by decide)]
  rfl
theorem lhs_D_1 (i : S5x64.Idx) (q : dot_S5x2048_S2048x64_S5x64_1_0_0_1_n_n.contr.Idx) :
    (dot_S5x2048_S2048x64_S5x64_1_0_0_1_n_n.lhsIdx i q 1).val = (q ⟨0, by decide⟩).val :=
  dot_S5x2048_S2048x64_S5x64_1_0_0_1_n_n.lhsIdx_val_of_single rfl i q
theorem rhs_D_0 (i : S5x64.Idx) (q : dot_S5x2048_S2048x64_S5x64_1_0_0_1_n_n.contr.Idx) :
    (dot_S5x2048_S2048x64_S5x64_1_0_0_1_n_n.rhsIdx i q 0).val = (q ⟨0, by decide⟩).val :=
  dot_S5x2048_S2048x64_S5x64_1_0_0_1_n_n.rhsIdx_val_of_single rfl i q
theorem rhs_D_1 (i : S5x64.Idx) (q : dot_S5x2048_S2048x64_S5x64_1_0_0_1_n_n.contr.Idx) :
    (dot_S5x2048_S2048x64_S5x64_1_0_0_1_n_n.rhsIdx i q 1).val = (i 1).val := by
  unfold DotDims.rhsIdx
  rw [dif_neg (show ¬(1 : Fin S2048x64.rank) ∈ dot_S5x2048_S2048x64_S5x64_1_0_0_1_n_n.rhsBatch by decide), dif_pos (show (1 : Fin S2048x64.rank) ∈ dot_S5x2048_S2048x64_S5x64_1_0_0_1_n_n.rhsNonContracting by decide)]
  rfl

/-- The block product at row `q`, column `d`: the sum over the block's 2048 contraction positions. -/
theorem mm_blk_apply (x0 : Vec Ideal S5x2048 .f32) (x1 : Vec Ideal S2048x64 .f32) (q : Fin 5) (d : Fin 64) :
    FloatOps.matmul (F := Ideal) dot_S5x2048_S2048x64_S5x64_1_0_0_1_n_n none
        (truncf .bf16 x0 bitsLt_bf16_f32) (truncf .bf16 x1 bitsLt_bf16_f32) (constant S5x64 .f32 0x00000000#32) (ix2 q d)
      = ∑ k : Fin 2048, x0 (ix2 q k) * x1 (ix2 k d) := by
  rw [Ideal.matmul_constant_zero_apply, ← Equiv.sum_comp (contrEquiv1 dot_S5x2048_S2048x64_S5x64_1_0_0_1_n_n 2048 rfl rfl).symm]
  refine Finset.sum_congr rfl fun k _ => ?_
  have hk := contrEquiv1_symm_val dot_S5x2048_S2048x64_S5x64_1_0_0_1_n_n 2048 rfl rfl k
  have el : dot_S5x2048_S2048x64_S5x64_1_0_0_1_n_n.lhsIdx (ix2 q d) ((contrEquiv1 dot_S5x2048_S2048x64_S5x64_1_0_0_1_n_n 2048 rfl rfl).symm k) = ix2 q k := funext fun a => Fin.ext (by
    match a with
    | ⟨0, _⟩ => exact lhs_D_0 _ _
    | ⟨1, _⟩ => exact (lhs_D_1 _ _).trans hk)
  have er : dot_S5x2048_S2048x64_S5x64_1_0_0_1_n_n.rhsIdx (ix2 q d) ((contrEquiv1 dot_S5x2048_S2048x64_S5x64_1_0_0_1_n_n 2048 rfl rfl).symm k) = ix2 k d := funext fun a => Fin.ext (by
    match a with
    | ⟨0, _⟩ => exact (rhs_D_0 _ _).trans hk
    | ⟨1, _⟩ => exact rhs_D_1 _ _)
  rw [truncf_apply, truncf_apply, el, er]

/-- The running payload at an index: previous contents plus the block product. -/
theorem pay2_apply (x0 : Vec Ideal S5x2048 .f32) (x1 : Vec Ideal S2048x64 .f32) (xo : Vec Ideal S5x64 .f32) (q : Fin 5) (d : Fin 64) :
    k2_pay2 (F := Ideal) x0 x1 xo (ix2 q d) = xo (ix2 q d) + ∑ k : Fin 2048, x0 (ix2 q k) * x1 (ix2 k d) := by
  unfold k2_pay2
  simp only [shapeCast_self]
  refine (addf_apply _ _ _).trans ?_
  exact congrArg (xo (ix2 q d) + ·) (mm_blk_apply x0 x1 q d)

/-- The zero block at an index. -/
theorem pay1_apply (j : S5x64.Idx) : k2_pay1 (F := Ideal) j = 0 := by
  unfold k2_pay1
  exact Ideal.ofBits_zero_f32

end Payload

/-! ## The blocks of the two operands

At point `t` the first operand's window holds columns `2048·t … 2048·t + 2047` of the [5,100352] array, the
second's the same rows of the [100352,64] array. -/

section Run
variable (V : (c : Dev nD) → (b : Ref sig .tc) → Buf (Elt Ideal) ((c : Thread nD τ).loc b))

abbrev Aarr (c : Dev nD) : Vec Ideal S5x100352 .f32 := V c main_v36
abbrev Barr (c : Dev nD) : Vec Ideal S100352x64 .f32 := V c main_v37
abbrev Ablk (c : Dev nD) (t : Fin cfg2.N) : Vec Ideal S5x2048 .f32 := iblk2 V c 0 t
abbrev Bblk (c : Dev nD) (t : Fin cfg2.N) : Vec Ideal S2048x64 .f32 := iblk2 V c 1 t

theorem idx_facts : ∀ t : Fin cfg2.N, win2_0.index t 0 = 0 ∧ win2_0.index t 1 = t.val ∧ win2_1.index t 0 = t.val ∧ win2_1.index t 1 = 0 :=
  (by decide +kernel : ∀ t : Fin grid2.N, win2_0.index t 0 = 0 ∧ win2_0.index t 1 = t.val ∧ win2_1.index t 0 = t.val ∧ win2_1.index t 1 = 0)

theorem lt_N (t : Fin cfg2.N) : t.val < 49 := lt_of_lt_of_eq t.isLt (show cfg2.N = 49 from N_2)

theorem Ablk_apply (c : Dev nD) (t : Fin cfg2.N) (q : Fin 5) (k : Fin 2048) :
    Ablk V c t (ix2 q k) = Aarr V c (ix2 q ⟨2048 * t.val + k.val, by have := lt_N t; omega⟩) := by
  unfold Ablk iblk2
  rw [View.read_apply]
  show V c main_v36 _ = V c main_v36 _
  congr 1
  funext a
  apply Fin.ext
  match a with
  | ⟨0, _⟩ => show win2_0.index t 0 * 5 + 1 * q.val = q.val; rw [(idx_facts t).1]; omega
  | ⟨1, _⟩ => show win2_0.index t 1 * 2048 + 1 * k.val = 2048 * t.val + k.val; rw [(idx_facts t).2.1]; omega

theorem Bblk_apply (c : Dev nD) (t : Fin cfg2.N) (k : Fin 2048) (d : Fin 64) :
    Bblk V c t (ix2 k d) = Barr V c (ix2 ⟨2048 * t.val + k.val, by have := lt_N t; omega⟩ d) := by
  unfold Bblk iblk2
  rw [View.read_apply]
  show V c main_v37 _ = V c main_v37 _
  congr 1
  funext a
  apply Fin.ext
  match a with
  | ⟨0, _⟩ => show win2_1.index t 0 * 2048 + 1 * k.val = 2048 * t.val + k.val; rw [(idx_facts t).2.2.1]; omega
  | ⟨1, _⟩ => show win2_1.index t 1 * 64 + 1 * d.val = d.val; rw [(idx_facts t).2.2.2]; omega

/-! ## The running sum

The product term at contraction position `k`, as a function of a natural number (zero past the arrays' end),
so that the partial sums are sums over initial segments of ℕ. -/

def term (A : Vec Ideal S5x100352 .f32) (B : Vec Ideal S100352x64 .f32) (q : Fin 5) (d : Fin 64) (k : ℕ) : EReal :=
  if h : k < 100352 then A (ix2 q ⟨k, h⟩) * B (ix2 ⟨k, h⟩ d) else 0

/-- The block product of point `t` is the sum of the terms at positions `2048·t + k`, `k < 2048`. -/
theorem blk_sum (c : Dev nD) (t : Fin cfg2.N) (q : Fin 5) (d : Fin 64) :
    ∑ k : Fin 2048, Ablk V c t (ix2 q k) * Bblk V c t (ix2 k d)
      = ∑ k ∈ Finset.range 2048, term (Aarr V c) (Barr V c) q d (2048 * t.val + k) := by
  rw [← Fin.sum_univ_eq_sum_range (fun k => term (Aarr V c) (Barr V c) q d (2048 * t.val + k)) 2048]
  refine Finset.sum_congr rfl fun k _ => ?_
  have hk : 2048 * t.val + k.val < 100352 := by have := lt_N t; omega
  rw [Ablk_apply, Bblk_apply]
  unfold term
  rw [dif_pos hk]

/-- THE INVARIANT: after point `n` the resident block holds, at row `q` and column `d`, the sum of the terms at the
    first `2048·(n+1)` contraction positions. By induction on the point: the first point starts from the zero block,
    every later one adds its block's 2048 terms to what the point before left. -/
theorem outsAt_apply (c : Dev nD) (q : Fin 5) (d : Fin 64) : ∀ (n : ℕ) (h : n < cfg2.N),
    outsAt2 V c n h (ix2 q d) = ∑ k ∈ Finset.range (2048 * (n + 1)), term (Aarr V c) (Barr V c) q d k
  | 0, h => by
    rw [outsAt2_A V c ⟨0, h⟩ rfl]
    refine (congrFun (out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr rfl) (Ablk V c ⟨0, h⟩) (Bblk V c ⟨0, h⟩)) (ix2 q d)).trans ?_
    rw [pay2_apply, pay1_apply, zero_add, blk_sum]
    simp only [Nat.mul_zero, Nat.zero_add, Nat.mul_one]
  | n + 1, h => by
    have hN : n + 1 < 49 := lt_N ⟨n + 1, h⟩
    have hB : ¬(⟨n + 1, h⟩ : Fin cfg2.N).val % 49 = 0 := by dsimp only; omega
    rw [outsAt2_B V c ⟨n + 1, h⟩ hB]
    dsimp only
    refine (congrFun (out_B (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun h' => hB ((hcond2_0 ⟨n + 1, h⟩).mp h')) (Ablk V c ⟨n + 1, h⟩) (Bblk V c ⟨n + 1, h⟩)
      (outsAt2 V c n (Nat.lt_of_succ_lt h))) (ix2 q d)).trans ?_
    rw [pay2_apply, outsAt_apply c q d n (Nat.lt_of_succ_lt h), blk_sum]
    rw [show 2048 * (n + 1 + 1) = 2048 * (n + 1) + 2048 by ring, Finset.sum_range_add]

end Run

/-! ## The array after the run

The output window's one block is the whole [5,64] array and is written back once, after the last point, when the
running sum has taken in all 49 blocks: every entry is the full 100352-term sum. -/

section Final
variable (V : (c : Dev nD) → (b : Ref sig .tc) → Buf (Elt Ideal) ((c : Thread nD τ).loc b))

/-- The whole product of a [5,100352] by a [100352,64] array. -/
def mm (A : Vec Ideal S5x100352 .f32) (B : Vec Ideal S100352x64 .f32) : Vec Ideal S5x64 .f32 :=
  fun i => ∑ k : Fin 100352, A (ix2 (i 0) k) * B (ix2 k (i 1))

/-- All 100352 terms, summed over ℕ's initial segment or over the contraction's index type. -/
theorem sum_term (A : Vec Ideal S5x100352 .f32) (B : Vec Ideal S100352x64 .f32) (q : Fin 5) (d : Fin 64) :
    ∑ k ∈ Finset.range 100352, term A B q d k = ∑ k : Fin 100352, A (ix2 q k) * B (ix2 k d) := by
  rw [← Fin.sum_univ_eq_sum_range (fun k => term A B q d k) 100352]
  refine Finset.sum_congr rfl fun k _ => ?_
  unfold term
  rw [dif_pos k.isLt]

/-- The last point. -/
abbrev tlast : Fin cfg2.N := ⟨48, by rw [show cfg2.N = 49 from N_2]; decide⟩

/-- After the last point the resident block holds the whole product. -/
theorem last_eq (c : Dev nD) : outsAt2 V c tlast.val tlast.isLt = mm (Aarr V c) (Barr V c) := by
  funext j
  obtain ⟨q, d, rfl⟩ : ∃ (q : Fin 5) (d : Fin 64), j = ix2 q d := ⟨j 0, j 1, eq_ix2 j⟩
  rw [outsAt_apply V c q d tlast.val tlast.isLt]
  exact sum_term _ _ q d

/-- The product as contents of the result array. -/
abbrev result (c : Dev nD) : Buf (Elt Ideal) ((c : Thread nD τ).loc main_v38) := mm (Aarr V c) (Barr V c)

/-- The one write-back, after the last point, writes it: block (0, 0) of the [5,64] array is the array. -/
theorem flushed_eq (c : Dev nD) (t : Fin cfg2.N) (hf : (cfg2.win 2).flush t = true) :
    (dat2 V c).flushed 2 t = ((cfg2.win 2).blk t).view.read (Elt Ideal) (result V c) := by
  have hlast : t.val = 48 := by have := (flush2_2 t).mp hf; have := lt_N t; omega
  obtain rfl : t = tlast := Fin.ext hlast
  show (cfg2.win 2).cut (grid2.coords tlast) ((dat2 V c).after 2 tlast) = _
  rw [after2_2, last_eq]
  have hz' : (fun a => win2_2.index tlast a * main_v38.ty.shape.size a) = fun _ => 0 := funext fun a => by fin_cases a <;> decide
  exact (Memref.read_access_unit_zero (Elt Ideal) main_v38 hz' (fun a => by rw [congrFun hz' a]; simp) (result V c)).symm

/-- THE VALUE of the region: the result array ends holding the whole product of the two operand arrays as the
    region finds them. -/
theorem value (c : Dev nD) : (dat2 (F := Ideal) V c).arrAt 2 cfg2.N = mm (V c main_v36) (V c main_v37) :=
  (dat2 V c).arrAt_eq_of_cover 2 (result V c) (flushed_eq V c) fun i =>
    ⟨tlast, (flush2_2 tlast).mpr rfl, by
      show i ∈ ((View.whole main_v38).slice (win2_2.rect tlast)).set
      rw [View.set_slice_whole, Rect.mem_set_unit]
      intro a
      have h0 : (i 0 : Nat) < 5 := (i 0).isLt
      have h1 : (i 1 : Nat) < 64 := (i 1).isLt
      match a with
      | ⟨0, _⟩ => show win2_2.index tlast 0 * win2_2.size 0 ≤ (i 0 : Nat) ∧ (i 0 : Nat) < win2_2.index tlast 0 * win2_2.size 0 + win2_2.xsize (grid2.coords tlast) 0
                  rw [show win2_2.index tlast 0 * win2_2.size 0 = 0 from by decide +kernel, show win2_2.xsize (grid2.coords tlast) 0 = 5 from by decide +kernel]; omega
      | ⟨1, _⟩ => show win2_2.index tlast 1 * win2_2.size 1 ≤ (i 1 : Nat) ∧ (i 1 : Nat) < win2_2.index tlast 1 * win2_2.size 1 + win2_2.xsize (grid2.coords tlast) 1
                  rw [show win2_2.index tlast 1 * win2_2.size 1 = 0 from by decide +kernel, show win2_2.xsize (grid2.coords tlast) 1 = 64 from by decide +kernel]; omega⟩

end Final

end Cert.KernelIdeal.Red2
end
-- ==== Proof.Red5.lean ====
/-
  The value of the K-tiled product [5,51200] @ [51200,64]: a grid of 25 points, point `t` holding columns
  `2048·t …` of the first operand and the same rows of the second, all accumulating into ONE resident [5,64]
  block — zeroed at the first point, `o := o + a_t · b_t` at every point — which is written back once, after the
  last point. Over the extended reals the 25 block sums, added in point order onto zero, are the one 51200-term
  sum at every entry: only `0 + x = x` and the splitting of a sum over an initial segment of ℕ are used.
-/
import proofs.«422239_j35003983462563_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Red5

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## What one grid point leaves in the resident output block

The body's last store covers the whole [5,64] block, so the block after a point is that store's payload:
the block's previous contents (the zero block, at the first point, which stores it first) plus the product of
the point's two operand blocks. -/

section Pieces
variable {F : FTy → Type} [FloatOps F]

theorem hz : (![0, 0] : Fin 2 → Nat) = fun _ => 0 := funext fun a => by fin_cases a <;> rfl

/-- A point other than the first: previous contents `xo` plus the product of the blocks `x0`, `x1`. -/
theorem out_B (c : Dev nD) (i : grid5.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : ¬cond5_0 i) (x0 : Vec F S5x2048 .f32) (x1 : Vec F S2048x64 .f32) (xo : Vec F S5x64 .f32) :
    out5_B_2 c i a1 h1 a2 h2 a3 h3 hc x0 x1 xo = k5_pay2 x0 x1 xo := by
  unfold out5_B_2
  rw [View.read_writes_eq_canon _ _ _ (cover5_B_2 c i a1 h1 a2 h2 a3 h3 hc x0 x1 xo)]
  unfold kernelRun5_B
  dsimp only
  sl_unfold_words
  rw [View.canon_unit_zero hz]
  simp only [View.readAt_eq_ld, h1.read_unread, h2.read_unread, h3.read_unread, View.ld_unit_zero (S := S5x2048) hz,
    View.ld_unit_zero (S := S2048x64) hz, View.ld_unit_zero (S := S5x64) hz]

/-- The first point: the zero block is stored, read back, and the product of the blocks added to it. -/
theorem out_A (c : Dev nD) (i : grid5.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : cond5_0 i) (x0 : Vec F S5x2048 .f32) (x1 : Vec F S2048x64 .f32) :
    out5_A_2 c i a1 h1 a2 h2 a3 h3 hc x0 x1 = k5_pay2 x0 x1 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S5x64) hz, View.readCov_unit_zero (S := S5x64) _ hz]
  simp only [View.readAt_eq_ld, h1.read_unread, h2.read_unread, View.ld_unit_zero (S := S5x2048) hz,
    View.ld_unit_zero (S := S2048x64) hz, View.ld_unit_zero (S := S5x64) hz]

end Pieces

/-! ## The payload at an index

At the ideal values the change of float format is the identity and the matrix unit's product into a zero
accumulator is the plain sum over the block's 2048 contraction positions. -/

section Payload

abbrev D2048 := dot_S5x2048_S2048x64_S5x64_1_0_0_1_n_n

theorem lhs_D_0 (i : S5x64.Idx) (q : dot_S5x2048_S2048x64_S5x64_1_0_0_1_n_n.contr.Idx) :
    (dot_S5x2048_S2048x64_S5x64_1_0_0_1_n_n.lhsIdx i q 0).val = (i 0).val := by
  unfold DotDims.lhsIdx
  rw [dif_neg (show ¬(0 : Fin S5x2048.rank) ∈ dot_S5x2048_S2048x64_S5x64_1_0_0_1_n_n.lhsBatch by decide), dif_pos (show (0 : Fin S5x2048.rank) ∈ dot_S5x2048_S2048x64_S5x64_1_0_0_1_n_n.lhsNonContracting by decide)]
  rfl
theorem lhs_D_1 (i : S5x64.Idx) (q : dot_S5x2048_S2048x64_S5x64_1_0_0_1_n_n.contr.Idx) :
    (dot_S5x2048_S2048x64_S5x64_1_0_0_1_n_n.lhsIdx i q 1).val = (q ⟨0, by decide⟩).val :=
  dot_S5x2048_S2048x64_S5x64_1_0_0_1_n_n.lhsIdx_val_of_single rfl i q
theorem rhs_D_0 (i : S5x64.Idx) (q : dot_S5x2048_S2048x64_S5x64_1_0_0_1_n_n.contr.Idx) :
    (dot_S5x2048_S2048x64_S5x64_1_0_0_1_n_n.rhsIdx i q 0).val = (q ⟨0, by decide⟩).val :=
  dot_S5x2048_S2048x64_S5x64_1_0_0_1_n_n.rhsIdx_val_of_single rfl i q
theorem rhs_D_1 (i : S5x64.Idx) (q : dot_S5x2048_S2048x64_S5x64_1_0_0_1_n_n.contr.Idx) :
    (dot_S5x2048_S2048x64_S5x64_1_0_0_1_n_n.rhsIdx i q 1).val = (i 1).val := by
  unfold DotDims.rhsIdx
  rw [dif_neg (show ¬(1 : Fin S2048x64.rank) ∈ dot_S5x2048_S2048x64_S5x64_1_0_0_1_n_n.rhsBatch by decide), dif_pos (show (1 : Fin S2048x64.rank) ∈ dot_S5x2048_S2048x64_S5x64_1_0_0_1_n_n.rhsNonContracting by decide)]
  rfl

/-- The block product at row `q`, column `d`: the sum over the block's 2048 contraction positions. -/
theorem mm_blk_apply (x0 : Vec Ideal S5x2048 .f32) (x1 : Vec Ideal S2048x64 .f32) (q : Fin 5) (d : Fin 64) :
    FloatOps.matmul (F := Ideal) dot_S5x2048_S2048x64_S5x64_1_0_0_1_n_n none
        (truncf .bf16 x0 bitsLt_bf16_f32) (truncf .bf16 x1 bitsLt_bf16_f32) (constant S5x64 .f32 0x00000000#32) (ix2 q d)
      = ∑ k : Fin 2048, x0 (ix2 q k) * x1 (ix2 k d) := by
  rw [Ideal.matmul_constant_zero_apply, ← Equiv.sum_comp (contrEquiv1 dot_S5x2048_S2048x64_S5x64_1_0_0_1_n_n 2048 rfl rfl).symm]
  refine Finset.sum_congr rfl fun k _ => ?_
  have hk := contrEquiv1_symm_val dot_S5x2048_S2048x64_S5x64_1_0_0_1_n_n 2048 rfl rfl k
  have el : dot_S5x2048_S2048x64_S5x64_1_0_0_1_n_n.lhsIdx (ix2 q d) ((contrEquiv1 dot_S5x2048_S2048x64_S5x64_1_0_0_1_n_n 2048 rfl rfl).symm k) = ix2 q k := funext fun a => Fin.ext (by
    match a with
    | ⟨0, _⟩ => exact lhs_D_0 _ _
    | ⟨1, _⟩ => exact (lhs_D_1 _ _).trans hk)
  have er : dot_S5x2048_S2048x64_S5x64_1_0_0_1_n_n.rhsIdx (ix2 q d) ((contrEquiv1 dot_S5x2048_S2048x64_S5x64_1_0_0_1_n_n 2048 rfl rfl).symm k) = ix2 k d := funext fun a => Fin.ext (by
    match a with
    | ⟨0, _⟩ => exact (rhs_D_0 _ _).trans hk
    | ⟨1, _⟩ => exact rhs_D_1 _ _)
  rw [truncf_apply, truncf_apply, el, er]

/-- The running payload at an index: previous contents plus the block product. -/
theorem pay2_apply (x0 : Vec Ideal S5x2048 .f32) (x1 : Vec Ideal S2048x64 .f32) (xo : Vec Ideal S5x64 .f32) (q : Fin 5) (d : Fin 64) :
    k5_pay2 (F := Ideal) x0 x1 xo (ix2 q d) = xo (ix2 q d) + ∑ k : Fin 2048, x0 (ix2 q k) * x1 (ix2 k d) := by
  unfold k5_pay2
  simp only [shapeCast_self]
  refine (addf_apply _ _ _).trans ?_
  exact congrArg (xo (ix2 q d) + ·) (mm_blk_apply x0 x1 q d)

/-- The zero block at an index. -/
theorem pay1_apply (j : S5x64.Idx) : k5_pay1 (F := Ideal) j = 0 := by
  unfold k5_pay1
  exact Ideal.ofBits_zero_f32

end Payload

/-! ## The blocks of the two operands

At point `t` the first operand's window holds columns `2048·t … 2048·t + 2047` of the [5,51200] array, the
second's the same rows of the [51200,64] array. -/

section Run
variable (V : (c : Dev nD) → (b : Ref sig .tc) → Buf (Elt Ideal) ((c : Thread nD τ).loc b))

abbrev Aarr (c : Dev nD) : Vec Ideal S5x51200 .f32 := V c main_v63
abbrev Barr (c : Dev nD) : Vec Ideal S51200x64 .f32 := V c main_v64
abbrev Ablk (c : Dev nD) (t : Fin cfg5.N) : Vec Ideal S5x2048 .f32 := iblk5 V c 0 t
abbrev Bblk (c : Dev nD) (t : Fin cfg5.N) : Vec Ideal S2048x64 .f32 := iblk5 V c 1 t

theorem idx_facts : ∀ t : Fin cfg5.N, win5_0.index t 0 = 0 ∧ win5_0.index t 1 = t.val ∧ win5_1.index t 0 = t.val ∧ win5_1.index t 1 = 0 :=
  (by decide +kernel : ∀ t : Fin grid5.N, win5_0.index t 0 = 0 ∧ win5_0.index t 1 = t.val ∧ win5_1.index t 0 = t.val ∧ win5_1.index t 1 = 0)

theorem lt_N (t : Fin cfg5.N) : t.val < 25 := lt_of_lt_of_eq t.isLt (show cfg5.N = 25 from N_5)

theorem Ablk_apply (c : Dev nD) (t : Fin cfg5.N) (q : Fin 5) (k : Fin 2048) :
    Ablk V c t (ix2 q k) = Aarr V c (ix2 q ⟨2048 * t.val + k.val, by have := lt_N t; omega⟩) := by
  unfold Ablk iblk5
  rw [View.read_apply]
  show V c main_v63 _ = V c main_v63 _
  congr 1
  funext a
  apply Fin.ext
  match a with
  | ⟨0, _⟩ => show win5_0.index t 0 * 5 + 1 * q.val = q.val; rw [(idx_facts t).1]; omega
  | ⟨1, _⟩ => show win5_0.index t 1 * 2048 + 1 * k.val = 2048 * t.val + k.val; rw [(idx_facts t).2.1]; omega

theorem Bblk_apply (c : Dev nD) (t : Fin cfg5.N) (k : Fin 2048) (d : Fin 64) :
    Bblk V c t (ix2 k d) = Barr V c (ix2 ⟨2048 * t.val + k.val, by have := lt_N t; omega⟩ d) := by
  unfold Bblk iblk5
  rw [View.read_apply]
  show V c main_v64 _ = V c main_v64 _
  congr 1
  funext a
  apply Fin.ext
  match a with
  | ⟨0, _⟩ => show win5_1.index t 0 * 2048 + 1 * k.val = 2048 * t.val + k.val; rw [(idx_facts t).2.2.1]; omega
  | ⟨1, _⟩ => show win5_1.index t 1 * 64 + 1 * d.val = d.val; rw [(idx_facts t).2.2.2]; omega

/-! ## The running sum

The product term at contraction position `k`, as a function of a natural number (zero past the arrays' end),
so that the partial sums are sums over initial segments of ℕ. -/

def term (A : Vec Ideal S5x51200 .f32) (B : Vec Ideal S51200x64 .f32) (q : Fin 5) (d : Fin 64) (k : ℕ) : EReal :=
  if h : k < 51200 then A (ix2 q ⟨k, h⟩) * B (ix2 ⟨k, h⟩ d) else 0

/-- The block product of point `t` is the sum of the terms at positions `2048·t + k`, `k < 2048`. -/
theorem blk_sum (c : Dev nD) (t : Fin cfg5.N) (q : Fin 5) (d : Fin 64) :
    ∑ k : Fin 2048, Ablk V c t (ix2 q k) * Bblk V c t (ix2 k d)
      = ∑ k ∈ Finset.range 2048, term (Aarr V c) (Barr V c) q d (2048 * t.val + k) := by
  rw [← Fin.sum_univ_eq_sum_range (fun k => term (Aarr V c) (Barr V c) q d (2048 * t.val + k)) 2048]
  refine Finset.sum_congr rfl fun k _ => ?_
  have hk : 2048 * t.val + k.val < 51200 := by have := lt_N t; omega
  rw [Ablk_apply, Bblk_apply]
  unfold term
  rw [dif_pos hk]

/-- THE INVARIANT: after point `n` the resident block holds, at row `q` and column `d`, the sum of the terms at the
    first `2048·(n+1)` contraction positions. By induction on the point: the first point starts from the zero block,
    every later one adds its block's 2048 terms to what the point before left. -/
theorem outsAt_apply (c : Dev nD) (q : Fin 5) (d : Fin 64) : ∀ (n : ℕ) (h : n < cfg5.N),
    outsAt5 V c n h (ix2 q d) = ∑ k ∈ Finset.range (2048 * (n + 1)), term (Aarr V c) (Barr V c) q d k
  | 0, h => by
    rw [outsAt5_A V c ⟨0, h⟩ rfl]
    refine (congrFun (out_A (F := Ideal) c (grid5.coords ⟨0, h⟩) (ms5_0 ⟨0, h⟩) (hs5_0 ⟨0, h⟩) (ms5_1 ⟨0, h⟩) (hs5_1 ⟨0, h⟩)
      (ms5_2 ⟨0, h⟩) (hs5_2 ⟨0, h⟩) ((hcond5_0 ⟨0, h⟩).mpr rfl) (Ablk V c ⟨0, h⟩) (Bblk V c ⟨0, h⟩)) (ix2 q d)).trans ?_
    rw [pay2_apply, pay1_apply, zero_add, blk_sum]
    simp only [Nat.mul_zero, Nat.zero_add, Nat.mul_one]
  | n + 1, h => by
    have hN : n + 1 < 25 := lt_N ⟨n + 1, h⟩
    have hB : ¬(⟨n + 1, h⟩ : Fin cfg5.N).val % 25 = 0 := by dsimp only; omega
    rw [outsAt5_B V c ⟨n + 1, h⟩ hB]
    dsimp only
    refine (congrFun (out_B (F := Ideal) c (grid5.coords ⟨n + 1, h⟩) (ms5_0 ⟨n + 1, h⟩) (hs5_0 ⟨n + 1, h⟩) (ms5_1 ⟨n + 1, h⟩) (hs5_1 ⟨n + 1, h⟩)
      (ms5_2 ⟨n + 1, h⟩) (hs5_2 ⟨n + 1, h⟩) (fun h' => hB ((hcond5_0 ⟨n + 1, h⟩).mp h')) (Ablk V c ⟨n + 1, h⟩) (Bblk V c ⟨n + 1, h⟩)
      (outsAt5 V c n (Nat.lt_of_succ_lt h))) (ix2 q d)).trans ?_
    rw [pay2_apply, outsAt_apply c q d n (Nat.lt_of_succ_lt h), blk_sum]
    rw [show 2048 * (n + 1 + 1) = 2048 * (n + 1) + 2048 by ring, Finset.sum_range_add]

end Run

/-! ## The array after the run

The output window's one block is the whole [5,64] array and is written back once, after the last point, when the
running sum has taken in all 25 blocks: every entry is the full 51200-term sum. -/

section Final
variable (V : (c : Dev nD) → (b : Ref sig .tc) → Buf (Elt Ideal) ((c : Thread nD τ).loc b))

/-- The whole product of a [5,51200] by a [51200,64] array. -/
def mm (A : Vec Ideal S5x51200 .f32) (B : Vec Ideal S51200x64 .f32) : Vec Ideal S5x64 .f32 :=
  fun i => ∑ k : Fin 51200, A (ix2 (i 0) k) * B (ix2 k (i 1))

/-- All 51200 terms, summed over ℕ's initial segment or over the contraction's index type. -/
theorem sum_term (A : Vec Ideal S5x51200 .f32) (B : Vec Ideal S51200x64 .f32) (q : Fin 5) (d : Fin 64) :
    ∑ k ∈ Finset.range 51200, term A B q d k = ∑ k : Fin 51200, A (ix2 q k) * B (ix2 k d) := by
  rw [← Fin.sum_univ_eq_sum_range (fun k => term A B q d k) 51200]
  refine Finset.sum_congr rfl fun k _ => ?_
  unfold term
  rw [dif_pos k.isLt]

/-- The last point. -/
abbrev tlast : Fin cfg5.N := ⟨24, by rw [show cfg5.N = 25 from N_5]; decide⟩

/-- After the last point the resident block holds the whole product. -/
theorem last_eq (c : Dev nD) : outsAt5 V c tlast.val tlast.isLt = mm (Aarr V c) (Barr V c) := by
  funext j
  obtain ⟨q, d, rfl⟩ : ∃ (q : Fin 5) (d : Fin 64), j = ix2 q d := ⟨j 0, j 1, eq_ix2 j⟩
  rw [outsAt_apply V c q d tlast.val tlast.isLt]
  exact sum_term _ _ q d

/-- The product as contents of the result array. -/
abbrev result (c : Dev nD) : Buf (Elt Ideal) ((c : Thread nD τ).loc main_v65) := mm (Aarr V c) (Barr V c)

/-- The one write-back, after the last point, writes it: block (0, 0) of the [5,64] array is the array. -/
theorem flushed_eq (c : Dev nD) (t : Fin cfg5.N) (hf : (cfg5.win 2).flush t = true) :
    (dat5 V c).flushed 2 t = ((cfg5.win 2).blk t).view.read (Elt Ideal) (result V c) := by
  have hlast : t.val = 24 := by have := (flush5_2 t).mp hf; have := lt_N t; omega
  obtain rfl : t = tlast := Fin.ext hlast
  show (cfg5.win 2).cut (grid5.coords tlast) ((dat5 V c).after 2 tlast) = _
  rw [after5_2, last_eq]
  have hz' : (fun a => win5_2.index tlast a * main_v65.ty.shape.size a) = fun _ => 0 := funext fun a => by fin_cases a <;> decide
  exact (Memref.read_access_unit_zero (Elt Ideal) main_v65 hz' (fun a => by rw [congrFun hz' a]; simp) (result V c)).symm

/-- THE VALUE of the region: the result array ends holding the whole product of the two operand arrays as the
    region finds them. -/
theorem value (c : Dev nD) : (dat5 (F := Ideal) V c).arrAt 2 cfg5.N = mm (V c main_v63) (V c main_v64) :=
  (dat5 V c).arrAt_eq_of_cover 2 (result V c) (flushed_eq V c) fun i =>
    ⟨tlast, (flush5_2 tlast).mpr rfl, by
      show i ∈ ((View.whole main_v65).slice (win5_2.rect tlast)).set
      rw [View.set_slice_whole, Rect.mem_set_unit]
      intro a
      have h0 : (i 0 : Nat) < 5 := (i 0).isLt
      have h1 : (i 1 : Nat) < 64 := (i 1).isLt
      match a with
      | ⟨0, _⟩ => show win5_2.index tlast 0 * win5_2.size 0 ≤ (i 0 : Nat) ∧ (i 0 : Nat) < win5_2.index tlast 0 * win5_2.size 0 + win5_2.xsize (grid5.coords tlast) 0
                  rw [show win5_2.index tlast 0 * win5_2.size 0 = 0 from by decide +kernel, show win5_2.xsize (grid5.coords tlast) 0 = 5 from by decide +kernel]; omega
      | ⟨1, _⟩ => show win5_2.index tlast 1 * win5_2.size 1 ≤ (i 1 : Nat) ∧ (i 1 : Nat) < win5_2.index tlast 1 * win5_2.size 1 + win5_2.xsize (grid5.coords tlast) 1
                  rw [show win5_2.index tlast 1 * win5_2.size 1 = 0 from by decide +kernel, show win5_2.xsize (grid5.coords tlast) 1 = 64 from by decide +kernel]; omega⟩

end Final

end Cert.KernelIdeal.Red5
end
-- ==== Proof.Red6.lean ====
/-
  The value of the K-tiled product [5,100352] @ [100352,64]: a grid of 49 points, point `t` holding columns
  `2048·t …` of the first operand and the same rows of the second, all accumulating into ONE resident [5,64]
  block — zeroed at the first point, `o := o + a_t · b_t` at every point — which is written back once, after the
  last point. Over the extended reals the 49 block sums, added in point order onto zero, are the one 100352-term
  sum at every entry: only `0 + x = x` and the splitting of a sum over an initial segment of ℕ are used.
-/
import proofs.«422239_j35003983462563_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Red6

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## What one grid point leaves in the resident output block

The body's last store covers the whole [5,64] block, so the block after a point is that store's payload:
the block's previous contents (the zero block, at the first point, which stores it first) plus the product of
the point's two operand blocks. -/

section Pieces
variable {F : FTy → Type} [FloatOps F]

theorem hz : (![0, 0] : Fin 2 → Nat) = fun _ => 0 := funext fun a => by fin_cases a <;> rfl

/-- A point other than the first: previous contents `xo` plus the product of the blocks `x0`, `x1`. -/
theorem out_B (c : Dev nD) (i : grid6.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : ¬cond6_0 i) (x0 : Vec F S5x2048 .f32) (x1 : Vec F S2048x64 .f32) (xo : Vec F S5x64 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S5x2048) hz,
    View.ld_unit_zero (S := S2048x64) hz, View.ld_unit_zero (S := S5x64) hz]

/-- The first point: the zero block is stored, read back, and the product of the blocks added to it. -/
theorem out_A (c : Dev nD) (i : grid6.Coords) (a1 : Memref sig .tc .vmem S5x2048 .f32) (h1 : a1.IsWhole)
    (a2 : Memref sig .tc .vmem S2048x64 .f32) (h2 : a2.IsWhole) (a3 : Memref sig .tc .vmem S5x64 .f32) (h3 : a3.IsWhole)
    (hc : cond6_0 i) (x0 : Vec F S5x2048 .f32) (x1 : Vec F S2048x64 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S5x64) hz, View.readCov_unit_zero (S := S5x64) _ hz]
  simp only [View.readAt_eq_ld, h1.read_unread, h2.read_unread, View.ld_unit_zero (S := S5x2048) hz,
    View.ld_unit_zero (S := S2048x64) hz, View.ld_unit_zero (S := S5x64) hz]

end Pieces

/-! ## The payload at an index

At the ideal values the change of float format is the identity and the matrix unit's product into a zero
accumulator is the plain sum over the block's 2048 contraction positions. -/

section Payload

abbrev D2048 := dot_S5x2048_S2048x64_S5x64_1_0_0_1_n_n

theorem lhs_D_0 (i : S5x64.Idx) (q : dot_S5x2048_S2048x64_S5x64_1_0_0_1_n_n.contr.Idx) :
    (dot_S5x2048_S2048x64_S5x64_1_0_0_1_n_n.lhsIdx i q 0).val = (i 0).val := by
  unfold DotDims.lhsIdx
  rw [dif_neg (show ¬(0 : Fin S5x2048.rank) ∈ dot_S5x2048_S2048x64_S5x64_1_0_0_1_n_n.lhsBatch by decide), dif_pos (show (0 : Fin S5x2048.rank) ∈ dot_S5x2048_S2048x64_S5x64_1_0_0_1_n_n.lhsNonContracting by decide)]
  rfl
theorem lhs_D_1 (i : S5x64.Idx) (q : dot_S5x2048_S2048x64_S5x64_1_0_0_1_n_n.contr.Idx) :
    (dot_S5x2048_S2048x64_S5x64_1_0_0_1_n_n.lhsIdx i q 1).val = (q ⟨0, by decide⟩).val :=
  dot_S5x2048_S2048x64_S5x64_1_0_0_1_n_n.lhsIdx_val_of_single rfl i q
theorem rhs_D_0 (i : S5x64.Idx) (q : dot_S5x2048_S2048x64_S5x64_1_0_0_1_n_n.contr.Idx) :
    (dot_S5x2048_S2048x64_S5x64_1_0_0_1_n_n.rhsIdx i q 0).val = (q ⟨0, by decide⟩).val :=
  dot_S5x2048_S2048x64_S5x64_1_0_0_1_n_n.rhsIdx_val_of_single rfl i q
theorem rhs_D_1 (i : S5x64.Idx) (q : dot_S5x2048_S2048x64_S5x64_1_0_0_1_n_n.contr.Idx) :
    (dot_S5x2048_S2048x64_S5x64_1_0_0_1_n_n.rhsIdx i q 1).val = (i 1).val := by
  unfold DotDims.rhsIdx
  rw [dif_neg (show ¬(1 : Fin S2048x64.rank) ∈ dot_S5x2048_S2048x64_S5x64_1_0_0_1_n_n.rhsBatch by decide), dif_pos (show (1 : Fin S2048x64.rank) ∈ dot_S5x2048_S2048x64_S5x64_1_0_0_1_n_n.rhsNonContracting by decide)]
  rfl

/-- The block product at row `q`, column `d`: the sum over the block's 2048 contraction positions. -/
theorem mm_blk_apply (x0 : Vec Ideal S5x2048 .f32) (x1 : Vec Ideal S2048x64 .f32) (q : Fin 5) (d : Fin 64) :
    FloatOps.matmul (F := Ideal) dot_S5x2048_S2048x64_S5x64_1_0_0_1_n_n none
        (truncf .bf16 x0 bitsLt_bf16_f32) (truncf .bf16 x1 bitsLt_bf16_f32) (constant S5x64 .f32 0x00000000#32) (ix2 q d)
      = ∑ k : Fin 2048, x0 (ix2 q k) * x1 (ix2 k d) := by
  rw [Ideal.matmul_constant_zero_apply, ← Equiv.sum_comp (contrEquiv1 dot_S5x2048_S2048x64_S5x64_1_0_0_1_n_n 2048 rfl rfl).symm]
  refine Finset.sum_congr rfl fun k _ => ?_
  have hk := contrEquiv1_symm_val dot_S5x2048_S2048x64_S5x64_1_0_0_1_n_n 2048 rfl rfl k
  have el : dot_S5x2048_S2048x64_S5x64_1_0_0_1_n_n.lhsIdx (ix2 q d) ((contrEquiv1 dot_S5x2048_S2048x64_S5x64_1_0_0_1_n_n 2048 rfl rfl).symm k) = ix2 q k := funext fun a => Fin.ext (by
    match a with
    | ⟨0, _⟩ => exact lhs_D_0 _ _
    | ⟨1, _⟩ => exact (lhs_D_1 _ _).trans hk)
  have er : dot_S5x2048_S2048x64_S5x64_1_0_0_1_n_n.rhsIdx (ix2 q d) ((contrEquiv1 dot_S5x2048_S2048x64_S5x64_1_0_0_1_n_n 2048 rfl rfl).symm k) = ix2 k d := funext fun a => Fin.ext (by
    match a with
    | ⟨0, _⟩ => exact (rhs_D_0 _ _).trans hk
    | ⟨1, _⟩ => exact rhs_D_1 _ _)
  rw [truncf_apply, truncf_apply, el, er]

/-- The running payload at an index: previous contents plus the block product. -/
theorem pay2_apply (x0 : Vec Ideal S5x2048 .f32) (x1 : Vec Ideal S2048x64 .f32) (xo : Vec Ideal S5x64 .f32) (q : Fin 5) (d : Fin 64) :
    k6_pay2 (F := Ideal) x0 x1 xo (ix2 q d) = xo (ix2 q d) + ∑ k : Fin 2048, x0 (ix2 q k) * x1 (ix2 k d) := by
  unfold k6_pay2
  simp only [shapeCast_self]
  refine (addf_apply _ _ _).trans ?_
  exact congrArg (xo (ix2 q d) + ·) (mm_blk_apply x0 x1 q d)

/-- The zero block at an index. -/
theorem pay1_apply (j : S5x64.Idx) : k6_pay1 (F := Ideal) j = 0 := by
  unfold k6_pay1
  exact Ideal.ofBits_zero_f32

end Payload

/-! ## The blocks of the two operands

At point `t` the first operand's window holds columns `2048·t … 2048·t + 2047` of the [5,100352] array, the
second's the same rows of the [100352,64] array. -/

section Run
variable (V : (c : Dev nD) → (b : Ref sig .tc) → Buf (Elt Ideal) ((c : Thread nD τ).loc b))

abbrev Aarr (c : Dev nD) : Vec Ideal S5x100352 .f32 := V c main_v66
abbrev Barr (c : Dev nD) : Vec Ideal S100352x64 .f32 := V c main_v67
abbrev Ablk (c : Dev nD) (t : Fin cfg6.N) : Vec Ideal S5x2048 .f32 := iblk6 V c 0 t
abbrev Bblk (c : Dev nD) (t : Fin cfg6.N) : Vec Ideal S2048x64 .f32 := iblk6 V c 1 t

theorem idx_facts : ∀ t : Fin cfg6.N, win6_0.index t 0 = 0 ∧ win6_0.index t 1 = t.val ∧ win6_1.index t 0 = t.val ∧ win6_1.index t 1 = 0 :=
  (by decide +kernel : ∀ t : Fin grid6.N, win6_0.index t 0 = 0 ∧ win6_0.index t 1 = t.val ∧ win6_1.index t 0 = t.val ∧ win6_1.index t 1 = 0)

theorem lt_N (t : Fin cfg6.N) : t.val < 49 := lt_of_lt_of_eq t.isLt (show cfg6.N = 49 from N_6)

theorem Ablk_apply (c : Dev nD) (t : Fin cfg6.N) (q : Fin 5) (k : Fin 2048) :
    Ablk V c t (ix2 q k) = Aarr V c (ix2 q ⟨2048 * t.val + k.val, by have := lt_N t; omega⟩) := by
  unfold Ablk iblk6
  rw [View.read_apply]
  show V c main_v66 _ = V c main_v66 _
  congr 1
  funext a
  apply Fin.ext
  match a with
  | ⟨0, _⟩ => show win6_0.index t 0 * 5 + 1 * q.val = q.val; rw [(idx_facts t).1]; omega
  | ⟨1, _⟩ => show win6_0.index t 1 * 2048 + 1 * k.val = 2048 * t.val + k.val; rw [(idx_facts t).2.1]; omega

theorem Bblk_apply (c : Dev nD) (t : Fin cfg6.N) (k : Fin 2048) (d : Fin 64) :
    Bblk V c t (ix2 k d) = Barr V c (ix2 ⟨2048 * t.val + k.val, by have := lt_N t; omega⟩ d) := by
  unfold Bblk iblk6
  rw [View.read_apply]
  show V c main_v67 _ = V c main_v67 _
  congr 1
  funext a
  apply Fin.ext
  match a with
  | ⟨0, _⟩ => show win6_1.index t 0 * 2048 + 1 * k.val = 2048 * t.val + k.val; rw [(idx_facts t).2.2.1]; omega
  | ⟨1, _⟩ => show win6_1.index t 1 * 64 + 1 * d.val = d.val; rw [(idx_facts t).2.2.2]; omega

/-! ## The running sum

The product term at contraction position `k`, as a function of a natural number (zero past the arrays' end),
so that the partial sums are sums over initial segments of ℕ. -/

def term (A : Vec Ideal S5x100352 .f32) (B : Vec Ideal S100352x64 .f32) (q : Fin 5) (d : Fin 64) (k : ℕ) : EReal :=
  if h : k < 100352 then A (ix2 q ⟨k, h⟩) * B (ix2 ⟨k, h⟩ d) else 0

/-- The block product of point `t` is the sum of the terms at positions `2048·t + k`, `k < 2048`. -/
theorem blk_sum (c : Dev nD) (t : Fin cfg6.N) (q : Fin 5) (d : Fin 64) :
    ∑ k : Fin 2048, Ablk V c t (ix2 q k) * Bblk V c t (ix2 k d)
      = ∑ k ∈ Finset.range 2048, term (Aarr V c) (Barr V c) q d (2048 * t.val + k) := by
  rw [← Fin.sum_univ_eq_sum_range (fun k => term (Aarr V c) (Barr V c) q d (2048 * t.val + k)) 2048]
  refine Finset.sum_congr rfl fun k _ => ?_
  have hk : 2048 * t.val + k.val < 100352 := by have := lt_N t; omega
  rw [Ablk_apply, Bblk_apply]
  unfold term
  rw [dif_pos hk]

/-- THE INVARIANT: after point `n` the resident block holds, at row `q` and column `d`, the sum of the terms at the
    first `2048·(n+1)` contraction positions. By induction on the point: the first point starts from the zero block,
    every later one adds its block's 2048 terms to what the point before left. -/
theorem outsAt_apply (c : Dev nD) (q : Fin 5) (d : Fin 64) : ∀ (n : ℕ) (h : n < cfg6.N),
    outsAt6 V c n h (ix2 q d) = ∑ k ∈ Finset.range (2048 * (n + 1)), term (Aarr V c) (Barr V c) q d k
  | 0, h => by
    rw [outsAt6_A V c ⟨0, h⟩ rfl]
    refine (congrFun (out_A (F := Ideal) c (grid6.coords ⟨0, h⟩) (ms6_0 ⟨0, h⟩) (hs6_0 ⟨0, h⟩) (ms6_1 ⟨0, h⟩) (hs6_1 ⟨0, h⟩)
      (ms6_2 ⟨0, h⟩) (hs6_2 ⟨0, h⟩) ((hcond6_0 ⟨0, h⟩).mpr rfl) (Ablk V c ⟨0, h⟩) (Bblk V c ⟨0, h⟩)) (ix2 q d)).trans ?_
    rw [pay2_apply, pay1_apply, zero_add, blk_sum]
    simp only [Nat.mul_zero, Nat.zero_add, Nat.mul_one]
  | n + 1, h => by
    have hN : n + 1 < 49 := lt_N ⟨n + 1, h⟩
    have hB : ¬(⟨n + 1, h⟩ : Fin cfg6.N).val % 49 = 0 := by dsimp only; omega
    rw [outsAt6_B V c ⟨n + 1, h⟩ hB]
    dsimp only
    refine (congrFun (out_B (F := Ideal) c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (fun h' => hB ((hcond6_0 ⟨n + 1, h⟩).mp h')) (Ablk V c ⟨n + 1, h⟩) (Bblk V c ⟨n + 1, h⟩)
      (outsAt6 V c n (Nat.lt_of_succ_lt h))) (ix2 q d)).trans ?_
    rw [pay2_apply, outsAt_apply c q d n (Nat.lt_of_succ_lt h), blk_sum]
    rw [show 2048 * (n + 1 + 1) = 2048 * (n + 1) + 2048 by ring, Finset.sum_range_add]

end Run

/-! ## The array after the run

The output window's one block is the whole [5,64] array and is written back once, after the last point, when the
running sum has taken in all 49 blocks: every entry is the full 100352-term sum. -/

section Final
variable (V : (c : Dev nD) → (b : Ref sig .tc) → Buf (Elt Ideal) ((c : Thread nD τ).loc b))

/-- The whole product of a [5,100352] by a [100352,64] array. -/
def mm (A : Vec Ideal S5x100352 .f32) (B : Vec Ideal S100352x64 .f32) : Vec Ideal S5x64 .f32 :=
  fun i => ∑ k : Fin 100352, A (ix2 (i 0) k) * B (ix2 k (i 1))

/-- All 100352 terms, summed over ℕ's initial segment or over the contraction's index type. -/
theorem sum_term (A : Vec Ideal S5x100352 .f32) (B : Vec Ideal S100352x64 .f32) (q : Fin 5) (d : Fin 64) :
    ∑ k ∈ Finset.range 100352, term A B q d k = ∑ k : Fin 100352, A (ix2 q k) * B (ix2 k d) := by
  rw [← Fin.sum_univ_eq_sum_range (fun k => term A B q d k) 100352]
  refine Finset.sum_congr rfl fun k _ => ?_
  unfold term
  rw [dif_pos k.isLt]

/-- The last point. -/
abbrev tlast : Fin cfg6.N := ⟨48, by rw [show cfg6.N = 49 from N_6]; decide⟩

/-- After the last point the resident block holds the whole product. -/
theorem last_eq (c : Dev nD) : outsAt6 V c tlast.val tlast.isLt = mm (Aarr V c) (Barr V c) := by
  funext j
  obtain ⟨q, d, rfl⟩ : ∃ (q : Fin 5) (d : Fin 64), j = ix2 q d := ⟨j 0, j 1, eq_ix2 j⟩
  rw [outsAt_apply V c q d tlast.val tlast.isLt]
  exact sum_term _ _ q d

/-- The product as contents of the result array. -/
abbrev result (c : Dev nD) : Buf (Elt Ideal) ((c : Thread nD τ).loc main_v68) := mm (Aarr V c) (Barr V c)

/-- The one write-back, after the last point, writes it: block (0, 0) of the [5,64] array is the array. -/
theorem flushed_eq (c : Dev nD) (t : Fin cfg6.N) (hf : (cfg6.win 2).flush t = true) :
    (dat6 V c).flushed 2 t = ((cfg6.win 2).blk t).view.read (Elt Ideal) (result V c) := by
  have hlast : t.val = 48 := by have := (flush6_2 t).mp hf; have := lt_N t; omega
  obtain rfl : t = tlast := Fin.ext hlast
  show (cfg6.win 2).cut (grid6.coords tlast) ((dat6 V c).after 2 tlast) = _
  rw [after6_2, last_eq]
  have hz' : (fun a => win6_2.index tlast a * main_v68.ty.shape.size a) = fun _ => 0 := funext fun a => by fin_cases a <;> decide
  exact (Memref.read_access_unit_zero (Elt Ideal) main_v68 hz' (fun a => by rw [congrFun hz' a]; simp) (result V c)).symm

/-- THE VALUE of the region: the result array ends holding the whole product of the two operand arrays as the
    region finds them. -/
theorem value (c : Dev nD) : (dat6 (F := Ideal) V c).arrAt 2 cfg6.N = mm (V c main_v66) (V c main_v67) :=
  (dat6 V c).arrAt_eq_of_cover 2 (result V c) (flushed_eq V c) fun i =>
    ⟨tlast, (flush6_2 tlast).mpr rfl, by
      show i ∈ ((View.whole main_v68).slice (win6_2.rect tlast)).set
      rw [View.set_slice_whole, Rect.mem_set_unit]
      intro a
      have h0 : (i 0 : Nat) < 5 := (i 0).isLt
      have h1 : (i 1 : Nat) < 64 := (i 1).isLt
      match a with
      | ⟨0, _⟩ => show win6_2.index tlast 0 * win6_2.size 0 ≤ (i 0 : Nat) ∧ (i 0 : Nat) < win6_2.index tlast 0 * win6_2.size 0 + win6_2.xsize (grid6.coords tlast) 0
                  rw [show win6_2.index tlast 0 * win6_2.size 0 = 0 from by decide +kernel, show win6_2.xsize (grid6.coords tlast) 0 = 5 from by decide +kernel]; omega
      | ⟨1, _⟩ => show win6_2.index tlast 1 * win6_2.size 1 ≤ (i 1 : Nat) ∧ (i 1 : Nat) < win6_2.index tlast 1 * win6_2.size 1 + win6_2.xsize (grid6.coords tlast) 1
                  rw [show win6_2.index tlast 1 * win6_2.size 1 = 0 from by decide +kernel, show win6_2.xsize (grid6.coords tlast) 1 = 64 from by decide +kernel]; omega⟩

end Final

end Cert.KernelIdeal.Red6
end
-- ==== Proof.PadDot.lean ====
import proofs.«422239_j35003983462563_2_alg».proof.KernelIdeal
import proofs.«422239_j35003983462563_2_alg».proof.ReferenceIdeal
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws
import Mathlib.Algebra.BigOperators.Fin

/-!
  The kernel's matrix products are the reference's `dot_general`s, at the ideal values.

  Two shapes of product occur.  A projection `A · S` with `A` of five columns is contracted over its
  five columns as it stands: the sum over `k : Fin 5` of `A (r, k) * S (k, c)` is the plain product of
  the reference read at `(r, c)`.  A reduction `A · B` with a long contracted axis of `n` entries is
  computed by the kernel on operands padded with zeros along that axis up to `N ≥ n` entries; the sum
  over `k : Fin N` then has `N - n` terms of the form `0 * x`, which vanish for every extended real
  `x`, and its first `n` terms are the terms of the unpadded product.  Only the laws of a commutative
  additive monoid and `0 * x = 0` are used, so nothing needs finiteness.
-/

noncomputable section

namespace Cert.KernelIdeal.PadDot

open Cert.KernelIdeal Idealize.ShloMosaic Idealize.ShloMosaic.ValueIdx
open Cert.KernelIdeal.Facts₀

variable [Cert.KernelIdeal.Facts₀] [Cert.ReferenceIdeal.Facts₀]

/-! ## Padding one axis of a matrix at its far end, read at an index -/

section Generic

variable {m n N p : Nat} {α : Type} {u : Shape}

/-- A matrix padded by `e` columns on the right, read at a column `k'` that is one of the original
    columns `k`: the matrix's own entry. -/
theorem padCols_inside (e : Nat) (A : (⟨2, ![m, n]⟩ : Shape).Idx → α) (v : u.Idx → α)
    (h : (⟨2, ![m, n]⟩ : Shape).Pads (![0, 0] : Fin 2 → Nat) ![0, e] ![0, 0] ⟨2, ![m, N]⟩) (hu : 0 < u.numel)
    (a : Fin m) (k : Fin n) (k' : Fin N) (hk : k'.val = k.val) :
    pad ⟨2, ![m, N]⟩ ![0, 0] ![0, e] ![0, 0] A v h hu (ix2 a k') = A (ix2 a k) :=
  pad_apply_of_inside _ _ _ A v h hu _ (ix2 a k) (by
    intro ax
    match ax with
    | ⟨0, _⟩ => show a.val = 0 + a.val * (0 + 1); omega
    | ⟨1, _⟩ => show k'.val = 0 + k.val * (0 + 1); omega)

/-- The same matrix read at a column past the original ones: the padding value. -/
theorem padCols_outside (e : Nat) (A : (⟨2, ![m, n]⟩ : Shape).Idx → α) (v : u.Idx → α)
    (h : (⟨2, ![m, n]⟩ : Shape).Pads (![0, 0] : Fin 2 → Nat) ![0, e] ![0, 0] ⟨2, ![m, N]⟩) (hu : 0 < u.numel)
    (a : Fin m) (k' : Fin N) (hk : n ≤ k'.val) :
    pad ⟨2, ![m, N]⟩ ![0, 0] ![0, e] ![0, 0] A v h hu (ix2 a k') = v (Shape.Idx.first hu) :=
  pad_apply_of_not_inside _ _ _ A v h hu _ (1 : Fin 2) (by
    intro hin
    have hlt : (k'.val - 0) / (0 + 1) < n := hin.2.2
    omega)

/-- A matrix padded by `e` rows at the bottom, read at a row `k'` that is one of the original rows
    `k`: the matrix's own entry. -/
theorem padRows_inside (e : Nat) (B : (⟨2, ![n, p]⟩ : Shape).Idx → α) (v : u.Idx → α)
    (h : (⟨2, ![n, p]⟩ : Shape).Pads (![0, 0] : Fin 2 → Nat) ![e, 0] ![0, 0] ⟨2, ![N, p]⟩) (hu : 0 < u.numel)
    (k : Fin n) (k' : Fin N) (hk : k'.val = k.val) (b : Fin p) :
    pad ⟨2, ![N, p]⟩ ![0, 0] ![e, 0] ![0, 0] B v h hu (ix2 k' b) = B (ix2 k b) :=
  pad_apply_of_inside _ _ _ B v h hu _ (ix2 k b) (by
    intro ax
    match ax with
    | ⟨0, _⟩ => show k'.val = 0 + k.val * (0 + 1); omega
    | ⟨1, _⟩ => show b.val = 0 + b.val * (0 + 1); omega)

/-- A sum over `N` terms whose terms from the `n`-th on vanish is the sum of its first `n` terms. -/
theorem sum_of_tail_zero {M : Type} [AddCommMonoid M] (hnN : n ≤ N) (f : Fin N → M) (g : Fin n → M)
    (hin : ∀ k : Fin n, f (Fin.castLE hnN k) = g k) (hout : ∀ k : Fin N, n ≤ k.val → f k = 0) :
    ∑ k : Fin N, f k = ∑ k : Fin n, g k := by
  have hsub : ∑ j ∈ Finset.univ.map (Fin.castLEEmb hnN), f j = ∑ j : Fin N, f j :=
    Finset.sum_subset (Finset.subset_univ _) (fun j _ hj => hout j (by
      by_contra hlt
      exact hj (Finset.mem_map.mpr ⟨⟨j.val, by omega⟩, Finset.mem_univ _, Fin.ext rfl⟩)))
  rw [← hsub, Finset.sum_map]
  exact Finset.sum_congr rfl fun k _ => hin k

/-- The product of two matrices padded with a zero value along the contracted axis — the left one by
    columns, the right one by rows — summed over the padded axis, is the product of the matrices
    summed over the original axis: the extra terms are `0 * x = 0`. -/
theorem padded_sum (e : Nat) (hnN : n ≤ N) (A : FVec Ideal ⟨2, ![m, n]⟩ .f32) (B : FVec Ideal ⟨2, ![n, p]⟩ .f32)
    (v : FVec Ideal u .f32)
    (hA : (⟨2, ![m, n]⟩ : Shape).Pads (![0, 0] : Fin 2 → Nat) ![0, e] ![0, 0] ⟨2, ![m, N]⟩)
    (hB : (⟨2, ![n, p]⟩ : Shape).Pads (![0, 0] : Fin 2 → Nat) ![e, 0] ![0, 0] ⟨2, ![N, p]⟩)
    (hu : 0 < u.numel) (hv : v (Shape.Idx.first hu) = 0) (a : Fin m) (b : Fin p) :
    ∑ k : Fin N, pad ⟨2, ![m, N]⟩ ![0, 0] ![0, e] ![0, 0] A v hA hu (ix2 a k)
        * pad ⟨2, ![N, p]⟩ ![0, 0] ![e, 0] ![0, 0] B v hB hu (ix2 k b)
      = ∑ k : Fin n, A (ix2 a k) * B (ix2 k b) := by
  refine sum_of_tail_zero hnN _ _ (fun k => ?_) (fun k hk => ?_)
  · rw [padCols_inside e A v hA hu a k (Fin.castLE hnN k) rfl, padRows_inside e B v hB hu k (Fin.castLE hnN k) rfl b]
  · rw [padCols_outside e A v hA hu a k hk, hv]
    exact zero_mul _

end Generic

/-! ## The four products of the program -/

/-- The padding value of the program, the integer zero converted, is zero. -/
theorem padValue_eq_zero (j : S_.Idx) :
    (sitofp .f32 (constantI S_ 32 0#32) : FVec Ideal S_ .f32) j = 0 := by
  show Scalar.sitofp .f32 0#32 = (0 : Ideal .f32)
  exact sitofp_zero

/-- [5, 50000] · [50000, 64], the kernel's operands padded to 51200 along the contracted axis. -/
theorem red50000 (A : FVec Ideal S5x50000 .f32) (B : FVec Ideal S50000x64 .f32) :
    (fun i : S5x64.Idx => ∑ k : Fin 51200,
        (pad S5x51200 ![0, 0] ![0, 1200] ![0, 0] A (sitofp .f32 (constantI S_ 32 0#32) : FVec Ideal S_ .f32) pads_S5x50000_S5x51200_000_012000 h_S_) (ix2 (i 0) k)
          * (pad S51200x64 ![0, 0] ![1200, 0] ![0, 0] B (sitofp .f32 (constantI S_ 32 0#32) : FVec Ideal S_ .f32) pads_S50000x64_S51200x64_012000_000 h_S_) (ix2 k (i 1)))
      = Host.dotGeneral Cert.ReferenceIdeal.dot_S5x50000_S50000x64_S5x64_1_0_0_1_n_n none A B := by
  funext i
  obtain ⟨a, b, rfl⟩ : ∃ (a : Fin 5) (b : Fin 64), i = ix2 a b := ⟨i 0, i 1, eq_ix2 i⟩
  refine (padded_sum (m := 5) (n := 50000) (N := 51200) (p := 64) 1200 (by omega) A B (sitofp .f32 (constantI S_ 32 0#32) : FVec Ideal S_ .f32)
    pads_S5x50000_S5x51200_000_012000 pads_S50000x64_S51200x64_012000_000 h_S_ (padValue_eq_zero _) a b).trans ?_
  exact (StackMember.dotGeneral_plain_apply none A B a b).symm

/-- [5, 100000] · [100000, 64], the kernel's operands padded to 100352 along the contracted axis. -/
theorem red100000 (A : FVec Ideal S5x100000 .f32) (B : FVec Ideal S100000x64 .f32) :
    (fun i : S5x64.Idx => ∑ k : Fin 100352,
        (pad S5x100352 ![0, 0] ![0, 352] ![0, 0] A (sitofp .f32 (constantI S_ 32 0#32) : FVec Ideal S_ .f32) pads_S5x100000_S5x100352_000_03520 h_S_) (ix2 (i 0) k)
          * (pad S100352x64 ![0, 0] ![352, 0] ![0, 0] B (sitofp .f32 (constantI S_ 32 0#32) : FVec Ideal S_ .f32) pads_S100000x64_S100352x64_03520_000 h_S_) (ix2 k (i 1)))
      = Host.dotGeneral Cert.ReferenceIdeal.dot_S5x100000_S100000x64_S5x64_1_0_0_1_n_n none A B := by
  funext i
  obtain ⟨a, b, rfl⟩ : ∃ (a : Fin 5) (b : Fin 64), i = ix2 a b := ⟨i 0, i 1, eq_ix2 i⟩
  refine (padded_sum (m := 5) (n := 100000) (N := 100352) (p := 64) 352 (by omega) A B (sitofp .f32 (constantI S_ 32 0#32) : FVec Ideal S_ .f32)
    pads_S5x100000_S5x100352_000_03520 pads_S100000x64_S100352x64_03520_000 h_S_ (padValue_eq_zero _) a b).trans ?_
  exact (StackMember.dotGeneral_plain_apply none A B a b).symm

/-- [100000, 5] · [5, 64]: contracted over the five columns as it stands. -/
theorem proj100000 (A : FVec Ideal S100000x5 .f32) (S : FVec Ideal S5x64 .f32) :
    (fun i : S100000x64.Idx => ∑ k : Fin 5, A (ix2 (i 0) k) * S (ix2 k (i 1)))
      = Host.dotGeneral Cert.ReferenceIdeal.dot_S100000x5_S5x64_S100000x64_1_0_0_1_n_n none A S := by
  funext i
  obtain ⟨a, b, rfl⟩ : ∃ (a : Fin 100000) (b : Fin 64), i = ix2 a b := ⟨i 0, i 1, eq_ix2 i⟩
  exact (StackMember.dotGeneral_plain_apply none A S a b).symm

/-- [50000, 5] · [5, 64]: contracted over the five columns as it stands. -/
theorem proj50000 (A : FVec Ideal S50000x5 .f32) (S : FVec Ideal S5x64 .f32) :
    (fun i : S50000x64.Idx => ∑ k : Fin 5, A (ix2 (i 0) k) * S (ix2 k (i 1)))
      = Host.dotGeneral Cert.ReferenceIdeal.dot_S50000x5_S5x64_S50000x64_1_0_0_1_n_n none A S := by
  funext i
  obtain ⟨a, b, rfl⟩ : ∃ (a : Fin 50000) (b : Fin 64), i = ix2 a b := ⟨i 0, i 1, eq_ix2 i⟩
  exact (StackMember.dotGeneral_plain_apply none A S a b).symm

end Cert.KernelIdeal.PadDot

end
-- ==== Proof.GBridge.lean ====
import proofs.«422239_j35003983462563_2_alg».proof.Proof.ChainE
import proofs.«422239_j35003983462563_2_alg».proof.Proof.Proj3
import proofs.«422239_j35003983462563_2_alg».proof.Proof.Proj4
import proofs.«422239_j35003983462563_2_alg».proof.Proof.Proj7
import proofs.«422239_j35003983462563_2_alg».proof.Proof.Proj8
import proofs.«422239_j35003983462563_2_alg».proof.Proof.Red1
import proofs.«422239_j35003983462563_2_alg».proof.Proof.Red2
import proofs.«422239_j35003983462563_2_alg».proof.Proof.Red5
import proofs.«422239_j35003983462563_2_alg».proof.Proof.Red6
import proofs.«422239_j35003983462563_2_alg».proof.Proof.PadDot
import proofs.«422239_j35003983462563_2_alg».proof.Proof.Gen.ReferenceIdeal

/-!
  The low-rank branch of the kernel is the reference's two nested `dot_general`s.

  Each layer forms, per side, a small [5, 64] matrix by contracting a [5, n] factor with an [n, 64] table over the long
  axis, and then spreads it back over the rows by a [rows, 5] factor.  The kernel computes the first product on
  operands zero-padded along the contracted axis, tile by tile, and the second one block of rows at a time; read as
  arrays, the first region leaves the plain sum over the padded axis and the second the plain sum over the five
  columns.  The padded sum is the reference's inner product (the extra terms are `0 * x`), and the sum over five
  columns of the outer factor against that matrix is the reference's outer product.  In layer 0 the tables are the
  embeddings as launched; in layer 1 they are layer 0's sparse products.
-/

noncomputable section

namespace Cert.KernelIdeal.Bridge

open Cert.KernelIdeal Cert.KernelIdeal.Gen Cert.KernelIdeal.Facts₀ Cert.KernelIdeal.Facts
open Idealize.ShloMosaic Idealize.ShloMosaic.TcCoe Idealize.ShloMosaic.StableHlo Idealize.SL.Sem
open Cert.KernelIdeal.Chain

variable (m : (ℓ : Loc nD τ sig) → Buf (Elt Ideal) ℓ) (ρ : Dev nD → PrngReg) (c : Dev nD)

/-! ## The inner products: a [5, n] factor against an [n, 64] table -/

/-- Layer 0, item side: the [5, 50000] factor against the item embeddings. -/
theorem x1_eq : X1 m ρ c
    = Host.dotGeneral Cert.ReferenceIdeal.dot_S5x50000_S50000x64_S5x64_1_0_0_1_n_n none (a6 m c) (a1 m c) := by
  unfold Chain.X1
  refine (Red1.value (V16 m ρ) c).trans ?_
  refine (congrArg₂ Red1.mm (w16_main_v33 m ρ c) (w16_main_v34 m ρ c)).trans ?_
  exact PadDot.red50000 (a6 m c) (a1 m c)

/-- Layer 0, user side: the [5, 100000] factor against the user embeddings. -/
theorem x2_eq : X2 m ρ c
    = Host.dotGeneral Cert.ReferenceIdeal.dot_S5x100000_S100000x64_S5x64_1_0_0_1_n_n none (a5 m c) (a0 m c) := by
  unfold Chain.X2
  refine (Red2.value (V21 m ρ) c).trans ?_
  refine (congrArg₂ Red2.mm (w21_main_v36 m ρ c) (w21_main_v37 m ρ c)).trans ?_
  exact PadDot.red100000 (a5 m c) (a0 m c)

/-- Layer 1, item side: the same factor against layer 0's item-side sparse product. -/
theorem x5_eq : X5 m ρ c
    = Host.dotGeneral Cert.ReferenceIdeal.dot_S5x50000_S50000x64_S5x64_1_0_0_1_n_n none (a6 m c) (Zi0 m ρ c) := by
  unfold Chain.X5
  refine (Red5.value (V32 m ρ) c).trans ?_
  refine (congrArg₂ Red5.mm (w32_main_v63 m ρ c) (w32_main_v64 m ρ c)).trans ?_
  exact PadDot.red50000 (a6 m c) (Zi0 m ρ c)

/-- Layer 1, user side: the same factor against layer 0's user-side sparse product. -/
theorem x6_eq : X6 m ρ c
    = Host.dotGeneral Cert.ReferenceIdeal.dot_S5x100000_S100000x64_S5x64_1_0_0_1_n_n none (a5 m c) (Zu0 m ρ c) := by
  unfold Chain.X6
  refine (Red6.value (V37 m ρ) c).trans ?_
  refine (congrArg₂ Red6.mm (w37_main_v66 m ρ c) (w37_main_v67 m ρ c)).trans ?_
  exact PadDot.red100000 (a5 m c) (Zu0 m ρ c)

/-! ## The outer products: a [rows, 5] factor against the small matrix -/

/-- Layer 0, user rows. -/
theorem g3 : X3 m ρ c
    = Host.dotGeneral Cert.ReferenceIdeal.dot_S100000x5_S5x64_S100000x64_1_0_0_1_n_n none (a3 m c)
        (Host.dotGeneral Cert.ReferenceIdeal.dot_S5x50000_S50000x64_S5x64_1_0_0_1_n_n none (a6 m c) (a1 m c)) := by
  unfold Chain.X3
  refine (Proj3.value (V22 m ρ) c).trans ?_
  refine (congrArg₂ Proj3.mm (w22_main_arg3 m ρ c) (w22_main_v35 m ρ c)).trans ?_
  refine (congrArg (Proj3.mm (a3 m c)) (x1_eq m ρ c)).trans ?_
  exact PadDot.proj100000 (a3 m c) _

/-- Layer 0, item rows. -/
theorem g4 : X4 m ρ c
    = Host.dotGeneral Cert.ReferenceIdeal.dot_S50000x5_S5x64_S50000x64_1_0_0_1_n_n none (a4 m c)
        (Host.dotGeneral Cert.ReferenceIdeal.dot_S5x100000_S100000x64_S5x64_1_0_0_1_n_n none (a5 m c) (a0 m c)) := by
  unfold Chain.X4
  refine (Proj4.value (V23 m ρ) c).trans ?_
  refine (congrArg₂ Proj4.mm (w23_main_arg4 m ρ c) (w23_main_v38 m ρ c)).trans ?_
  refine (congrArg (Proj4.mm (a4 m c)) (x2_eq m ρ c)).trans ?_
  exact PadDot.proj50000 (a4 m c) _

/-- Layer 1, user rows. -/
theorem g7 : X7 m ρ c
    = Host.dotGeneral Cert.ReferenceIdeal.dot_S100000x5_S5x64_S100000x64_1_0_0_1_n_n none (a3 m c)
        (Host.dotGeneral Cert.ReferenceIdeal.dot_S5x50000_S50000x64_S5x64_1_0_0_1_n_n none (a6 m c) (Zi0 m ρ c)) := by
  unfold Chain.X7
  refine (Proj7.value (V38 m ρ) c).trans ?_
  refine (congrArg₂ Proj7.mm (w38_main_arg3 m ρ c) (w38_main_v65 m ρ c)).trans ?_
  refine (congrArg (Proj7.mm (a3 m c)) (x5_eq m ρ c)).trans ?_
  exact PadDot.proj100000 (a3 m c) _

/-- Layer 1, item rows. -/
theorem g8 : X8 m ρ c
    = Host.dotGeneral Cert.ReferenceIdeal.dot_S50000x5_S5x64_S50000x64_1_0_0_1_n_n none (a4 m c)
        (Host.dotGeneral Cert.ReferenceIdeal.dot_S5x100000_S100000x64_S5x64_1_0_0_1_n_n none (a5 m c) (Zu0 m ρ c)) := by
  unfold Chain.X8
  refine (Proj8.value (V39 m ρ) c).trans ?_
  refine (congrArg₂ Proj8.mm (w39_main_arg4 m ρ c) (w39_main_v68 m ρ c)).trans ?_
  refine (congrArg (Proj8.mm (a4 m c)) (x6_eq m ρ c)).trans ?_
  exact PadDot.proj50000 (a4 m c) _

end Cert.KernelIdeal.Bridge

end
-- ==== Proof.Drop0.lean ====
import proofs.«422239_j35003983462563_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Drop0

open Cert.KernelIdeal Cert.KernelIdeal.Gen Idealize.ShloMosaic Idealize.ShloMosaic.TcCoe Idealize.SL.Sem Idealize.ShloMosaic.ValueIdx
open Idealize.ShloMosaic.Pipeline (Dat Cfg Window)

/-- One entry of the dropout mask: the edge value where the mask word exceeds the threshold word, else zero. The
    threshold and the zero are the two f32 words 0x3E4CCCCD and 0x00000000 read as extended reals. -/
def keep (d v : EReal) : EReal :=
  Scalar.select (FloatOps.cmpf (F := Ideal) (φ := .f32) .ogt d (Scalar.ofBits (F := Ideal) .f32 0x3E4CCCCD#32)) v
    (Scalar.ofBits (F := Ideal) .f32 0x00000000#32)

/-- The stored block of the first mask at an entry: the mask block's entry compared, the edge block's entry kept or zeroed.
    The two unit-axis reshapes only rename the entry's position. -/
theorem pay3_apply (x0 : Vec Ideal S3256x128 .f32) (x1 : Vec Ideal S1x3256x128 .f32) (j : S1x3256x128.Idx) :
    k0_pay3 x0 x1 j = keep (x1 j) (x0 (ix2 (j 1) (j 2) : S3256x128.Idx)) := by
  have hj0 : (j 0).val = 0 := by have h := (j 0).isLt; change (j 0).val < 1 at h; omega
  have hk : (S3256x128.rowMajor (ix2 (j 1) (j 2))).val = (S1x3256x128.rowMajor j).val := by
    rw [Shape.rowMajor_val_two, Shape.rowMajor_val_three, hj0]
    show (j 1).val * 128 + (j 2).val = (0 * 3256 + (j 1).val) * 128 + (j 2).val
    omega
  have e1 : shapeCast S3256x128 x1 shapeCasts_S1x3256x128_S3256x128 (ix2 (j 1) (j 2)) = x1 j :=
    shapeCast_apply x1 _ _ j hk.symm
  have e0 : shapeCast S3256x128 x0 shapeCasts_S3256x128_S3256x128 (ix2 (j 1) (j 2)) = x0 (ix2 (j 1) (j 2)) :=
    congrFun (shapeCast_self x0 _) _
  unfold k0_pay3 k0_pay1 k0_pay2
  dsimp only
  refine (shapeCast_apply _ _ j (ix2 (j 1) (j 2)) hk).trans ?_
  show Scalar.select (FloatOps.cmpf (F := Ideal) (φ := .f32) .ogt (shapeCast S3256x128 x1 shapeCasts_S1x3256x128_S3256x128 (ix2 (j 1) (j 2))) _)
      (shapeCast S3256x128 x0 shapeCasts_S3256x128_S3256x128 (ix2 (j 1) (j 2))) _ = _
  rw [e1, e0]
  rfl

/-- The stored block of the second mask at an entry, in the same way. -/
theorem pay4_apply (x0 : Vec Ideal S3256x128 .f32) (x2 : Vec Ideal S1x3256x128 .f32) (j : S1x3256x128.Idx) :
    k0_pay4 x0 x2 j = keep (x2 j) (x0 (ix2 (j 1) (j 2) : S3256x128.Idx)) := by
  have hj0 : (j 0).val = 0 := by have h := (j 0).isLt; change (j 0).val < 1 at h; omega
  have hk : (S3256x128.rowMajor (ix2 (j 1) (j 2))).val = (S1x3256x128.rowMajor j).val := by
    rw [Shape.rowMajor_val_two, Shape.rowMajor_val_three, hj0]
    show (j 1).val * 128 + (j 2).val = (0 * 3256 + (j 1).val) * 128 + (j 2).val
    omega
  have e1 : shapeCast S3256x128 x2 shapeCasts_S1x3256x128_S3256x128 (ix2 (j 1) (j 2)) = x2 j :=
    shapeCast_apply x2 _ _ j hk.symm
  have e0 : shapeCast S3256x128 x0 shapeCasts_S3256x128_S3256x128 (ix2 (j 1) (j 2)) = x0 (ix2 (j 1) (j 2)) :=
    congrFun (shapeCast_self x0 _) _
  unfold k0_pay4 k0_pay1 k0_pay2
  dsimp only
  refine (shapeCast_apply _ _ j (ix2 (j 1) (j 2)) hk).trans ?_
  show Scalar.select (FloatOps.cmpf (F := Ideal) (φ := .f32) .ogt (shapeCast S3256x128 x2 shapeCasts_S1x3256x128_S3256x128 (ix2 (j 1) (j 2))) _)
      (shapeCast S3256x128 x0 shapeCasts_S3256x128_S3256x128 (ix2 (j 1) (j 2))) _ = _
  rw [e1, e0]
  rfl

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the twelve grid points (l, r): the edge window sits at row block r, each mask
    window and each output window at (l, r, 0); l is 0 or 1 and r is below 6. -/
theorem idx_facts : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 1 ∧ win0_3.index t (1 : Fin 3) ≤ 5 ∧ win0_3.index t (2 : Fin 3) = 0 :=
  (by decide +kernel : ∀ t : Fin grid0.N, _)

/-- Every block (l, r, 0) of an output is some grid point's. -/
theorem idx_onto3 : ∀ (q0 : Fin 2) (q1 : Fin 6), ∃ t : Fin cfg0.N, win0_3.index t = ![q0.val, q1.val, 0] :=
  (by decide +kernel : ∀ (q0 : Fin 2) (q1 : Fin 6), ∃ t : Fin grid0.N, win0_3.index t = ![q0.val, q1.val, 0])
theorem idx_onto4 : ∀ (q0 : Fin 2) (q1 : Fin 6), ∃ t : Fin cfg0.N, win0_4.index t = ![q0.val, q1.val, 0] :=
  (by decide +kernel : ∀ (q0 : Fin 2) (q1 : Fin 6), ∃ t : Fin grid0.N, win0_4.index t = ![q0.val, q1.val, 0])

/-- An entry of the edge window's block at a point is the edge array's entry at block index times block size plus the
    entry's own coordinate, axis by axis. -/
theorem iblk_edge (c : Dev nD) (t : Fin cfg0.N) (x : S3256x128.Idx) (k : S19536x128.Idx)
    (h0 : (k 0).val = win0_0.index t (0 : Fin 2) * 3256 + (x 0).val)
    (h1 : (k 1).val = win0_0.index t (1 : Fin 2) * 128 + (x 1).val) :
    (iblk0 (F := Ideal) V c 0 t : Vec Ideal S3256x128 .f32) x = (V c main_v1 : S19536x128.Idx → EReal) k := by
  unfold iblk0
  rw [View.read_apply]
  show V c main_v1 _ = V c main_v1 _
  congr 1
  funext a
  apply Fin.ext
  match a with
  | ⟨0, _⟩ => show win0_0.index t (0 : Fin 2) * 3256 + 1 * (x 0).val = (k 0).val; omega
  | ⟨1, _⟩ => show win0_0.index t (1 : Fin 2) * 128 + 1 * (x 1).val = (k 1).val; omega

/-- The same for the first mask window's block … -/
theorem iblk_mask_u (c : Dev nD) (t : Fin cfg0.N) (x : S1x3256x128.Idx) (k : S2x19536x128.Idx)
    (h0 : (k 0).val = win0_1.index t (0 : Fin 3) * 1 + (x 0).val)
    (h1 : (k 1).val = win0_1.index t (1 : Fin 3) * 3256 + (x 1).val)
    (h2 : (k 2).val = win0_1.index t (2 : Fin 3) * 128 + (x 2).val) :
    (iblk0 (F := Ideal) V c 1 t : Vec Ideal S1x3256x128 .f32) x = (V c main_v7 : S2x19536x128.Idx → EReal) k := by
  unfold iblk0
  rw [View.read_apply]
  show V c main_v7 _ = V c main_v7 _
  congr 1
  funext a
  apply Fin.ext
  match a with
  | ⟨0, _⟩ => show win0_1.index t (0 : Fin 3) * 1 + 1 * (x 0).val = (k 0).val; omega
  | ⟨1, _⟩ => show win0_1.index t (1 : Fin 3) * 3256 + 1 * (x 1).val = (k 1).val; omega
  | ⟨2, _⟩ => show win0_1.index t (2 : Fin 3) * 128 + 1 * (x 2).val = (k 2).val; omega

/-- … and for the second mask window's. -/
theorem iblk_mask_i (c : Dev nD) (t : Fin cfg0.N) (x : S1x3256x128.Idx) (k : S2x19536x128.Idx)
    (h0 : (k 0).val = win0_2.index t (0 : Fin 3) * 1 + (x 0).val)
    (h1 : (k 1).val = win0_2.index t (1 : Fin 3) * 3256 + (x 1).val)
    (h2 : (k 2).val = win0_2.index t (2 : Fin 3) * 128 + (x 2).val) :
    (iblk0 (F := Ideal) V c 2 t : Vec Ideal S1x3256x128 .f32) x = (V c main_v9 : S2x19536x128.Idx → EReal) k := by
  unfold iblk0
  rw [View.read_apply]
  show V c main_v9 _ = V c main_v9 _
  congr 1
  funext a
  apply Fin.ext
  match a with
  | ⟨0, _⟩ => show win0_2.index t (0 : Fin 3) * 1 + 1 * (x 0).val = (k 0).val; omega
  | ⟨1, _⟩ => show win0_2.index t (1 : Fin 3) * 3256 + 1 * (x 1).val = (k 1).val; omega
  | ⟨2, _⟩ => show win0_2.index t (2 : Fin 3) * 128 + 1 * (x 2).val = (k 2).val; omega

/-- The first output array, entry by entry: the first mask array's entry decides whether the edge array's entry of
    the same row and lane is kept. -/
abbrev Gu (c : Dev nD) : S2x19536x128.Idx → EReal :=
  fun i => keep ((V c main_v7 : S2x19536x128.Idx → EReal) i) ((V c main_v1 : S19536x128.Idx → EReal) (ix2 (i 1) (i 2)))

/-- The second output array, entry by entry, from the second mask array. -/
abbrev Gi (c : Dev nD) : S2x19536x128.Idx → EReal :=
  fun i => keep ((V c main_v9 : S2x19536x128.Idx → EReal) i) ((V c main_v1 : S19536x128.Idx → EReal) (ix2 (i 1) (i 2)))

/-- What grid point t writes back to the first output is block t of `Gu`: the stored block read at an entry is `keep`
    of the two loaded blocks' entries, and each loaded entry sits in its array where the output block's entry does
    (rows at r · 3256 + the entry's row, the lane unchanged, the half l unchanged). -/
theorem flushed_u (c : Dev nD) (t : Fin cfg0.N) :
    (dat0 (F := Ideal) V c).flushed 3 t = ((cfg0.win 3).blk t).view.read (Elt Ideal) (Gu V c) := by
  show (cfg0.win 3).cut (grid0.coords t) ((dat0 (F := Ideal) V c).after 3 t) = _
  rw [after0_3]
  unfold out0_3
  rw [View.canon_unit_zero hz3]
  simp only [View.ld_unit_zero (S := S3256x128) hz2, View.ld_unit_zero (S := S1x3256x128) hz3]
  obtain ⟨e0, e1, e2, e3, e4, -, -, -, -, -, -, b0, b1, b2⟩ := idx_facts t
  funext y
  show k0_pay3 (iblk0 (F := Ideal) V c 0 t) (iblk0 (F := Ideal) V c 1 t) ((cfg0.win 3).xinj (grid0.coords t) y)
    = Gu V c (((cfg0.win 3).blk t).view.emb y)
  refine (pay3_apply _ _ _).trans ?_
  have hy0 : (y 0).val < 1 := (y 0).isLt
  have hy1 : (y 1).val < 3256 := (y 1).isLt
  have hy2 : (y 2).val < 128 := (y 2).isLt
  have k0 : ((((cfg0.win 3).blk t).view.emb y) 0).val = win0_3.index t (0 : Fin 3) * 1 + 1 * (y 0).val := rfl
  have k1 : ((((cfg0.win 3).blk t).view.emb y) 1).val = win0_3.index t (1 : Fin 3) * 3256 + 1 * (y 1).val := rfl
  have k2 : ((((cfg0.win 3).blk t).view.emb y) 2).val = win0_3.index t (2 : Fin 3) * 128 + 1 * (y 2).val := rfl
  refine congrArg₂ keep ?_ ?_
  · refine iblk_mask_u V c t _ _ ?_ ?_ ?_
    · rw [k0, e2]; show _ = _ + (y 0).val; omega
    · rw [k1, e3]; show _ = _ + (y 1).val; omega
    · rw [k2, e4, b2]; show _ = _ + (y 2).val; omega
  · refine iblk_edge V c t _ _ ?_ ?_
    · show ((((cfg0.win 3).blk t).view.emb y) 1).val = _ + (y 1).val; rw [k1, e0]; omega
    · show ((((cfg0.win 3).blk t).view.emb y) 2).val = _ + (y 2).val; rw [k2, e1, b2]; omega

/-- The same for the second output, from the second mask window. -/
theorem flushed_i (c : Dev nD) (t : Fin cfg0.N) :
    (dat0 (F := Ideal) V c).flushed 4 t = ((cfg0.win 4).blk t).view.read (Elt Ideal) (Gi V c) := by
  show (cfg0.win 4).cut (grid0.coords t) ((dat0 (F := Ideal) V c).after 4 t) = _
  rw [after0_4]
  unfold out0_4
  rw [View.canon_unit_zero hz3]
  simp only [View.ld_unit_zero (S := S3256x128) hz2, View.ld_unit_zero (S := S1x3256x128) hz3]
  obtain ⟨e0, e1, -, -, -, e2, e3, e4, f0, f1, f2, b0, b1, b2⟩ := idx_facts t
  funext y
  show k0_pay4 (iblk0 (F := Ideal) V c 0 t) (iblk0 (F := Ideal) V c 2 t) ((cfg0.win 4).xinj (grid0.coords t) y)
    = Gi V c (((cfg0.win 4).blk t).view.emb y)
  refine (pay4_apply _ _ _).trans ?_
  have hy0 : (y 0).val < 1 := (y 0).isLt
  have hy1 : (y 1).val < 3256 := (y 1).isLt
  have hy2 : (y 2).val < 128 := (y 2).isLt
  have k0 : ((((cfg0.win 4).blk t).view.emb y) 0).val = win0_4.index t (0 : Fin 3) * 1 + 1 * (y 0).val := rfl
  have k1 : ((((cfg0.win 4).blk t).view.emb y) 1).val = win0_4.index t (1 : Fin 3) * 3256 + 1 * (y 1).val := rfl
  have k2 : ((((cfg0.win 4).blk t).view.emb y) 2).val = win0_4.index t (2 : Fin 3) * 128 + 1 * (y 2).val := rfl
  refine congrArg₂ keep ?_ ?_
  · refine iblk_mask_i V c t _ _ ?_ ?_ ?_
    · rw [k0, e2, f0]; show _ = _ + (y 0).val; omega
    · rw [k1, e3, f1]; show _ = _ + (y 1).val; omega
    · rw [k2, e4, f2]; show _ = _ + (y 2).val; omega
  · refine iblk_edge V c t _ _ ?_ ?_
    · show ((((cfg0.win 4).blk t).view.emb y) 1).val = _ + (y 1).val; rw [k1, e0, f1]; omega
    · show ((((cfg0.win 4).blk t).view.emb y) 2).val = _ + (y 2).val; rw [k2, e1, f2]; omega

/-- An entry of an output array is in point t's block iff each coordinate is in the block's range on its axis. -/
theorem mem_blk3 (t : Fin cfg0.N) (i : S2x19536x128.Idx) :
    i ∈ ((cfg0.win 3).blk t).view.set ↔ ∀ a : Fin 3, win0_3.index t a * S1x3256x128.size a ≤ (i a).val
      ∧ (i a).val < win0_3.index t a * S1x3256x128.size a + S1x3256x128.size a := by
  show i ∈ ((View.whole main_v10_0).slice (win0_3.rect t)).set ↔ _
  rw [View.set_slice_whole, Rect.mem_set_unit]
  exact Iff.rfl
theorem mem_blk4 (t : Fin cfg0.N) (i : S2x19536x128.Idx) :
    i ∈ ((cfg0.win 4).blk t).view.set ↔ ∀ a : Fin 3, win0_4.index t a * S1x3256x128.size a ≤ (i a).val
      ∧ (i a).val < win0_4.index t a * S1x3256x128.size a + S1x3256x128.size a := by
  show i ∈ ((View.whole main_v10_1).slice (win0_4.rect t)).set ↔ _
  rw [View.set_slice_whole, Rect.mem_set_unit]
  exact Iff.rfl

/-- The blocks tile each output: entry (l, r, q) is in the block of the point (l, r / 3256). -/
theorem cover3 (i : S2x19536x128.Idx) :
    ∃ t : Fin cfg0.N, (cfg0.win 3).flush t = true ∧ i ∈ ((cfg0.win 3).blk t).view.set := by
  have hi0 : (i 0).val < 2 := (i 0).isLt
  have hi1 : (i 1).val < 19536 := (i 1).isLt
  have hi2 : (i 2).val < 128 := (i 2).isLt
  obtain ⟨t, ht⟩ := idx_onto3 ⟨(i 0).val, hi0⟩ ⟨(i 1).val / 3256, by omega⟩
  have q0 : win0_3.index t (0 : Fin 3) = (i 0).val := congrFun ht 0
  have q1 : win0_3.index t (1 : Fin 3) = (i 1).val / 3256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3256 ≤ (i 1).val ∧ (i 1).val < win0_3.index t (1 : Fin 3) * 3256 + 3256; omega
  | ⟨2, _⟩ => show win0_3.index t (2 : Fin 3) * 128 ≤ (i 2).val ∧ (i 2).val < win0_3.index t (2 : Fin 3) * 128 + 128; omega
theorem cover4 (i : S2x19536x128.Idx) :
    ∃ t : Fin cfg0.N, (cfg0.win 4).flush t = true ∧ i ∈ ((cfg0.win 4).blk t).view.set := by
  have hi0 : (i 0).val < 2 := (i 0).isLt
  have hi1 : (i 1).val < 19536 := (i 1).isLt
  have hi2 : (i 2).val < 128 := (i 2).isLt
  obtain ⟨t, ht⟩ := idx_onto4 ⟨(i 0).val, hi0⟩ ⟨(i 1).val / 3256, by omega⟩
  have q0 : win0_4.index t (0 : Fin 3) = (i 0).val := congrFun ht 0
  have q1 : win0_4.index t (1 : Fin 3) = (i 1).val / 3256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 3256 ≤ (i 1).val ∧ (i 1).val < win0_4.index t (1 : Fin 3) * 3256 + 3256; omega
  | ⟨2, _⟩ => show win0_4.index t (2 : Fin 3) * 128 ≤ (i 2).val ∧ (i 2).val < win0_4.index t (2 : Fin 3) * 128 + 128; omega

/-- THE FIRST OUTPUT after the region: every entry is `keep` of the first mask array's entry and the edge array's entry
    of the same row and lane. -/
theorem value_u (c : Dev nD) : (dat0 (F := Ideal) V c).arrAt 3 cfg0.N
    = fun i => keep ((V c main_v7 : S2x19536x128.Idx → EReal) i) ((V c main_v1 : S19536x128.Idx → EReal) (ix2 (i 1) (i 2))) :=
  (dat0 (F := Ideal) V c).arrAt_eq_of_cover 3 (Gu V c) (fun t _ => flushed_u V c t) cover3

/-- THE SECOND OUTPUT after the region, from the second mask array. -/
theorem value_i (c : Dev nD) : (dat0 (F := Ideal) V c).arrAt 4 cfg0.N
    = fun i => keep ((V c main_v9 : S2x19536x128.Idx → EReal) i) ((V c main_v1 : S19536x128.Idx → EReal) (ix2 (i 1) (i 2))) :=
  (dat0 (F := Ideal) V c).arrAt_eq_of_cover 4 (Gi V c) (fun t _ => flushed_i V c t) cover4

end Cert.KernelIdeal.Drop0

end
-- ==== Proof.KeepBridge.lean ====
import proofs.«422239_j35003983462563_2_alg».proof.KernelIdeal
import proofs.«422239_j35003983462563_2_alg».proof.ReferenceIdeal
import proofs.«422239_j35003983462563_2_alg».proof.Proof.Gen.KernelIdeal
import proofs.«422239_j35003983462563_2_alg».proof.Proof.Gen.ReferenceIdeal
import Idealize.ShloMosaic.Lib.ValueLayout
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

/-!
# The dropout-masked edge values: the kernel's padded, tiled layout against the reference's flat one

Both programs keep an edge value where the dropout draw exceeds the threshold and put zero elsewhere.
The reference does so on the flat vector of 2 500 000 edges, one (layer, side) pair at a time.  The
kernel pads the edges with 608 zeros to 2 500 608 = 19 536 · 128, views them as a matrix of 128-wide
rows, masks both layers of one side at once, and afterwards undoes the view, drops the padding and
takes one layer's row.

Flat position q < 2 500 000 of the padded vector is row q / 128, column q % 128 of the matrix, and
position l · 2 500 608 + q of the two-layer array is (l, q / 128, q % 128): every layout operation
here is a re-indexing, so at each edge the two sides read the same draw and the same value.
-/

noncomputable section
namespace Cert.KernelIdeal.KeepBridge
open Cert.KernelIdeal Idealize.ShloMosaic Idealize.ShloMosaic.ValueIdx
open Cert.KernelIdeal.Facts₀ Cert.KernelIdeal.Facts

/-! ## The kernel's host-side layout, as printed -/

/-- The edge values padded with 608 trailing zeros and viewed as 19 536 rows of 128. -/
def valsP (vals : FVec Ideal S2500000 .f32) : FVec Ideal S19536x128 .f32 :=
  shapeCast S19536x128
    (pad S2500608 ![0] ![608] ![0] vals (sitofp .f32 (constantI S_ 32 0#32) : FVec Ideal S_ .f32)
      pads_S2500000_S2500608_06080 h_S_)
    shapeCasts_S2500608_S19536x128

/-- Side 0's dropout draws for both layers, padded and tiled like the edge values. -/
def dmP0 (dm : FVec Ideal S2x2x2500000 .f32) : FVec Ideal S2x19536x128 .f32 :=
  shapeCast S2x19536x128
    (pad S2x2500608 ![0, 0] ![0, 608] ![0, 0]
      (shapeCast S2x2500000 (extractStridedSlice S2x1x2500000 ![0, 0, 0] dm slices_S2x2x2500000_S2x1x2500000_0_0_0)
        shapeCasts_S2x1x2500000_S2x2500000)
      (sitofp .f32 (constantI S_ 32 0#32) : FVec Ideal S_ .f32)
      pads_S2x2500000_S2x2500608_000_06080 h_S_)
    shapeCasts_S2x2500608_S2x19536x128

/-- Side 1's dropout draws for both layers, padded and tiled like the edge values. -/
def dmP1 (dm : FVec Ideal S2x2x2500000 .f32) : FVec Ideal S2x19536x128 .f32 :=
  shapeCast S2x19536x128
    (pad S2x2500608 ![0, 0] ![0, 608] ![0, 0]
      (shapeCast S2x2500000 (extractStridedSlice S2x1x2500000 ![0, 1, 0] dm slices_S2x2x2500000_S2x1x2500000_0_1_0)
        shapeCasts_S2x1x2500000_S2x2500000)
      (sitofp .f32 (constantI S_ 32 0#32) : FVec Ideal S_ .f32)
      pads_S2x2500000_S2x2500608_000_06080 h_S_)
    shapeCasts_S2x2500608_S2x19536x128

/-- Layer 0 of a masked two-layer tiled array, flattened and with the padding dropped. -/
def unpad0 (X : FVec Ideal S2x19536x128 .f32) : FVec Ideal S2500000 .f32 :=
  shapeCast S2500000
    (extractStridedSlice S1x2500000 ![0, 0]
      (extractStridedSlice S2x2500000 ![0, 0]
        (shapeCast S2x2500608 X shapeCasts_S2x19536x128_S2x2500608)
        slices_S2x2500608_S2x2500000_0_0)
      slices_S2x2500000_S1x2500000_0_0)
    shapeCasts_S1x2500000_S2500000

/-- Layer 1 of a masked two-layer tiled array, flattened and with the padding dropped. -/
def unpad1 (X : FVec Ideal S2x19536x128 .f32) : FVec Ideal S2500000 .f32 :=
  shapeCast S2500000
    (extractStridedSlice S1x2500000 ![1, 0]
      (extractStridedSlice S2x2500000 ![0, 0]
        (shapeCast S2x2500608 X shapeCasts_S2x19536x128_S2x2500608)
        slices_S2x2500608_S2x2500000_0_0)
      slices_S2x2500000_S1x2500000_1_0)
    shapeCasts_S1x2500000_S2500000

/-! ## The reference's four masked vectors, as printed

Layer l, side j: the draws dm[l, j, :] against the threshold 0.2 (the word 0x3E4CCCCD), the edge value
kept where the draw is larger and zero elsewhere. -/

/-- Layer 0, side 0. -/
def keepR00 (dm : FVec Ideal Cert.ReferenceIdeal.S2x2x2500000 .f32) (vals : FVec Ideal Cert.ReferenceIdeal.S2500000 .f32) :
    FVec Ideal Cert.ReferenceIdeal.S2500000 .f32 :=
  select
    (cmpf .ogt
      (shapeCast Cert.ReferenceIdeal.S2500000
        (extractStridedSlice Cert.ReferenceIdeal.S1x1x2500000 ![0, 0, 0] dm
          Cert.ReferenceIdeal.Facts₀.slices_S2x2x2500000_S1x1x2500000_0_0_0)
        Cert.ReferenceIdeal.Facts₀.shapeCasts_S1x1x2500000_S2500000)
      (broadcastInDim Cert.ReferenceIdeal.S2500000 ![] Cert.ReferenceIdeal.Facts₀.bcast_S_S2500000
        (constant Cert.ReferenceIdeal.S_ .f32 0x3E4CCCCD#32)))
    vals
    (broadcastInDim Cert.ReferenceIdeal.S2500000 ![] Cert.ReferenceIdeal.Facts₀.bcast_S_S2500000
      (constant Cert.ReferenceIdeal.S_ .f32 0x00000000#32))

/-- Layer 0, side 1. -/
def keepR01 (dm : FVec Ideal Cert.ReferenceIdeal.S2x2x2500000 .f32) (vals : FVec Ideal Cert.ReferenceIdeal.S2500000 .f32) :
    FVec Ideal Cert.ReferenceIdeal.S2500000 .f32 :=
  select
    (cmpf .ogt
      (shapeCast Cert.ReferenceIdeal.S2500000
        (extractStridedSlice Cert.ReferenceIdeal.S1x1x2500000 ![0, 1, 0] dm
          Cert.ReferenceIdeal.Facts₀.slices_S2x2x2500000_S1x1x2500000_0_1_0)
        Cert.ReferenceIdeal.Facts₀.shapeCasts_S1x1x2500000_S2500000)
      (broadcastInDim Cert.ReferenceIdeal.S2500000 ![] Cert.ReferenceIdeal.Facts₀.bcast_S_S2500000
        (constant Cert.ReferenceIdeal.S_ .f32 0x3E4CCCCD#32)))
    vals
    (broadcastInDim Cert.ReferenceIdeal.S2500000 ![] Cert.ReferenceIdeal.Facts₀.bcast_S_S2500000
      (constant Cert.ReferenceIdeal.S_ .f32 0x00000000#32))

/-- Layer 1, side 0. -/
def keepR10 (dm : FVec Ideal Cert.ReferenceIdeal.S2x2x2500000 .f32) (vals : FVec Ideal Cert.ReferenceIdeal.S2500000 .f32) :
    FVec Ideal Cert.ReferenceIdeal.S2500000 .f32 :=
  select
    (cmpf .ogt
      (shapeCast Cert.ReferenceIdeal.S2500000
        (extractStridedSlice Cert.ReferenceIdeal.S1x1x2500000 ![1, 0, 0] dm
          Cert.ReferenceIdeal.Facts₀.slices_S2x2x2500000_S1x1x2500000_1_0_0)
        Cert.ReferenceIdeal.Facts₀.shapeCasts_S1x1x2500000_S2500000)
      (broadcastInDim Cert.ReferenceIdeal.S2500000 ![] Cert.ReferenceIdeal.Facts₀.bcast_S_S2500000
        (constant Cert.ReferenceIdeal.S_ .f32 0x3E4CCCCD#32)))
    vals
    (broadcastInDim Cert.ReferenceIdeal.S2500000 ![] Cert.ReferenceIdeal.Facts₀.bcast_S_S2500000
      (constant Cert.ReferenceIdeal.S_ .f32 0x00000000#32))

/-- Layer 1, side 1. -/
def keepR11 (dm : FVec Ideal Cert.ReferenceIdeal.S2x2x2500000 .f32) (vals : FVec Ideal Cert.ReferenceIdeal.S2500000 .f32) :
    FVec Ideal Cert.ReferenceIdeal.S2500000 .f32 :=
  select
    (cmpf .ogt
      (shapeCast Cert.ReferenceIdeal.S2500000
        (extractStridedSlice Cert.ReferenceIdeal.S1x1x2500000 ![1, 1, 0] dm
          Cert.ReferenceIdeal.Facts₀.slices_S2x2x2500000_S1x1x2500000_1_1_0)
        Cert.ReferenceIdeal.Facts₀.shapeCasts_S1x1x2500000_S2500000)
      (broadcastInDim Cert.ReferenceIdeal.S2500000 ![] Cert.ReferenceIdeal.Facts₀.bcast_S_S2500000
        (constant Cert.ReferenceIdeal.S_ .f32 0x3E4CCCCD#32)))
    vals
    (broadcastInDim Cert.ReferenceIdeal.S2500000 ![] Cert.ReferenceIdeal.Facts₀.bcast_S_S2500000
      (constant Cert.ReferenceIdeal.S_ .f32 0x00000000#32))

/-! ## Each layout read at one edge

Throughout, q < 2 500 000 is an edge, r = q / 128 its row and c = q % 128 its column in the 128-wide
view, so q = r · 128 + c. -/

/-- The padded, tiled edge values at (r, c) are the edge value at q: position r · 128 + c of the
padded vector lies before the padding. -/
theorem valsP_apply (vals : FVec Ideal S2500000 .f32) (r : Fin 19536) (c : Fin 128) (q : Fin 2500000)
    (hq : q.val = r.val * 128 + c.val) : valsP vals (ix2 r c) = vals (ix1 q) := by
  have hq' := q.isLt
  unfold valsP
  refine (shapeCast_apply _ _ (ix2 r c) (ix1 (⟨q.val, by omega⟩ : Fin 2500608)) ?_).trans ?_
  · rw [Shape.rowMajor_val_one, Shape.rowMajor_val_two]
    show q.val = r.val * 128 + c.val
    exact hq
  · exact pad_apply_of_inside _ _ _ _ _ _ _ (ix1 (⟨q.val, by omega⟩ : Fin 2500608)) (ix1 q) (fun a => by
      match a with
      | ⟨0, _⟩ => show q.val = 0 + q.val * (0 + 1); omega)

/-- One side's padded, tiled draws at (l, r, c) are the draw of layer l, that side, edge q: position
l · 2 500 608 + q of the padded pair of rows is row l before the padding, and the unit side axis the
slice left is dropped by the reshape. -/
theorem dmP_apply (j : Nat) (hj : j < 2) (hK : S2x2x2500000.Slices ![0, j, 0] S2x1x2500000)
    (dm : FVec Ideal S2x2x2500000 .f32) (l : Fin 2) (r : Fin 19536) (c : Fin 128) (q : Fin 2500000)
    (hq : q.val = r.val * 128 + c.val) :
    shapeCast S2x19536x128
      (pad S2x2500608 ![0, 0] ![0, 608] ![0, 0]
        (shapeCast S2x2500000 (extractStridedSlice S2x1x2500000 ![0, j, 0] dm hK) shapeCasts_S2x1x2500000_S2x2500000)
        (sitofp .f32 (constantI S_ 32 0#32) : FVec Ideal S_ .f32)
        pads_S2x2500000_S2x2500608_000_06080 h_S_)
      shapeCasts_S2x2500608_S2x19536x128 (ix3 l r c)
    = dm (ix3 l (⟨j, hj⟩ : Fin 2) q) := by
  have hq' := q.isLt
  have hl' := l.isLt
  refine (shapeCast_apply _ _ (ix3 l r c) (ix2 l (⟨q.val, by omega⟩ : Fin 2500608)) ?_).trans ?_
  · rw [Shape.rowMajor_val_two, Shape.rowMajor_val_three]
    show l.val * 2500608 + q.val = (l.val * 19536 + r.val) * 128 + c.val
    omega
  refine (pad_apply_of_inside _ _ _ _ _ _ _ (ix2 l (⟨q.val, by omega⟩ : Fin 2500608)) (ix2 l q) (fun a => ?_)).trans ?_
  · match a with
    | ⟨0, _⟩ => show l.val = 0 + l.val * (0 + 1); omega
    | ⟨1, _⟩ => show q.val = 0 + q.val * (0 + 1); omega
  refine (shapeCast_apply _ _ (ix2 l q) (ix3 l (0 : Fin 1) q) ?_).trans ?_
  · rw [Shape.rowMajor_val_three, Shape.rowMajor_val_two]
    show (l.val * 1 + 0) * 2500000 + q.val = l.val * 2500000 + q.val
    omega
  exact slice3_axis1_apply j dm hK l (0 : Fin 1) q (⟨j, hj⟩ : Fin 2) (by show j = j + 0; rfl)

/-- Layer l of a tiled two-layer array, flattened and cut back to the edges, reads at edge q the entry
(l, r, c): the flattening puts (l, r, c) at l · 2 500 608 + r · 128 + c, the first cut keeps the
columns below 2 500 000 and the second takes row l. -/
theorem unpad_apply (l : Nat) (hl : l < 2) (hrow : S2x2500000.Slices ![l, 0] S1x2500000)
    (X : FVec Ideal S2x19536x128 .f32) (r : Fin 19536) (c : Fin 128) (q : Fin 2500000)
    (hq : q.val = r.val * 128 + c.val) :
    shapeCast S2500000
      (extractStridedSlice S1x2500000 ![l, 0]
        (extractStridedSlice S2x2500000 ![0, 0]
          (shapeCast S2x2500608 X shapeCasts_S2x19536x128_S2x2500608)
          slices_S2x2500608_S2x2500000_0_0)
        hrow)
      shapeCasts_S1x2500000_S2500000 (ix1 q)
    = X (ix3 (⟨l, hl⟩ : Fin 2) r c) := by
  have hq' := q.isLt
  refine (shapeCast_1a_a_apply _ _ q).trans ?_
  refine (slice2_axis0_apply l _ hrow (0 : Fin 1) q (⟨l, hl⟩ : Fin 2) (by show l = l + 0; rfl)).trans ?_
  refine (slice2_axis1_apply 0 _ slices_S2x2500608_S2x2500000_0_0 (⟨l, hl⟩ : Fin 2) q
    (⟨q.val, by omega⟩ : Fin 2500608) (by show q.val = 0 + q.val; omega)).trans ?_
  exact shapeCast_apply _ _ (ix2 (⟨l, hl⟩ : Fin 2) (⟨q.val, by omega⟩ : Fin 2500608)) (ix3 (⟨l, hl⟩ : Fin 2) r c) (by
    rw [Shape.rowMajor_val_three, Shape.rowMajor_val_two]
    show (l * 19536 + r.val) * 128 + c.val = l * 2500608 + q.val
    omega)

/-- The reference's draws of layer l, side j, flattened, at edge q: the slice leaves two unit axes,
which the reshape drops. -/
theorem drawR_apply (l j : Nat) (hl : l < 2) (hj : j < 2)
    (hR : Cert.ReferenceIdeal.S2x2x2500000.Slices ![l, j, 0] Cert.ReferenceIdeal.S1x1x2500000)
    (dm : FVec Ideal Cert.ReferenceIdeal.S2x2x2500000 .f32) (q : Fin 2500000) :
    shapeCast Cert.ReferenceIdeal.S2500000 (extractStridedSlice Cert.ReferenceIdeal.S1x1x2500000 ![l, j, 0] dm hR)
      Cert.ReferenceIdeal.Facts₀.shapeCasts_S1x1x2500000_S2500000 (ix1 q)
    = dm (ix3 (⟨l, hl⟩ : Fin 2) (⟨j, hj⟩ : Fin 2) q) := by
  refine (shapeCast_apply _ _ (ix1 q) (ix3 (0 : Fin 1) (0 : Fin 1) q) ?_).trans ?_
  · rw [Shape.rowMajor_val_three, Shape.rowMajor_val_one]
    show (0 * 1 + 0) * 2500000 + q.val = q.val
    omega
  exact extractStridedSlice_apply _ _ hR _ (ix3 (⟨l, hl⟩ : Fin 2) (⟨j, hj⟩ : Fin 2) q) (fun a => by
    match a with
    | ⟨0, _⟩ => show l = l + 0; rfl
    | ⟨1, _⟩ => show j = j + 0; rfl
    | ⟨2, _⟩ => show q.val = 0 + q.val; omega)

/-! ## The two sides at one edge, and the four equalities -/

/-- The kernel's elementwise rule: keep the value where the draw exceeds 0.2, else zero. -/
abbrev KeepSpec (keep : EReal → EReal → EReal) : Prop :=
  ∀ d v : EReal, keep d v =
    Scalar.select (FloatOps.cmpf (F := Ideal) (φ := .f32) .ogt d (Scalar.ofBits (F := Ideal) .f32 0x3E4CCCCD#32)) v
      (Scalar.ofBits (F := Ideal) .f32 0x00000000#32)

/-- At edge q both sides are the rule applied to the draw dm[l, j, q] and the value vals[q]. -/
theorem keep_at (keep : EReal → EReal → EReal) (hkeep : KeepSpec keep) (l j : Nat) (hl : l < 2) (hj : j < 2)
    (hK : S2x2x2500000.Slices ![0, j, 0] S2x1x2500000) (hrow : S2x2500000.Slices ![l, 0] S1x2500000)
    (hR : Cert.ReferenceIdeal.S2x2x2500000.Slices ![l, j, 0] Cert.ReferenceIdeal.S1x1x2500000)
    (dm : FVec Ideal S2x2x2500000 .f32) (vals : FVec Ideal S2500000 .f32) (q : Fin 2500000) :
    shapeCast S2500000
      (extractStridedSlice S1x2500000 ![l, 0]
        (extractStridedSlice S2x2500000 ![0, 0]
          (shapeCast S2x2500608
            (fun i : S2x19536x128.Idx =>
              keep
                (shapeCast S2x19536x128
                  (pad S2x2500608 ![0, 0] ![0, 608] ![0, 0]
                    (shapeCast S2x2500000 (extractStridedSlice S2x1x2500000 ![0, j, 0] dm hK) shapeCasts_S2x1x2500000_S2x2500000)
                    (sitofp .f32 (constantI S_ 32 0#32) : FVec Ideal S_ .f32)
                    pads_S2x2500000_S2x2500608_000_06080 h_S_)
                  shapeCasts_S2x2500608_S2x19536x128 i)
                (valsP vals (ix2 (i 1) (i 2))))
            shapeCasts_S2x19536x128_S2x2500608)
          slices_S2x2500608_S2x2500000_0_0)
        hrow)
      shapeCasts_S1x2500000_S2500000 (ix1 q)
    = select
        (cmpf .ogt
          (shapeCast Cert.ReferenceIdeal.S2500000
            (extractStridedSlice Cert.ReferenceIdeal.S1x1x2500000 ![l, j, 0] dm hR)
            Cert.ReferenceIdeal.Facts₀.shapeCasts_S1x1x2500000_S2500000)
          (broadcastInDim Cert.ReferenceIdeal.S2500000 ![] Cert.ReferenceIdeal.Facts₀.bcast_S_S2500000
            (constant Cert.ReferenceIdeal.S_ .f32 0x3E4CCCCD#32)))
        vals
        (broadcastInDim Cert.ReferenceIdeal.S2500000 ![] Cert.ReferenceIdeal.Facts₀.bcast_S_S2500000
          (constant Cert.ReferenceIdeal.S_ .f32 0x00000000#32)) (ix1 q) := by
  have hq' := q.isLt
  have hr : q.val / 128 < 19536 := by omega
  have hc : q.val % 128 < 128 := by omega
  have hq : q.val = (⟨q.val / 128, hr⟩ : Fin 19536).val * 128 + (⟨q.val % 128, hc⟩ : Fin 128).val := by
    show q.val = q.val / 128 * 128 + q.val % 128
    omega
  refine (unpad_apply l hl hrow _ (⟨q.val / 128, hr⟩ : Fin 19536) (⟨q.val % 128, hc⟩ : Fin 128) q hq).trans ?_
  refine (congrArg₂ keep
    (dmP_apply j hj hK dm (⟨l, hl⟩ : Fin 2) (⟨q.val / 128, hr⟩ : Fin 19536) (⟨q.val % 128, hc⟩ : Fin 128) q hq)
    (valsP_apply vals (⟨q.val / 128, hr⟩ : Fin 19536) (⟨q.val % 128, hc⟩ : Fin 128) q hq)).trans ?_
  refine (hkeep _ _).trans ?_
  rw [← drawR_apply l j hl hj hR dm q]
  rfl

/-- Layer 0, side 0: the kernel's masked array, unpadded, is the reference's masked vector. -/
theorem keep_eq_00 (keep : EReal → EReal → EReal) (hkeep : KeepSpec keep)
    (dm : FVec Ideal S2x2x2500000 .f32) (vals : FVec Ideal S2500000 .f32) :
    unpad0 (fun i : S2x19536x128.Idx => keep (dmP0 dm i) (valsP vals (ix2 (i 1) (i 2)))) = keepR00 dm vals := by
  funext e
  rw [eq_ix1 e]
  exact keep_at keep hkeep 0 0 (by decide) (by decide) _ _ _ dm vals (e 0)

/-- Layer 0, side 1. -/
theorem keep_eq_01 (keep : EReal → EReal → EReal) (hkeep : KeepSpec keep)
    (dm : FVec Ideal S2x2x2500000 .f32) (vals : FVec Ideal S2500000 .f32) :
    unpad0 (fun i : S2x19536x128.Idx => keep (dmP1 dm i) (valsP vals (ix2 (i 1) (i 2)))) = keepR01 dm vals := by
  funext e
  rw [eq_ix1 e]
  exact keep_at keep hkeep 0 1 (by decide) (by decide) _ _ _ dm vals (e 0)

/-- Layer 1, side 0. -/
theorem keep_eq_10 (keep : EReal → EReal → EReal) (hkeep : KeepSpec keep)
    (dm : FVec Ideal S2x2x2500000 .f32) (vals : FVec Ideal S2500000 .f32) :
    unpad1 (fun i : S2x19536x128.Idx => keep (dmP0 dm i) (valsP vals (ix2 (i 1) (i 2)))) = keepR10 dm vals := by
  funext e
  rw [eq_ix1 e]
  exact keep_at keep hkeep 1 0 (by decide) (by decide) _ _ _ dm vals (e 0)

/-- Layer 1, side 1. -/
theorem keep_eq_11 (keep : EReal → EReal → EReal) (hkeep : KeepSpec keep)
    (dm : FVec Ideal S2x2x2500000 .f32) (vals : FVec Ideal S2500000 .f32) :
    unpad1 (fun i : S2x19536x128.Idx => keep (dmP1 dm i) (valsP vals (ix2 (i 1) (i 2)))) = keepR11 dm vals := by
  funext e
  rw [eq_ix1 e]
  exact keep_at keep hkeep 1 1 (by decide) (by decide) _ _ _ dm vals (e 0)

end Cert.KernelIdeal.KeepBridge
end
-- ==== Proof.KBridge.lean ====
import proofs.«422239_j35003983462563_2_alg».proof.Proof.ChainA
import proofs.«422239_j35003983462563_2_alg».proof.Proof.Drop0
import proofs.«422239_j35003983462563_2_alg».proof.Proof.KeepBridge

/-!
# The masked edge values the kernel program holds are the reference's

The first pipeline region leaves, entry by entry, the edge value where the dropout draw exceeds the
threshold and zero elsewhere, over the padded and tiled layouts of the draws and of the edge values the
host operations before it build from the arguments.  The host operations after it undo the layout and
take one layer's row.  Composing the three facts, each (layer, side) row is the reference's masked
vector of that layer and side.
-/

noncomputable section
namespace Cert.KernelIdeal.Bridge
open Cert.KernelIdeal Cert.KernelIdeal.Gen Cert.KernelIdeal.Chain
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The two layouts' names agree: the same operations composed -/

theorem row0_unpad (k : FVec Ideal S2x19536x128 .f32) : Spec.row0 (Spec.unpad k) = KeepBridge.unpad0 k := rfl
theorem row1_unpad (k : FVec Ideal S2x19536x128 .f32) : Spec.row1 (Spec.unpad k) = KeepBridge.unpad1 k := rfl
theorem dmP0_eq (dm : FVec Ideal S2x2x2500000 .f32) : Spec.dmP0 dm = KeepBridge.dmP0 dm := rfl
theorem dmP1_eq (dm : FVec Ideal S2x2x2500000 .f32) : Spec.dmP1 dm = KeepBridge.dmP1 dm := rfl
theorem valsP_eq (vals : FVec Ideal S2500000 .f32) : Spec.valsP vals = KeepBridge.valsP vals := rfl

/-! ## What the mask region leaves, over the arguments -/

/-- The user-side output: the rule applied to side 0's tiled draws and the tiled edge values. -/
theorem x0u_eq : X0u m ρ c
    = fun i : S2x19536x128.Idx =>
        Drop0.keep (KeepBridge.dmP0 (a7 m c) i) (KeepBridge.valsP (a2 m c) (ix2 (i 1) (i 2))) := by
  unfold Chain.X0u
  refine (Drop0.value_u (V7 m ρ) c).trans ?_
  funext i
  exact congrArg₂ Drop0.keep
    ((congrFun (w7_main_v7 m ρ c) i).trans (congrFun (dmP0_eq (a7 m c)) i))
    ((congrFun (w7_main_v1 m ρ c) (ix2 (i 1) (i 2))).trans (congrFun (valsP_eq (a2 m c)) (ix2 (i 1) (i 2))))

/-- The item-side output: the same with side 1's draws. -/
theorem x0i_eq : X0i m ρ c
    = fun i : S2x19536x128.Idx =>
        Drop0.keep (KeepBridge.dmP1 (a7 m c) i) (KeepBridge.valsP (a2 m c) (ix2 (i 1) (i 2))) := by
  unfold Chain.X0i
  refine (Drop0.value_i (V7 m ρ) c).trans ?_
  funext i
  exact congrArg₂ Drop0.keep
    ((congrFun (w7_main_v9 m ρ c) i).trans (congrFun (dmP1_eq (a7 m c)) i))
    ((congrFun (w7_main_v1 m ρ c) (ix2 (i 1) (i 2))).trans (congrFun (valsP_eq (a2 m c)) (ix2 (i 1) (i 2))))

/-- The region's elementwise rule is the threshold comparison and select. -/
theorem keepSpec : KeepBridge.KeepSpec Drop0.keep := fun _ _ => rfl

/-! ## The four rows -/

/-- Layer 0, user side. -/
theorem keep00 : Spec.row0 (keepU m ρ c) = KeepBridge.keepR00 (a7 m c) (a2 m c) := by
  unfold Chain.keepU
  rw [row0_unpad, x0u_eq m ρ c]
  exact KeepBridge.keep_eq_00 Drop0.keep keepSpec (a7 m c) (a2 m c)

/-- Layer 0, item side. -/
theorem keep01 : Spec.row0 (keepI m ρ c) = KeepBridge.keepR01 (a7 m c) (a2 m c) := by
  unfold Chain.keepI
  rw [row0_unpad, x0i_eq m ρ c]
  exact KeepBridge.keep_eq_01 Drop0.keep keepSpec (a7 m c) (a2 m c)

/-- Layer 1, user side. -/
theorem keep10 : Spec.row1 (keepU m ρ c) = KeepBridge.keepR10 (a7 m c) (a2 m c) := by
  unfold Chain.keepU
  rw [row1_unpad, x0u_eq m ρ c]
  exact KeepBridge.keep_eq_10 Drop0.keep keepSpec (a7 m c) (a2 m c)

/-- Layer 1, item side. -/
theorem keep11 : Spec.row1 (keepI m ρ c) = KeepBridge.keepR11 (a7 m c) (a2 m c) := by
  unfold Chain.keepI
  rw [row1_unpad, x0i_eq m ρ c]
  exact KeepBridge.keep_eq_11 Drop0.keep keepSpec (a7 m c) (a2 m c)

end Cert.KernelIdeal.Bridge
end
-- ==== Proof.TakeFill.lean ====
import proofs.«422239_j35003983462563_2_alg».proof.KernelIdeal
import Idealize.ShloMosaic.Lib.StableHlo.Predicate
import Idealize.ShloMosaic.Lib.ReduceAll
import Idealize.ShloMosaic.Lib.ValueIdx
import Idealize.ShloMosaic.PureOps.Reduce

/-!
# A gather in "fill" mode with every index in range is the plain gather

The host gathers rows of a table `x : [N, 64]` at a vector of 2,500,000 signed 32-bit positions in three steps:
a negative position `p` is first WRAPPED to `p + N`; the rows are gathered at the wrapped positions (the gather
itself clamps a position into the table); and last every row whose wrapped position lies outside `[0, N - 1]` is
REPLACED by a constant row. The replacement is a `select` on a mask: the mask at row `r` is the conjunction, over
the one-column row `r` of the wrapped positions, of `0 ≤ w` and `w ≤ N - 1`, laid along the 64 columns.

When every position already lies in `[0, N)`, wrapping changes nothing (no position is negative), both compares
hold at every row, the conjunction over a row of all-ones is one, the mask is one everywhere, and the `select`
is its first branch: the plain gather at the wrapped (that is, unchanged) positions.
-/

noncomputable section

namespace Cert.KernelIdeal.TakeFill

open Cert.KernelIdeal Idealize.ShloMosaic Idealize.ShloMosaic.ValueIdx

/-! ## A conjunction of ones -/

/-- A left fold by bitwise AND from the bit 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, IntOp.andi_eq_one.2 ⟨rfl, rfl⟩]
    exact foldl_andi_one f l (fun n hn => h n (List.mem_cons_of_mem _ hn))

/-- A reduction by AND, started from 1, of an array of bits that are all 1 is 1 at every result index: whichever
    operand indices reduce into it, each contributes a 1. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun i _ => hx i)

variable {F : FTy → Type} [FloatOps F] [Facts₀]
open Facts₀

/-! ## The composite operations, spelled with the printed operations -/

/-- The wrapped positions: `p + n` where `p` is negative, else `p`. -/
def wrap (n : BitVec 32) (idx : IVec S2500000 32) : IVec S2500000 32 :=
  select (cmpi .slt idx (broadcastInDim S2500000 ![] bcast_S_S2500000 (constantI S_ 32 0#32)))
    (addi idx (broadcastInDim S2500000 ![] bcast_S_S2500000 (constantI S_ 32 n))) idx

/-- The positions as a one-column table of start indices. -/
def col (w : IVec S2500000 32) : IVec S2500000x1 32 :=
  broadcastInDim S2500000x1 ![0] bcast_S2500000_S2500000x1_0 w

/-- The in-bounds mask, one bit per row: the AND over the row's one column of `0 ≤ w` and `w ≤ hi`. -/
def inb (hi : BitVec 32) (w5 : IVec S2500000x1 32) : IVec S2500000 1 :=
  Host.reduce IntOp.andi
    (andi (cmpi .sge w5 (broadcastInDim S2500000x1 ![] bcast_S_S2500000x1 (constantI S_ 32 0#32)))
      (cmpi .sle w5 (broadcastInDim S2500000x1 ![0, 1] bcast_S1x1_S2500000x1_0_1
        (broadcastInDim S1x1 ![1] bcast_S1_S1x1_1 (constantI S1 32 hi)))))
    (constantI S_ 1 1#1) reducesTo_S2500000x1_S2500000_d1 h_S_

/-- The fill-mode gather from the 50,000-row table. -/
def take50000 (x : FVec F S50000x64 .f32) (idx : IVec S2500000 32) : FVec F S2500000x64 .f32 :=
  select (broadcastInDim S2500000x64 ![0] bcast_S2500000_S2500000x64_0 (inb 49999#32 (col (wrap 50000#32 idx))))
    (Host.gather gather_S50000x64_S2500000x1_S2500000x64_1_0_n_n_0_1_164 x (col (wrap 50000#32 idx)))
    (broadcastInDim S2500000x64 ![] bcast_S_S2500000x64 (constant S_ .f32 0x7FC00000#32))

/-- The fill-mode gather from the 100,000-row table. -/
def take100000 (x : FVec F S100000x64 .f32) (idx : IVec S2500000 32) : FVec F S2500000x64 .f32 :=
  select (broadcastInDim S2500000x64 ![0] bcast_S2500000_S2500000x64_0 (inb 99999#32 (col (wrap 100000#32 idx))))
    (Host.gather gather_S100000x64_S2500000x1_S2500000x64_1_0_n_n_0_1_164 x (col (wrap 100000#32 idx)))
    (broadcastInDim S2500000x64 ![] bcast_S_S2500000x64 (constant S_ .f32 0x7FC00000#32))

/-! ## In range, nothing is wrapped and nothing is replaced -/

/-- A position that is not negative is left as it is: the signed compare `p < 0` fails, so the select keeps `p`. -/
theorem wrap_apply_of_nonneg (n : BitVec 32) (idx : IVec S2500000 32) (e : S2500000.Idx)
    (h : IntOp.cmpi .sge (idx e) 0#32 = 1#1) : wrap n idx e = idx e := by
  have z : (0#32 : BitVec 32).toInt = 0 := by decide
  have h0 : (0#32 : BitVec 32).toInt ≤ (idx e).toInt := IntOp.cmpi_sge.1 h
  have hlt : IntOp.cmpi .slt (idx e) 0#32 = 0#1 :=
    eq_zero_of_ne_one fun hc => by
      have h1 : (idx e).toInt < (0#32 : BitVec 32).toInt := IntOp.cmpi_slt.1 hc
      omega
  show Scalar.select (IntOp.cmpi .slt (idx e) 0#32) (IntOp.addi (idx e) n) (idx e) = idx e
  rw [hlt]
  exact select_zero _ _

/-- A position in `[0, b)` with `b = hi + 1` (as signed words) stays, after wrapping, in `[0, hi]`. -/
theorem wrap_range (n hi b : BitVec 32) (hb : b.toInt = hi.toInt + 1) (idx : IVec S2500000 32) (e : S2500000.Idx)
    (h : IntOp.cmpi .sge (idx e) 0#32 = 1#1 ∧ IntOp.cmpi .slt (idx e) b = 1#1) :
    IntOp.cmpi .sge (wrap n idx e) 0#32 = 1#1 ∧ IntOp.cmpi .sle (wrap n idx e) hi = 1#1 := by
  rw [wrap_apply_of_nonneg n idx e h.1]
  refine ⟨h.1, IntOp.cmpi_sle.2 ?_⟩
  have h1 : (idx e).toInt < b.toInt := IntOp.cmpi_slt.1 h.2
  omega

/-- With every position in `[0, hi]` the in-bounds mask is 1 at every row: each element of the one-column array
    under the AND-reduction is the AND of two compares that hold. -/
theorem inb_eq_one (hi : BitVec 32) (w : IVec S2500000 32)
    (hw : ∀ e, IntOp.cmpi .sge (w e) 0#32 = 1#1 ∧ IntOp.cmpi .sle (w e) hi = 1#1) (j : S2500000.Idx) :
    inb hi (col w) j = 1#1 := by
  unfold inb
  refine reduce_andi_of_all _ _ _ _ rfl (fun i => ?_) j
  show IntOp.andi (IntOp.cmpi .sge (col w i) 0#32) (IntOp.cmpi .sle (col w i) hi) = 1#1
  exact IntOp.andi_eq_one.2 (hw _)

/-- The replacement step does nothing when every wrapped position is in `[0, hi]`: the mask laid along the columns is
    1 at every element, and a select on the bit 1 is its first branch. -/
theorem fill_select_eq {α : Type} (hi : BitVec 32) (w : IVec S2500000 32)
    (hw : ∀ e, IntOp.cmpi .sge (w e) 0#32 = 1#1 ∧ IntOp.cmpi .sle (w e) hi = 1#1) (g c : S2500000x64.Idx → α) :
    select (broadcastInDim S2500000x64 ![0] bcast_S2500000_S2500000x64_0 (inb hi (col w))) g c = g := by
  funext p
  rw [select_apply]
  have hm : broadcastInDim S2500000x64 ![0] bcast_S2500000_S2500000x64_0 (inb hi (col w)) p = 1#1 :=
    inb_eq_one hi w hw _
  rw [hm]
  exact select_one _ _

/-- Every position in `[0, 50000)`: the fill-mode gather is the plain gather at the (unchanged) wrapped positions. -/
theorem take50000_eq (x : FVec F S50000x64 .f32) (idx : IVec S2500000 32)
    (h : ∀ e : S2500000.Idx, IntOp.cmpi .sge (idx e) 0#32 = 1#1 ∧ IntOp.cmpi .slt (idx e) 50000#32 = 1#1) :
    take50000 x idx
      = Host.gather gather_S50000x64_S2500000x1_S2500000x64_1_0_n_n_0_1_164 x (col (wrap 50000#32 idx)) :=
  fill_select_eq 49999#32 (wrap 50000#32 idx)
    (fun e => wrap_range 50000#32 49999#32 50000#32 (by decide) idx e (h e)) _ _

/-- Every position in `[0, 100000)`: likewise for the 100,000-row table. -/
theorem take100000_eq (x : FVec F S100000x64 .f32) (idx : IVec S2500000 32)
    (h : ∀ e : S2500000.Idx, IntOp.cmpi .sge (idx e) 0#32 = 1#1 ∧ IntOp.cmpi .slt (idx e) 100000#32 = 1#1) :
    take100000 x idx
      = Host.gather gather_S100000x64_S2500000x1_S2500000x64_1_0_n_n_0_1_164 x (col (wrap 100000#32 idx)) :=
  fill_select_eq 99999#32 (wrap 100000#32 idx)
    (fun e => wrap_range 100000#32 99999#32 100000#32 (by decide) idx e (h e)) _ _

/-- With no position negative the wrapped positions are the positions. -/
theorem wrap_eq_self (n : BitVec 32) (idx : IVec S2500000 32)
    (h : ∀ e : S2500000.Idx, IntOp.cmpi .sge (idx e) 0#32 = 1#1) : wrap n idx = idx :=
  funext fun e => wrap_apply_of_nonneg n idx e (h e)

end Cert.KernelIdeal.TakeFill

end
-- ==== Proof.PreRange.lean ====
import proofs.«422239_j35003983462563_2_alg».proof.Defs
import Idealize.ShloMosaic.Lib.ReduceAll
import Idealize.ShloMosaic.Lib.StableHlo.Predicate
import Idealize.ShloMosaic.Lib.ValueIdx
noncomputable section
namespace Cert.KernelIdeal.PreRange
open Idealize.ShloMosaic Idealize.SL.Sem

/-! The precondition is one scalar: the conjunction of ten "all entries pass" tests. The last two tests say that every
    entry of the row-index vector lies in [0, 100000) and every entry of the column-index vector lies in [0, 50000),
    as signed words. A conjunction of one-bit words is 1 exactly when each conjunct is 1; an all-axes reduction by
    conjunction that is 1 had a 1 at every entry; an entry of the tested array is the conjunction of two signed
    comparisons of the index word against a constant that was broadcast from a scalar. -/

/-- A scalar has one index. -/
local instance : Subsingleton S_.Idx := ⟨fun a b => funext fun d => d.elim0⟩

/-- One entry of the range test: the conjunction of "at least lo" and "below hi", each against a broadcast scalar
    constant, is 1 exactly when both signed comparisons of the word hold. -/
theorem entry_range [Cert.Pre_finite_inputs.Facts] (v : IVec S2500000 32) (lo hi : BitVec 32) (e : S2500000.Idx)
    (h : andi (cmpi .sge v (broadcastInDim S2500000 ![] Cert.Pre_finite_inputs.Facts.bcast_S_S2500000 (constantI S_ 32 lo)))
              (cmpi .slt v (broadcastInDim S2500000 ![] Cert.Pre_finite_inputs.Facts.bcast_S_S2500000 (constantI S_ 32 hi))) e = 1#1) :
    IntOp.cmpi .sge (v e) lo = 1#1 ∧ IntOp.cmpi .slt (v e) hi = 1#1 :=
  IntOp.andi_eq_one.1 h

/-- The tail of the chain: the running conjunction and the last all-entries test. -/
theorem part3_one {F : FTy → Type} [FloatOps F] [Cert.Pre_finite_inputs.Facts] (v45 : IVec S_ 1) (v50 : IVec S2500000 1)
    (h : Cert.Pre_finite_inputs.fn_part3 (F := F) v45 v50 = fun _ => 1#1) :
    v45 ValueIdx.ix0 = 1#1 ∧ ∀ e : S2500000.Idx, v50 e = 1#1 := by
  have e := congrFun h ValueIdx.ix0
  dsimp only [Cert.Pre_finite_inputs.fn_part3] at e
  obtain ⟨h1, h2⟩ := IntOp.andi_eq_one.1 e
  exact ⟨h1, fun i => Host.reduce_andi_all _ _ _ _ _ h2 i⟩

/-- The middle of the chain: it holds both index-range tests. -/
theorem part2_range {F : FTy → Type} [FloatOps F] [Cert.Pre_finite_inputs.Facts] (a7 : FVec F S2x2x2500000 .f32)
    (rows cols : IVec S2500000 32) (v33 : IVec S_ 1)
    (h : Cert.Pre_finite_inputs.fn_part2 (F := F) a7 rows cols v33 = fun _ => 1#1) :
    (∀ e : S2500000.Idx, IntOp.cmpi .sge (rows e) 0#32 = 1#1 ∧ IntOp.cmpi .slt (rows e) 100000#32 = 1#1)
    ∧ (∀ e : S2500000.Idx, IntOp.cmpi .sge (cols e) 0#32 = 1#1 ∧ IntOp.cmpi .slt (cols e) 50000#32 = 1#1) := by
  dsimp only [Cert.Pre_finite_inputs.fn_part2] at h
  obtain ⟨h45, h50⟩ := part3_one (F := F) _ _ h
  obtain ⟨-, h44⟩ := IntOp.andi_eq_one.1 h45
  exact ⟨fun e => entry_range rows 0#32 100000#32 e (Host.reduce_andi_all _ _ _ _ _ h44 e),
         fun e => entry_range cols 0#32 50000#32 e (h50 e)⟩

/-- THE PRECONDITION DECODED: every row index lies in [0, 100000) and every column index in [0, 50000), signed. -/
theorem range_of_fn {F : FTy → Type} [FloatOps F] [Cert.Pre_finite_inputs.Facts]
    (a0 : FVec F S100000x64 .f32) (a1 : FVec F S50000x64 .f32) (a2 : FVec F S2500000 .f32) (a3 : FVec F S100000x5 .f32)
    (a4 : FVec F S50000x5 .f32) (a5 : FVec F S5x100000 .f32) (a6 : FVec F S5x50000 .f32) (a7 : FVec F S2x2x2500000 .f32)
    (rows cols : IVec S2500000 32)
    (h : Cert.Pre_finite_inputs.fn (F := F) a0 a1 a2 a3 a4 a5 a6 a7 rows cols = fun _ => 1#1) :
    (∀ e : S2500000.Idx, IntOp.cmpi .sge (rows e) 0#32 = 1#1 ∧ IntOp.cmpi .slt (rows e) 100000#32 = 1#1)
    ∧ (∀ e : S2500000.Idx, IntOp.cmpi .sge (cols e) 0#32 = 1#1 ∧ IntOp.cmpi .slt (cols e) 50000#32 = 1#1) := by
  dsimp only [Cert.Pre_finite_inputs.fn, Cert.Pre_finite_inputs.fn_part1] at h
  exact part2_range (F := F) _ rows cols _ h

/-- The same, of the launch memory's two index arrays on any device. -/
theorem range_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : S2500000.Idx,
        IntOp.cmpi .sge (m ((c.tc : Thread Cert.KernelIdeal.nD Cert.KernelIdeal.τ).loc Cert.KernelIdeal.main_arg8) e) 0#32 = 1#1
        ∧ IntOp.cmpi .slt (m ((c.tc : Thread Cert.KernelIdeal.nD Cert.KernelIdeal.τ).loc Cert.KernelIdeal.main_arg8) e) 100000#32 = 1#1)
    ∧ (∀ e : S2500000.Idx,
        IntOp.cmpi .sge (m ((c.tc : Thread Cert.KernelIdeal.nD Cert.KernelIdeal.τ).loc Cert.KernelIdeal.main_arg9) e) 0#32 = 1#1
        ∧ IntOp.cmpi .slt (m ((c.tc : Thread Cert.KernelIdeal.nD Cert.KernelIdeal.τ).loc Cert.KernelIdeal.main_arg9) e) 50000#32 = 1#1) :=
  range_of_fn (F := Ideal) _ _ _ _ _ _ _ _ _ _ (h c)

end Cert.KernelIdeal.PreRange
end
-- ==== Proof.Algebraic.lean ====
import proofs.«422239_j35003983462563_2_alg».proof.Defs
import proofs.«422239_j35003983462563_2_alg».proof.Proof.Launched
import proofs.«422239_j35003983462563_2_alg».proof.Proof.ChainE
import proofs.«422239_j35003983462563_2_alg».proof.Proof.GBridge
import proofs.«422239_j35003983462563_2_alg».proof.Proof.KBridge
import proofs.«422239_j35003983462563_2_alg».proof.Proof.TakeFill
import proofs.«422239_j35003983462563_2_alg».proof.Proof.PreRange
import proofs.«422239_j35003983462563_2_alg».proof.Proof.Gen.ReferenceIdeal.Run
import proofs.«422239_j35003983462563_2_alg».proof.Proof.Gen.Pre_finite_inputs

/-! The two idealized programs compute the same four arrays.

    Kernel side: the fold through @main's segments leaves, in the four result buffers, the layer sums
    `(a + Z₀) + Z₁` of the two sparse products and `(a + G₀) + G₁` of the two low-rank products.  The sparse
    product of a layer scales the gathered rows by the masked edge values and adds them up by segment; the kernel's
    masked edge values are the reference's (the mask region is pointwise, and the padding is cut off again), and its
    gather replaces only rows whose index is out of range, of which there are none under the precondition.  The
    low-rank product is a K-blocked sum over a zero-padded contraction axis followed by a row-blocked product with
    five terms per entry: regrouping a finite sum of extended reals and dropping zero terms changes nothing, so
    both are the reference's `dot_general`s.  No law that fails at an infinity is used. -/

set_option maxRecDepth 16384

noncomputable section

namespace Cert.Proof.Alg

open Cert.KernelIdeal Cert.KernelIdeal.Gen Cert.KernelIdeal.Chain Cert.KernelIdeal.Facts₀ Cert.KernelIdeal.Facts
open Idealize.ShloMosaic Idealize.ShloMosaic.TcCoe Idealize.SL.Sem

variable (m : (ℓ : Loc nD τ sig) → Buf (Elt Ideal) ℓ) (ρ : Dev nD → PrngReg) (c : Dev nD)

/-- The user-side segment ids index the 100000 users. -/
abbrev RowsOk : Prop := ∀ e : S2500000.Idx, IntOp.cmpi .sge (a8 m c e) 0#32 = 1#1 ∧ IntOp.cmpi .slt (a8 m c e) 100000#32 = 1#1
/-- The item-side segment ids index the 50000 items. -/
abbrev ColsOk : Prop := ∀ e : S2500000.Idx, IntOp.cmpi .sge (a9 m c e) 0#32 = 1#1 ∧ IntOp.cmpi .slt (a9 m c e) 50000#32 = 1#1

/-- With every index in range the replacing gather is the plain gather: 50000-row tables read at the item ids. -/
theorem take_cols (hc : ColsOk m c) (x : FVec Ideal S50000x64 .f32) :
    Spec.take50000 x (a9 m c) = Host.gather gather_S50000x64_S2500000x1_S2500000x64_1_0_n_n_0_1_164 x (Spec.col (Spec.wrap 50000#32 (a9 m c))) :=
  (show Spec.take50000 x (a9 m c) = TakeFill.take50000 x (a9 m c) from rfl).trans (TakeFill.take50000_eq x (a9 m c) hc)

/-- 100000-row tables read at the user ids. -/
theorem take_rows (hr : RowsOk m c) (x : FVec Ideal S100000x64 .f32) :
    Spec.take100000 x (a8 m c) = Host.gather gather_S100000x64_S2500000x1_S2500000x64_1_0_n_n_0_1_164 x (Spec.col (Spec.wrap 100000#32 (a8 m c))) :=
  (show Spec.take100000 x (a8 m c) = TakeFill.take100000 x (a8 m c) from rfl).trans (TakeFill.take100000_eq x (a8 m c) hr)

/-- Layer 0's sparse products over the reference's masked edge values and plain gathers. -/
theorem zu0_ref (hc : ColsOk m c) : Zu0 m ρ c = Spec.spmm100000 (KeepBridge.keepR00 (a7 m c) (a2 m c))
    (Host.gather gather_S50000x64_S2500000x1_S2500000x64_1_0_n_n_0_1_164 (a1 m c) (Spec.col (Spec.wrap 50000#32 (a9 m c)))) (a8 m c) := by
  unfold Zu0; rw [Bridge.keep00 m ρ c, take_cols m c hc]
theorem zi0_ref (hr : RowsOk m c) : Zi0 m ρ c = Spec.spmm50000 (KeepBridge.keepR01 (a7 m c) (a2 m c))
    (Host.gather gather_S100000x64_S2500000x1_S2500000x64_1_0_n_n_0_1_164 (a0 m c) (Spec.col (Spec.wrap 100000#32 (a8 m c)))) (a9 m c) := by
  unfold Zi0; rw [Bridge.keep01 m ρ c, take_rows m c hr]
/-- Layer 1's, over layer 0's. -/
theorem zu1_ref (hc : ColsOk m c) : Zu1 m ρ c = Spec.spmm100000 (KeepBridge.keepR10 (a7 m c) (a2 m c))
    (Host.gather gather_S50000x64_S2500000x1_S2500000x64_1_0_n_n_0_1_164 (Zi0 m ρ c) (Spec.col (Spec.wrap 50000#32 (a9 m c)))) (a8 m c) := by
  unfold Zu1; rw [Bridge.keep10 m ρ c, take_cols m c hc]
theorem zi1_ref (hr : RowsOk m c) : Zi1 m ρ c = Spec.spmm50000 (KeepBridge.keepR11 (a7 m c) (a2 m c))
    (Host.gather gather_S100000x64_S2500000x1_S2500000x64_1_0_n_n_0_1_164 (Zu0 m ρ c) (Spec.col (Spec.wrap 100000#32 (a8 m c)))) (a9 m c) := by
  unfold Zi1; rw [Bridge.keep11 m ρ c, take_rows m c hr]

end Cert.Proof.Alg

namespace Cert.Proof

open Cert.KernelIdeal.Chain Cert.Proof.Alg Idealize.ShloMosaic Idealize.SL.Sem

/-- From memories agreeing on the arguments both idealized programs end with the same four arrays: the kernel's
    fold through its segments against the reference's composed term, bridged piece by piece. -/
theorem algebraic : Cert.algebraic_KernelIdeal_ReferenceIdeal := by
  intro m ρ m' ρ' hpre hagree
  refine ⟨fun c => addf (addf (a0 m c) (Zu0 m ρ c)) (Zu1 m ρ c), fun c => addf (addf (a1 m c) (Zi0 m ρ c)) (Zi1 m ρ c),
    fun c => addf (addf (a0 m c) (X3 m ρ c)) (X7 m ρ c), fun c => addf (addf (a1 m c) (X4 m ρ c)) (X8 m ρ c), ?_, ?_⟩
  · exact (θ_run Cert.KernelIdeal.defs _ _).mono (fun r h c =>
      ⟨(h c).1.trans (w41_main_v71 m ρ c), (h c).2.1.trans (w41_main_v72 m ρ c), (h c).2.2.1.trans (w41_main_v73 m ρ c),
        (h c).2.2.2.1.trans (w41_main_v74 m ρ c), (h c).2.2.2.2⟩) (Cert.KernelIdeal.Launched.run_results (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9⟩ := hagree c
    obtain ⟨hr, hc⟩ := Cert.KernelIdeal.PreRange.range_of_pre m hpre c
    refine ⟨(h c).1.trans ?_, (h c).2.1.trans ?_, (h c).2.2.1.trans ?_, (h c).2.2.2.1.trans ?_, (h c).2.2.2.2⟩
    · show _ = addf (addf (a0 m c) (Zu0 m ρ c)) (Zu1 m ρ c)
      rw [h0, h1, h2, h7, h8, h9, zu1_ref m ρ c hc, zi0_ref m ρ c hr, zu0_ref m ρ c hc]; rfl
    · show _ = addf (addf (a1 m c) (Zi0 m ρ c)) (Zi1 m ρ c)
      rw [h0, h1, h2, h7, h8, h9, zi1_ref m ρ c hr, zu0_ref m ρ c hc, zi0_ref m ρ c hr]; rfl
    · show _ = addf (addf (a0 m c) (X3 m ρ c)) (X7 m ρ c)
      rw [h0, h1, h2, h3, h6, h7, h8, h9, Cert.KernelIdeal.Bridge.g7 m ρ c, Cert.KernelIdeal.Bridge.g3 m ρ c, zi0_ref m ρ c hr]; rfl
    · show _ = addf (addf (a1 m c) (X4 m ρ c)) (X8 m ρ c)
      rw [h0, h1, h2, h4, h5, h7, h8, h9, Cert.KernelIdeal.Bridge.g8 m ρ c, Cert.KernelIdeal.Bridge.g4 m ρ c, zu0_ref m ρ c hc]; rfl

end Cert.Proof

end
-- ==== Proof.lean ====
/- The claim, assembled.  The kernel program (a dropout-mask region, four K-blocked and four row-blocked low-rank
   products among host gathers and segment sums, two layers) and its reference compute, over the extended reals, the
   same four arrays: the layer sums of the sparse products `A·E` and of the low-rank products `U·(Vᵀ·E)`.  Each of the
   three programs runs to its end from any memory with its argument arrays unchanged; the idealized kernel program is the
   word-level one read at the ideal instance (the ideal pass rewrote nothing); and from memories that agree on the
   arguments, whose segment ids index their tables in range, the two idealized programs end with equal results
   (Proof/Algebraic.lean). -/
import proofs.«422239_j35003983462563_2_alg».proof.Defs
import proofs.«422239_j35003983462563_2_alg».proof.Proof.Gen.Kernel
import proofs.«422239_j35003983462563_2_alg».proof.Proof.Gen.Kernel.Skeleton
import proofs.«422239_j35003983462563_2_alg».proof.Proof.Gen.Kernel.Launch
import proofs.«422239_j35003983462563_2_alg».proof.Proof.Gen.Kernel.Points
import proofs.«422239_j35003983462563_2_alg».proof.Proof.Gen.Kernel.Frame
import proofs.«422239_j35003983462563_2_alg».proof.Proof.Gen.KernelIdeal
import proofs.«422239_j35003983462563_2_alg».proof.Proof.Gen.KernelIdeal.Skeleton
import proofs.«422239_j35003983462563_2_alg».proof.Proof.Gen.KernelIdeal.Launch
import proofs.«422239_j35003983462563_2_alg».proof.Proof.Gen.KernelIdeal.Points
import proofs.«422239_j35003983462563_2_alg».proof.Proof.Gen.KernelIdeal.Frame
import proofs.«422239_j35003983462563_2_alg».proof.Proof.Gen.ReferenceIdeal
import proofs.«422239_j35003983462563_2_alg».proof.Proof.Gen.ReferenceIdeal.Run
import proofs.«422239_j35003983462563_2_alg».proof.Proof.Gen.Pre_finite_inputs
import proofs.«422239_j35003983462563_2_alg».proof.Proof.Algebraic
import Idealize.ShloMosaic.Adequacy
import Idealize.ShloMosaic.Init

noncomputable section

namespace Cert.Proof

open Idealize.ShloMosaic Idealize.SL.Sem Cert.Kernel

/-- The word-level kernel program runs to its end and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run names every result, and keeps the arguments. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
